-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x400x128 : Shape := ⟨3, ![1024, 400, 128]⟩
abbrev S1024x128x128 : Shape := ⟨3, ![1024, 128, 128]⟩
abbrev S1024x128x400 : Shape := ⟨3, ![1024, 128, 400]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S1024x400x128 : S_.BroadcastsInDim S1024x400x128 (![] : Fin 0 → Fin S1024x400x128.rank)
  reducesTo_S1024x400x128_S_d0_1_2 : S1024x400x128.ReducesTo [0, 1, 2] S_
  h_S_ : 0 < S_.numel
  bcast_S_S1024x128x128 : S_.BroadcastsInDim S1024x128x128 (![] : Fin 0 → Fin S1024x128x128.rank)
  reducesTo_S1024x128x128_S_d0_1_2 : S1024x128x128.ReducesTo [0, 1, 2] S_
  bcast_S_S1024x128x400 : S_.BroadcastsInDim S1024x128x400 (![] : Fin 0 → Fin S1024x128x400.rank)
  reducesTo_S1024x128x400_S_d0_1_2 : S1024x128x400.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x256 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S1024x128x400 1) : IVec S_ 1 :=
  let main_c_5 : IVec S_ 1 := constantI S_ 1 1#1
  let main_v17 : IVec S_ 1 := (fun x v => Host.reduce IntOp.andi x v reducesTo_S1024x128x400_S_d0_1_2 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x400x128 .f32) (main_arg1 : FVec F S1024x128x128 .f32) (main_arg2 : FVec F S1024x128x400 .f32) (main_arg3 : FVec F S1024x128x400 .f32) (main_arg4 : FVec F S128x256 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S1024x400x128 .f32 := Host.absf main_arg0
  let main_cst : FVec F S_ .f32 := constant S_ .f32 0x7F800000#32
  let main_v1 : FVec F S1024x400x128 .f32 := broadcastInDim S1024x400x128 ![] bcast_S_S1024x400x128 main_cst
  let main_v2 : IVec S1024x400x128 1 := cmpf .olt main_v0 main_v1
  let main_c : IVec S_ 1 := constantI S_ 1 1#1
  let main_v3 : IVec S_ 1 := (fun x v => Host.reduce IntOp.andi x v reducesTo_S1024x400x128_S_d0_1_2 h_S_) main_v2 main_c
  let main_v4 : FVec F S1024x128x128 .f32 := Host.absf main_arg1
  let main_cst_0 : FVec F S_ .f32 := constant S_ .f32 0x7F800000#32
  let main_v5 : FVec F S1024x128x128 .f32 := broadcastInDim S1024x128x128 ![] bcast_S_S1024x128x128 main_cst_0
  let main_v6 : IVec S1024x128x128 1 := cmpf .olt main_v4 main_v5
  let main_c_1 : IVec S_ 1 := constantI S_ 1 1#1
  let main_v7 : IVec S_ 1 := (fun x v => Host.reduce IntOp.andi x v reducesTo_S1024x128x128_S_d0_1_2 h_S_) main_v6 main_c_1
  let main_v8 : IVec S_ 1 := andi main_v3 main_v7
  let main_v9 : FVec F S1024x128x400 .f32 := Host.absf main_arg2
  let main_cst_2 : FVec F S_ .f32 := constant S_ .f32 0x7F800000#32
  let main_v10 : FVec F S1024x128x400 .f32 := broadcastInDim S1024x128x400 ![] bcast_S_S1024x128x400 main_cst_2
  let main_v11 : IVec S1024x128x400 1 := cmpf .olt main_v9 main_v10
  let main_c_3 : IVec S_ 1 := constantI S_ 1 1#1
  let main_v12 : IVec S_ 1 := (fun x v => Host.reduce IntOp.andi x v reducesTo_S1024x128x400_S_d0_1_2 h_S_) main_v11 main_c_3
  let main_v13 : IVec S_ 1 := andi main_v8 main_v12
  let main_v14 : FVec F S1024x128x400 .f32 := Host.absf main_arg3
  let main_cst_4 : FVec F S_ .f32 := constant S_ .f32 0x7F800000#32
  let main_v15 : FVec F S1024x128x400 .f32 := broadcastInDim S1024x128x400 ![] bcast_S_S1024x128x400 main_cst_4
  let main_v16 : IVec S1024x128x400 1 := cmpf .olt main_v14 main_v15
  fn_part1 (F := F) main_arg4 main_arg5 main_arg6 main_arg7 main_arg8 main_arg9 main_arg10 main_arg11 main_v13 main_v16
-- ==== Kernel.lean ====
abbrev S1024x400x128 : Shape := ⟨3, ![1024, 400, 128]⟩
abbrev S1024x128x128 : Shape := ⟨3, ![1024, 128, 128]⟩
abbrev S1024x128x400 : Shape := ⟨3, ![1024, 128, 400]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S16x128x400 : Shape := ⟨3, ![16, 128, 400]⟩
abbrev S16x400x128 : Shape := ⟨3, ![16, 400, 128]⟩
abbrev S16x128x128 : Shape := ⟨3, ![16, 128, 128]⟩
abbrev S2048x128 : Shape := ⟨2, ![2048, 128]⟩
abbrev S16x128 : Shape := ⟨2, ![16, 128]⟩
abbrev S_ : Shape := ⟨0, ![]⟩
abbrev S1x128x1 : Shape := ⟨3, ![1, 128, 1]⟩
abbrev S64x128x128 : Shape := ⟨3, ![64, 128, 128]⟩
abbrev S8192x128 : Shape := ⟨2, ![8192, 128]⟩
abbrev S64x128 : Shape := ⟨2, ![64, 128]⟩

abbrev nBuf : Space → Nat
  | .hbm => 64
  | .vmem => 31
  | .smem => 0
  | _ => 0

abbrev bufTy : (tb : Table) → Fin (tcTables nBuf tb) → BufTy
  | .hbm, ⟨0, _⟩ => ⟨S1024x400x128, .f32⟩
  | .hbm, ⟨1, _⟩ => ⟨S1024x128x128, .f32⟩
  | .hbm, ⟨2, _⟩ => ⟨S1024x128x400, .f32⟩
  | .hbm, ⟨3, _⟩ => ⟨S1024x128x400, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S1024x128x128, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128x1, .f32⟩
  | .hbm, ⟨40, _⟩ => ⟨S1x128x1, .f32⟩
  | .hbm, ⟨41, _⟩ => ⟨S1024x128x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128x1, .f32⟩
  | .hbm, ⟨62, _⟩ => ⟨S1x128x1, .f32⟩
  | .hbm, ⟨63, _⟩ => ⟨S1024x128x128, .f32⟩
  | .local _ .vmem, ⟨0, _⟩ => ⟨S16x128x400, .f32⟩
  | .local _ .vmem, ⟨1, _⟩ => ⟨S16x128x400, .f32⟩
  | .local _ .vmem, ⟨2, _⟩ => ⟨S16x128x400, .f32⟩
  | .local _ .vmem, ⟨3, _⟩ => ⟨S16x128x400, .f32⟩
  | .local _ .vmem, ⟨4, _⟩ => ⟨S16x400x128, .f32⟩
  | .local _ .vmem, ⟨5, _⟩ => ⟨S16x400x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S16x128x128, .f32⟩
  | .local _ .vmem, ⟨10, _⟩ => ⟨S16x128x128, .f32⟩
  | .local _ .vmem, ⟨11, _⟩ => ⟨S1x128, .f32⟩
  | .local _ .vmem, ⟨12, _⟩ => ⟨S1x128, .f32⟩
  | .local _ .vmem, ⟨13, _⟩ => ⟨S64x128x128, .f32⟩
  | .local _ .vmem, ⟨14, _⟩ => ⟨S64x128x128, .f32⟩
  | .local _ .vmem, ⟨15, _⟩ => ⟨S1x128x1, .f32⟩
  | .local _ .vmem, ⟨16, _⟩ => ⟨S1x128x1, .f32⟩
  | .local _ .vmem, ⟨17, _⟩ => ⟨S128x128, .f32⟩
  | .local _ .vmem, ⟨18, _⟩ => ⟨S1x128, .f32⟩
  | .local _ .vmem, ⟨19, _⟩ => ⟨S64x128x128, .f32⟩
  | .local _ .vmem, ⟨20, _⟩ => ⟨S64x128x128, .f32⟩
  | .local _ .vmem, ⟨21, _⟩ => ⟨S1x128, .f32⟩
  | .local _ .vmem, ⟨22, _⟩ => ⟨S1x128, .f32⟩
  | .local _ .vmem, ⟨23, _⟩ => ⟨S64x128x128, .f32⟩
  | .local _ .vmem, ⟨24, _⟩ => ⟨S64x128x128, .f32⟩
  | .local _ .vmem, ⟨25, _⟩ => ⟨S1x128x1, .f32⟩
  | .local _ .vmem, ⟨26, _⟩ => ⟨S1x128x1, .f32⟩
  | .local _ .vmem, ⟨27, _⟩ => ⟨S64x128x128, .f32⟩
  | .local _ .vmem, ⟨28, _⟩ => ⟨S64x128x128, .f32⟩
  | .local _ .vmem, ⟨29, _⟩ => ⟨S64x128x128, .f32⟩
  | .local _ .vmem, ⟨30, _⟩ => ⟨S64x128x128, .f32⟩
  | _, _ => ⟨S1024x400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg7_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem7_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S64x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S16x128x400_S16x128x400_0_0_0 : ∀ a, (![0, 0, 0] : Fin 3 → Nat) a + S16x128x400.size a ≤ S16x128x400.size a
  h_S16x128x400 : 0 < S16x128x400.numel
  bitsLt_bf16_f32 : FTy.bits .bf16 < FTy.bits .f32
  inb_S16x400x128_S16x400x128_0_0_0 : ∀ a, (![0, 0, 0] : Fin 3 → Nat) a + S16x400x128.size a ≤ S16x400x128.size a
  h_S16x400x128 : 0 < S16x400x128.numel
  shapeCasts_S16x128x128_S2048x128 : S16x128x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S2048x128 : S1x128.Broadcasts S2048x128
  shapeCasts_S2048x128_S16x128x128 : S2048x128.ShapeCasts S16x128x128
  inb_S16x128x128_S16x128x128_0_0_0 : ∀ a, (![0, 0, 0] : Fin 3 → Nat) a + S16x128x128.size a ≤ S16x128x128.size a
  h_S16x128x128 : 0 < S16x128x128.numel
  reduces_S16x128x128_S16x128 : S16x128x128.Reduces [2] S16x128
  reduces_S16x128_S128 : S16x128.Reduces [0] S128
  bcast_S_S1x128 : S_.BroadcastsInDim S1x128 (![] : Fin 0 → Fin S1x128.rank)
  shapeCasts_S1x128_S1x128x1 : S1x128.ShapeCasts S1x128x1
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  broadcasts_S1x128x1_S64x128x128 : S1x128x1.Broadcasts S64x128x128
  shapeCasts_S64x128x128_S8192x128 : S64x128x128.ShapeCasts S8192x128
  broadcasts_S1x128_S8192x128 : S1x128.Broadcasts S8192x128
  shapeCasts_S8192x128_S64x128x128 : S8192x128.ShapeCasts S64x128x128
  reduces_S64x128x128_S64x128 : S64x128x128.Reduces [2] S64x128
  reduces_S64x128_S128 : S64x128.Reduces [0] S128
  dot_S16x128x400_S16x400x128_S16x128x128_2_1_1_2_0_0_wf : DotDims.WF S16x128x400 S16x400x128 S16x128x128 [2] [1] [1] [2] [0] [0]
  dot_S2048x128_S128x128_S2048x128_1_0_0_1_n_n_wf : DotDims.WF S2048x128 S128x128 S2048x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x400.size a ≤ S1024x128x400.size a
  hwx0_0 : ∀ i : grid0.Coords, EltTy.bits .f32 = 32 ∨ (Rect.block (s := S1024x128x400) S16x128x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x400.size a ≤ S1024x128x400.size a
  hwx0_1 : ∀ i : grid0.Coords, EltTy.bits .f32 = 32 ∨ (Rect.block (s := S1024x128x400) S16x128x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x400x128.size a ≤ S1024x400x128.size a
  hwx0_2 : ∀ i : grid0.Coords, EltTy.bits .f32 = 32 ∨ (Rect.block (s := S1024x400x128) S16x400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128x128.size a ≤ S1024x128x128.size a
  hwx0_6 : ∀ i : grid0.Coords, EltTy.bits .f32 = 32 ∨ (Rect.block (s := S1024x128x128) S16x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128x128.size a ≤ S1024x128x128.size a
  hwx1_0 : ∀ i : grid1.Coords, EltTy.bits .f32 = 32 ∨ (Rect.block (s := S1024x128x128) S64x128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128x1.size a ≤ S1x128x1.size a
  hwx1_1 : ∀ i : grid1.Coords, EltTy.bits .f32 = 32 ∨ (Rect.block (s := S1x128x1) S1x128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128x1.size a ≤ S1x128x1.size a
  hwx1_2 : ∀ i : grid1.Coords, EltTy.bits .f32 = 32 ∨ (Rect.block (s := S1x128x1) S1x128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x128x128.size a ≤ S1024x128x128.size a
  hwx1_5 : ∀ i : grid1.Coords, EltTy.bits .f32 = 32 ∨ (Rect.block (s := S1024x128x128) S64x128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x128x128.size a ≤ S1024x128x128.size a
  hwx2_0 : ∀ i : grid2.Coords, EltTy.bits .f32 = 32 ∨ (Rect.block (s := S1024x128x128) S64x128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128x1.size a ≤ S1x128x1.size a
  hwx2_1 : ∀ i : grid2.Coords, EltTy.bits .f32 = 32 ∨ (Rect.block (s := S1x128x1) S1x128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128x1.size a ≤ S1x128x1.size a
  hwx2_2 : ∀ i : grid2.Coords, EltTy.bits .f32 = 32 ∨ (Rect.block (s := S1x128x1) S1x128x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x128x128.size a ≤ S1024x128x128.size a
  hwx2_3 : ∀ i : grid2.Coords, EltTy.bits .f32 = 32 ∨ (Rect.block (s := S1024x128x128) S64x128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x128x128.size a ≤ S1024x128x128.size a
  hwx2_4 : ∀ i : grid2.Coords, EltTy.bits .f32 = 32 ∨ (Rect.block (s := S1024x128x128) S64x128x128.size (cc2_transform_4 i) (hinb2_4 i)).WholeWords (EltTy.packing .f32)

variable [Facts₀]

def dot_S16x128x400_S16x400x128_S16x128x128_2_1_1_2_0_0 : DotDims S16x128x400 S16x400x128 S16x128x128 where
  lhsContracting := [2]
  rhsContracting := [1]
  lhsNonContracting := [1]
  rhsNonContracting := [2]
  lhsBatch := [0]
  rhsBatch := [0]
  wf := dot_S16x128x400_S16x400x128_S16x128x128_2_1_1_2_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg2) S16x128x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128x400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S16x400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S16x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v7_0) S64x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S64x128x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v24_0) S64x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S64x128x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x128x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1024x400x128 : Shape := ⟨3, ![1024, 400, 128]⟩
abbrev S1024x128x128 : Shape := ⟨3, ![1024, 128, 128]⟩
abbrev S1024x128x400 : Shape := ⟨3, ![1024, 128, 400]⟩
abbrev S128x256 : Shape := ⟨2, ![128, 256]⟩
abbrev S128 : Shape := ⟨1, ![128]⟩
abbrev S128x128 : Shape := ⟨2, ![128, 128]⟩
abbrev S1024x128x256 : Shape := ⟨3, ![1024, 128, 256]⟩
abbrev S1x1x128 : Shape := ⟨3, ![1, 1, 128]⟩
abbrev S_ : Shape := ⟨0, ![]⟩
abbrev S1x128x1 : Shape := ⟨3, ![1, 128, 1]⟩

abbrev nBuf : Space → Nat
  | .hbm => 88
  | .vmem => 0
  | .smem => 0
  | _ => 0

abbrev bufTy : (tb : Table) → Fin (tcTables nBuf tb) → BufTy
  | .hbm, ⟨0, _⟩ => ⟨S1024x400x128, .f32⟩
  | .hbm, ⟨1, _⟩ => ⟨S1024x128x128, .f32⟩
  | .hbm, ⟨2, _⟩ => ⟨S1024x128x400, .f32⟩
  | .hbm, ⟨3, _⟩ => ⟨S1024x128x400, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1024x128x128, .f32⟩
  | .hbm, ⟨13, _⟩ => ⟨S1024x128x128, .f32⟩
  | .hbm, ⟨14, _⟩ => ⟨S1024x128x256, .f32⟩
  | .hbm, ⟨15, _⟩ => ⟨S1024x128x128, .f32⟩
  | .hbm, ⟨16, _⟩ => ⟨S1x1x128, .f32⟩
  | .hbm, ⟨17, _⟩ => ⟨S1024x128x128, .f32⟩
  | .hbm, ⟨18, _⟩ => ⟨S1024x128x128, .f32⟩
  | .hbm, ⟨19, _⟩ => ⟨S_, .f32⟩
  | .hbm, ⟨20, _⟩ => ⟨S128, .f32⟩
  | .hbm, ⟨21, _⟩ => ⟨S1x128x1, .f32⟩
  | .hbm, ⟨22, _⟩ => ⟨S_, .f32⟩
  | .hbm, ⟨23, _⟩ => ⟨S1x128x1, .f32⟩
  | .hbm, ⟨24, _⟩ => ⟨S1x128x1, .f32⟩
  | .hbm, ⟨25, _⟩ => ⟨S1024x128x128, .f32⟩
  | .hbm, ⟨26, _⟩ => ⟨S1024x128x128, .f32⟩
  | .hbm, ⟨27, _⟩ => ⟨S1024x128x128, .f32⟩
  | .hbm, ⟨28, _⟩ => ⟨S_, .f32⟩
  | .hbm, ⟨29, _⟩ => ⟨S128, .f32⟩
  | .hbm, ⟨30, _⟩ => ⟨S1x128x1, .f32⟩
  | .hbm, ⟨31, _⟩ => ⟨S_, .f32⟩
  | .hbm, ⟨32, _⟩ => ⟨S1x128x1, .f32⟩
  | .hbm, ⟨33, _⟩ => ⟨S1x128x1, .f32⟩
  | .hbm, ⟨34, _⟩ => ⟨S1024x128x128, .f32⟩
  | .hbm, ⟨35, _⟩ => ⟨S1024x128x128, .f32⟩
  | .hbm, ⟨36, _⟩ => ⟨S_, .f32⟩
  | .hbm, ⟨37, _⟩ => ⟨S1x128x1, .f32⟩
  | .hbm, ⟨38, _⟩ => ⟨S1x128x1, .f32⟩
  | .hbm, ⟨39, _⟩ => ⟨S1x128x1, .f32⟩
  | .hbm, ⟨40, _⟩ => ⟨S1024x128x128, .f32⟩
  | .hbm, ⟨41, _⟩ => ⟨S1024x128x128, .f32⟩
  | .hbm, ⟨42, _⟩ => ⟨S1x128x1, .f32⟩
  | .hbm, ⟨43, _⟩ => ⟨S1024x128x128, .f32⟩
  | .hbm, ⟨44, _⟩ => ⟨S1024x128x128, .f32⟩
  | .hbm, ⟨45, _⟩ => ⟨S1x128x1, .f32⟩
  | .hbm, ⟨46, _⟩ => ⟨S1024x128x128, .f32⟩
  | .hbm, ⟨47, _⟩ => ⟨S1024x128x128, .f32⟩
  | .hbm, ⟨48, _⟩ => ⟨S_, .f32⟩
  | .hbm, ⟨49, _⟩ => ⟨S1024x128x128, .f32⟩
  | .hbm, ⟨50, _⟩ => ⟨S1024x128x128, .f32⟩
  | .hbm, ⟨51, _⟩ => ⟨S1024x128x128, .f32⟩
  | .hbm, ⟨52, _⟩ => ⟨S1x1x128, .f32⟩
  | .hbm, ⟨53, _⟩ => ⟨S1024x128x128, .f32⟩
  | .hbm, ⟨54, _⟩ => ⟨S1024x128x128, .f32⟩
  | .hbm, ⟨55, _⟩ => ⟨S_, .f32⟩
  | .hbm, ⟨56, _⟩ => ⟨S128, .f32⟩
  | .hbm, ⟨57, _⟩ => ⟨S1x128x1, .f32⟩
  | .hbm, ⟨58, _⟩ => ⟨S_, .f32⟩
  | .hbm, ⟨59, _⟩ => ⟨S1x128x1, .f32⟩
  | .hbm, ⟨60, _⟩ => ⟨S1x128x1, .f32⟩
  | .hbm, ⟨61, _⟩ => ⟨S1024x128x128, .f32⟩
  | .hbm, ⟨62, _⟩ => ⟨S1024x128x128, .f32⟩
  | .hbm, ⟨63, _⟩ => ⟨S1024x128x128, .f32⟩
  | .hbm, ⟨64, _⟩ => ⟨S_, .f32⟩
  | .hbm, ⟨65, _⟩ => ⟨S128, .f32⟩
  | .hbm, ⟨66, _⟩ => ⟨S1x128x1, .f32⟩
  | .hbm, ⟨67, _⟩ => ⟨S_, .f32⟩
  | .hbm, ⟨68, _⟩ => ⟨S1x128x1, .f32⟩
  | .hbm, ⟨69, _⟩ => ⟨S1x128x1, .f32⟩
  | .hbm, ⟨70, _⟩ => ⟨S1024x128x128, .f32⟩
  | .hbm, ⟨71, _⟩ => ⟨S1024x128x128, .f32⟩
  | .hbm, ⟨72, _⟩ => ⟨S_, .f32⟩
  | .hbm, ⟨73, _⟩ => ⟨S1x128x1, .f32⟩
  | .hbm, ⟨74, _⟩ => ⟨S1x128x1, .f32⟩
  | .hbm, ⟨75, _⟩ => ⟨S1x128x1, .f32⟩
  | .hbm, ⟨76, _⟩ => ⟨S1024x128x128, .f32⟩
  | .hbm, ⟨77, _⟩ => ⟨S1024x128x128, .f32⟩
  | .hbm, ⟨78, _⟩ => ⟨S1x128x1, .f32⟩
  | .hbm, ⟨79, _⟩ => ⟨S1024x128x128, .f32⟩
  | .hbm, ⟨80, _⟩ => ⟨S1024x128x128, .f32⟩
  | .hbm, ⟨81, _⟩ => ⟨S1x128x1, .f32⟩
  | .hbm, ⟨82, _⟩ => ⟨S1024x128x128, .f32⟩
  | .hbm, ⟨83, _⟩ => ⟨S1024x128x128, .f32⟩
  | .hbm, ⟨84, _⟩ => ⟨S1024x128x128, .f32⟩
  | .hbm, ⟨85, _⟩ => ⟨S_, .f32⟩
  | .hbm, ⟨86, _⟩ => ⟨S1024x128x128, .f32⟩
  | .hbm, ⟨87, _⟩ => ⟨S1024x128x128, .f32⟩
  | _, _ => ⟨S1024x400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  concatenates_S1024x128x128_S1024x128x128_S1024x128x256_d2 : Shape.Concatenates [S1024x128x128, S1024x128x128] S1024x128x256 2
  bcast_S128_S1x1x128_2 : S128.BroadcastsInDim S1x1x128 (![2] : Fin 1 → Fin S1x1x128.rank)
  bcast_S1x1x128_S1024x128x128_0_1_2 : S1x1x128.BroadcastsInDim S1024x128x128 (![0, 1, 2] : Fin 3 → Fin S1024x128x128.rank)
  reducesTo_S1024x128x128_S128_d0_2 : S1024x128x128.ReducesTo [0, 2] S128
  h_S_ : 0 < S_.numel
  bcast_S128_S1x128x1_1 : S128.BroadcastsInDim S1x128x1 (![1] : Fin 1 → Fin S1x128x1.rank)
  bcast_S_S1x128x1 : S_.BroadcastsInDim S1x128x1 (![] : Fin 0 → Fin S1x128x1.rank)
  bcast_S1x128x1_S1024x128x128_0_1_2 : S1x128x1.BroadcastsInDim S1024x128x128 (![0, 1, 2] : Fin 3 → Fin S1024x128x128.rank)
  bcast_S_S1024x128x128 : S_.BroadcastsInDim S1024x128x128 (![] : Fin 0 → Fin S1024x128x128.rank)
  dot_S1024x128x400_S1024x400x128_S1024x128x128_2_1_1_2_0_0_wf : DotDims.WF S1024x128x400 S1024x400x128 S1024x128x128 [2] [1] [1] [2] [0] [0]
  dot_S1024x128x256_S128x256_S1024x128x128_2_1_01_0_n_n_wf : DotDims.WF S1024x128x256 S128x256 S1024x128x128 [2] [1] [0, 1] [0] [] []
  dot_S1024x128x128_S128x128_S1024x128x128_2_1_01_0_n_n_wf : DotDims.WF S1024x128x128 S128x128 S1024x128x128 [2] [1] [0, 1] [0] [] []

variable [Facts₀]

def dot_S1024x128x400_S1024x400x128_S1024x128x128_2_1_1_2_0_0 : DotDims S1024x128x400 S1024x400x128 S1024x128x128 where
  lhsContracting := [2]
  rhsContracting := [1]
  lhsNonContracting := [1]
  rhsNonContracting := [2]
  lhsBatch := [0]
  rhsBatch := [0]
  wf := dot_S1024x128x400_S1024x400x128_S1024x128x128_2_1_1_2_0_0_wf
def dot_S1024x128x256_S128x256_S1024x128x128_2_1_01_0_n_n : DotDims S1024x128x256 S128x256 S1024x128x128 where
  lhsContracting := [2]
  rhsContracting := [1]
  lhsNonContracting := [0, 1]
  rhsNonContracting := [0]
  lhsBatch := []
  rhsBatch := []
  wf := dot_S1024x128x256_S128x256_S1024x128x128_2_1_01_0_n_n_wf
def dot_S1024x128x128_S128x128_S1024x128x128_2_1_01_0_n_n : DotDims S1024x128x128 S128x128 S1024x128x128 where
  lhsContracting := [2]
  rhsContracting := [1]
  lhsNonContracting := [0, 1]
  rhsNonContracting := [0]
  lhsBatch := []
  rhsBatch := []
  wf := dot_S1024x128x128_S128x128_S1024x128x128_2_1_01_0_n_n_wf

class Facts : Prop extends Facts₀ where

variable [Facts]
-- ==== Proof.Spec.lean ====
/-
  The mathematics both programs compute, as functions over the extended reals, index by index.

  Inputs: two selection arrays `ss`, `es` [1024,128,400], node features `go` [1024,400,128], an edge array `eout`
  [1024,128,128], two weight matrices, two bias rows and two pairs of per-channel scale/offset rows. The network is
    h₁ = (ss·go)·W₁ₐᵀ + (es·go)·W₁ᵦᵀ + b₁,   a₁ = max(BN(h₁), 0),   h₂ = a₁·W₂ᵀ + b₂,   out = max(eout + BN(h₂), 0),
  where BN normalises each of the 128 channels (the middle axis) by the mean and the biased variance taken over the
  1024·128 entries of that channel, then scales by g and adds β.

  One program computes the variance as E[x²] − E[x]² and folds the normalisation into one multiply-add per entry
  (`bnK`); the other centres first and multiplies by the reciprocal root afterwards (`bnR`). The two agree on finite
  inputs; that is proved elsewhere. Here are only the definitions, each in the arrangement one of the programs uses.
-/
import Idealize.ShloMosaic.PureOps.Ideal
import Idealize.ShloMosaic.Lib.ValueIdx

noncomputable section

namespace Cert.Spec

open Idealize.ShloMosaic Idealize.ShloMosaic.ValueIdx

abbrev Sh3 : Shape := ⟨3, ![1024, 128, 128]⟩
abbrev ShS : Shape := ⟨3, ![1024, 128, 400]⟩
abbrev ShG : Shape := ⟨3, ![1024, 400, 128]⟩
abbrev ShW1 : Shape := ⟨2, ![128, 256]⟩
abbrev ShW : Shape := ⟨2, ![128, 128]⟩
abbrev ShV : Shape := ⟨1, ![128]⟩
abbrev ShRow : Shape := ⟨2, ![1, 128]⟩
abbrev ShCol : Shape := ⟨3, ![1, 128, 1]⟩

/-- An array of one value per (batch, channel, feature). -/
abbrev T3 := Sh3.Idx → EReal

/-- An extended real that is a real number: neither infinity. -/
def IsR (x : EReal) : Prop := ∃ r : ℝ, x = (r : EReal)

/-- The number of entries of one channel, 1024 · 128 = 2¹⁷, as the float both programs divide by. -/
def cnt : EReal := Ideal.ofBits .f32 0x48000000#32
/-- The variance offset, the float nearest 10⁻⁵. -/
def eps : EReal := Ideal.ofBits .f32 0x3727C5AC#32

/-- Column `f` of the left half of a [128,256] matrix, and of its right half. -/
def lo (f : Fin 128) : Fin 256 := ⟨f.val, by have := f.isLt; omega⟩
def hi (f : Fin 128) : Fin 256 := ⟨128 + f.val, by have := f.isLt; omega⟩

/-- A batched product: entry (b, e, f) is Σₙ s[b,e,n] · go[b,n,f]. -/
def gath (s : ShS.Idx → EReal) (go : ShG.Idx → EReal) : T3 :=
  fun i => ∑ n : Fin 400, s (ix3 (i 0) (i 1) n) * go (ix3 (i 0) n (i 2))

/-- The first linear layer with its weights given as two [128,128] matrices indexed (input feature, output feature)
    and its bias as a row. -/
def lin1K (ss es : ShS.Idx → EReal) (go : ShG.Idx → EReal) (wa wb : ShW.Idx → EReal) (br : ShRow.Idx → EReal) : T3 :=
  fun i => ((∑ f : Fin 128, gath ss go (ix3 (i 0) (i 1) f) * wa (ix2 f (i 2)))
      + ∑ f : Fin 128, gath es go (ix3 (i 0) (i 1) f) * wb (ix2 f (i 2))) + br (ix2 0 (i 2))

/-- The first linear layer over the [128,256] weight matrix indexed (output feature, input feature): its left half
    meets the first product, its right half the second. -/
def lin1 (ss es : ShS.Idx → EReal) (go : ShG.Idx → EReal) (W1 : ShW1.Idx → EReal) (b1 : ShV.Idx → EReal) : T3 :=
  fun i => ((∑ f : Fin 128, gath ss go (ix3 (i 0) (i 1) f) * W1 (ix2 (i 2) (lo f)))
      + ∑ f : Fin 128, gath es go (ix3 (i 0) (i 1) f) * W1 (ix2 (i 2) (hi f))) + b1 (ix1 (i 2))

/-- The second linear layer, weights indexed (input feature, output feature), bias a row. -/
def lin2K (a : T3) (wt : ShW.Idx → EReal) (br : ShRow.Idx → EReal) : T3 :=
  fun i => (∑ d : Fin 128, a (ix3 (i 0) (i 1) d) * wt (ix2 d (i 2))) + br (ix2 0 (i 2))

/-- The second linear layer, weights indexed (output feature, input feature). -/
def lin2 (a : T3) (W2 : ShW.Idx → EReal) (b2 : ShV.Idx → EReal) : T3 :=
  fun i => (∑ d : Fin 128, a (ix3 (i 0) (i 1) d) * W2 (ix2 (i 2) d)) + b2 (ix1 (i 2))

/-- max(x, 0), entry by entry. -/
def relu (x : T3) : T3 := fun i => max (x i) 0

/-- Per channel `e`: the sum of the channel's entries, and of their squares. -/
def sumC (x : T3) (e : Fin 128) : EReal := ∑ b : Fin 1024, ∑ d : Fin 128, x (ix3 b e d)
def sqC (x : T3) (e : Fin 128) : EReal := ∑ b : Fin 1024, ∑ d : Fin 128, x (ix3 b e d) * x (ix3 b e d)

/-- From a channel's sum `s` and sum of squares `q`: the folded scale g · (q/n − (s/n)² + ε)^(−1/2) and the folded
    offset β − (s/n) · scale. -/
def kScale (s q g : Fin 128 → EReal) (e : Fin 128) : EReal :=
  g e * Ideal.rsqrt ((Ideal.div (q e) cnt - Ideal.div (s e) cnt * Ideal.div (s e) cnt) + eps)
def kShift (s q g β : Fin 128 → EReal) (e : Fin 128) : EReal :=
  β e - Ideal.div (s e) cnt * kScale s q g e

/-- One multiply-add per entry with per-channel coefficients held as [1,128,1] columns. -/
def affK (x : T3) (sc sh : ShCol.Idx → EReal) : T3 :=
  fun i => x i * sc (ix3 0 (i 1) 0) + sh (ix3 0 (i 1) 0)

/-- The last step: the edge array plus the multiply-add, clamped at zero. -/
def fin (eout h : T3) (sc sh : ShCol.Idx → EReal) : T3 := fun i => max (eout i + affK h sc sh i) 0

/-- The same with the coefficients as functions of the channel. -/
def aff (x : T3) (sc sh : Fin 128 → EReal) : T3 := fun i => x i * sc (i 1) + sh (i 1)

/-- Normalisation in the folded arrangement. -/
def bnK (x : T3) (g β : ShV.Idx → EReal) : T3 :=
  aff x (kScale (sumC x) (sqC x) fun e => g (ix1 e)) (kShift (sumC x) (sqC x) (fun e => g (ix1 e)) fun e => β (ix1 e))

/-- A channel's mean, and the array centred by it. -/
def meanC (x : T3) (e : Fin 128) : EReal := Ideal.div (sumC x e) cnt
def centred (x : T3) : T3 := fun i => x i - meanC x (i 1)

/-- Normalisation in the centred arrangement: ((x − mean) · (var + ε)^(−1/2)) · g + β with var the mean of the
    squared centred entries. -/
def bnR (x : T3) (g β : ShV.Idx → EReal) : T3 :=
  fun i => (centred x i * Ideal.rsqrt (Ideal.div (sqC (centred x) (i 1)) cnt + eps)) * g (ix1 (i 1)) + β (ix1 (i 1))

/-- The whole network, normalisations folded. -/
def outK (go : ShG.Idx → EReal) (eout : T3) (ss es : ShS.Idx → EReal) (W1 : ShW1.Idx → EReal) (b1 : ShV.Idx → EReal)
    (W2 : ShW.Idx → EReal) (b2 g1 β1 g2 β2 : ShV.Idx → EReal) : T3 :=
  fun i => max (eout i + bnK (lin2 (relu (bnK (lin1 ss es go W1 b1) g1 β1)) W2 b2) g2 β2 i) 0

/-- The whole network, normalisations centred. -/
def outR (go : ShG.Idx → EReal) (eout : T3) (ss es : ShS.Idx → EReal) (W1 : ShW1.Idx → EReal) (b1 : ShV.Idx → EReal)
    (W2 : ShW.Idx → EReal) (b2 g1 β1 g2 β2 : ShV.Idx → EReal) : T3 :=
  fun i => max (eout i + bnR (lin2 (relu (bnR (lin1 ss es go W1 b1) g1 β1)) W2 b2) g2 β2 i) 0

end Cert.Spec

end
-- ==== Proof.K0Pieces.lean ====
/-
  Region 0 (the first linear layer and its channel statistics), one grid point: what the body leaves in each of its
  three output buffers, as the body's pure terms of the blocks it loaded. At the first point of the grid the two
  statistics rows are reset to zero before the point's share is added; at every later point the share is added to what
  the point before left.
-/
import proofs.«137522_j79800492360363_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.K0

open Cert.KernelIdeal Cert.KernelIdeal.Gen

variable {F : FTy → Type} [FloatOps F]

/-- The all-zero offset of a three-axis block, and of a two-axis block, as constant functions. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-- First point: the layer's block. -/
theorem piece_A_h (c : Dev nD) (i : grid0.Coords) (a1 : Memref sig .tc .vmem S16x128x400 .f32) (h1 : a1.IsWhole) (a2 : Memref sig .tc .vmem S16x128x400 .f32) (h2 : a2.IsWhole) (a3 : Memref sig .tc .vmem S16x400x128 .f32) (h3 : a3.IsWhole) (a4 : Memref sig .tc .vmem S128x128 .f32) (h4 : a4.IsWhole) (a5 : Memref sig .tc .vmem S128x128 .f32) (h5 : a5.IsWhole) (a6 : Memref sig .tc .vmem S1x128 .f32) (h6 : a6.IsWhole) (a7 : Memref sig .tc .vmem S16x128x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S16x128x400 .f32) (x2 : Vec F S16x400x128 .f32) (x3 x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay5 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz3]
  simp only [View.readAt_eq_ld, h1.read_unread, h2.read_unread, h3.read_unread, h4.read_unread, h5.read_unread, h6.read_unread,
    View.ld_unit_zero (S := S16x128x400) hz3, View.ld_unit_zero (S := S16x400x128) hz3, View.ld_unit_zero (S := S128x128) hz2,
    View.ld_unit_zero (S := S1x128) hz2]

/-- First point: the row of sums, the point's share added to the zero row just stored. -/
theorem piece_A_s (c : Dev nD) (i : grid0.Coords) (a1 : Memref sig .tc .vmem S16x128x400 .f32) (h1 : a1.IsWhole) (a2 : Memref sig .tc .vmem S16x128x400 .f32) (h2 : a2.IsWhole) (a3 : Memref sig .tc .vmem S16x400x128 .f32) (h3 : a3.IsWhole) (a4 : Memref sig .tc .vmem S128x128 .f32) (h4 : a4.IsWhole) (a5 : Memref sig .tc .vmem S128x128 .f32) (h5 : a5.IsWhole) (a6 : Memref sig .tc .vmem S1x128 .f32) (h6 : a6.IsWhole) (a7 : Memref sig .tc .vmem S16x128x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S16x128x400 .f32) (x2 : Vec F S16x400x128 .f32) (x3 x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay1 (k0_pay6 x0 x1 x2 x3 x4 x5) (k0_pay3 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread,
    View.ld_unit_zero (S := S16x128x400) hz3, View.ld_unit_zero (S := S16x400x128) hz3, View.ld_unit_zero (S := S128x128) hz2,
    View.ld_unit_zero (S := S1x128) hz2]

/-- First point: the row of sums of squares. -/
theorem piece_A_q (c : Dev nD) (i : grid0.Coords) (a1 : Memref sig .tc .vmem S16x128x400 .f32) (h1 : a1.IsWhole) (a2 : Memref sig .tc .vmem S16x128x400 .f32) (h2 : a2.IsWhole) (a3 : Memref sig .tc .vmem S16x400x128 .f32) (h3 : a3.IsWhole) (a4 : Memref sig .tc .vmem S128x128 .f32) (h4 : a4.IsWhole) (a5 : Memref sig .tc .vmem S128x128 .f32) (h5 : a5.IsWhole) (a6 : Memref sig .tc .vmem S1x128 .f32) (h6 : a6.IsWhole) (a7 : Memref sig .tc .vmem S16x128x128 .f32) (h7 : a7.IsWhole) (a8 : Memref sig .tc .vmem S1x128 .f32) (h8 : a8.IsWhole) (a9 : Memref sig .tc .vmem S1x128 .f32) (h9 : a9.IsWhole) (hc : cond0_0 i) (x0 x1 : Vec F S16x128x400 .f32) (x2 : Vec F S16x400x128 .f32) (x3 x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay2 (k0_pay7 x0 x1 x2 x3 x4 x5) (k0_pay4 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread,
    View.ld_unit_zero (S := S16x128x400) hz3, View.ld_unit_zero (S := S16x400x128) hz3, View.ld_unit_zero (S := S128x128) hz2,
    View.ld_unit_zero (S := S1x128) hz2]

/-- A later point: the layer's block. -/
theorem piece_B_h (c : Dev nD) (i : grid0.Coords) (a1 : Memref sig .tc .vmem S16x128x400 .f32) (h1 : a1.IsWhole) (a2 : Memref sig .tc .vmem S16x128x400 .f32) (h2 : a2.IsWhole) (a3 : Memref sig .tc .vmem S16x400x128 .f32) (h3 : a3.IsWhole) (a4 : Memref sig .tc .vmem S128x128 .f32) (h4 : a4.IsWhole) (a5 : Memref sig .tc .vmem S128x128 .f32) (h5 : a5.IsWhole) (a6 : Memref sig .tc .vmem S1x128 .f32) (h6 : a6.IsWhole) (a7 : Memref sig .tc .vmem S16x128x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S16x128x400 .f32) (x2 : Vec F S16x400x128 .f32) (x3 x4 : Vec F S128x128 .f32) (x5 : Vec F S1x128 .f32) (xs xq : Vec F S1x128 .f32) :
    out0_B_6 c i a1 h1 a2 h2 a3 h3 a4 h4 a5 h5 a6 h6 a7 h7 a8 h8 a9 h9 hc x0 x1 x2 x3 x4 x5 xs xq = k0_pay5 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xs xq)]
  unfold kernelRun0_B
  dsimp only
  sl_unfold_words
  rw [View.canon_unit_zero hz3]
  simp only [View.readAt_eq_ld, h1.read_unread, h2.read_unread, h3.read_unread, h4.read_unread, h5.read_unread, h6.read_unread,
    View.ld_unit_zero (S := S16x128x400) hz3, View.ld_unit_zero (S := S16x400x128) hz3, View.ld_unit_zero (S := S128x128) hz2,
    View.ld_unit_zero (S := S1x128) hz2]

/-- A later point: the row of sums, the point's share added to the row `xs` left before. -/
theorem piece_B_s (c : Dev nD) (i : grid0.Coords) (a1 : Memref sig .tc .vmem S16x128x400 .f32) (h1 : a1.IsWhole) (a2 : Memref sig .tc .vmem S16x128x400 .f32) (h2 : a2.IsWhole) (a3 : Memref sig .tc .vmem S16x400x128 .f32) (h3 : a3.IsWhole) (a4 : Memref sig .tc .vmem S128x128 .f32) (h4 : a4.IsWhole) (a5 : Memref sig .tc .vmem S128x128 .f32) (h5 : a5.IsWhole) (a6 : Memref sig .tc .vmem S1x128 .f32) (h6 : a6.IsWhole) (a7 : Memref sig .tc .vmem S16x128x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S16x128x400 .f32) (x2 : Vec F S16x400x128 .f32) (x3 x4 : Vec F S128x128 .f32) (x5 : Vec F S1x128 .f32) (xs xq : Vec F S1x128 .f32) :
    out0_B_7 c i a1 h1 a2 h2 a3 h3 a4 h4 a5 h5 a6 h6 a7 h7 a8 h8 a9 h9 hc x0 x1 x2 x3 x4 x5 xs xq = k0_pay1 (k0_pay6 x0 x1 x2 x3 x4 x5) xs := by
  unfold out0_B_7
  rw [View.read_writes_eq_canon _ _ _ (cover0_B_7 c i a1 h1 a2 h2 a3 h3 a4 h4 a5 h5 a6 h6 a7 h7 a8 h8 a9 h9 hc x0 x1 x2 x3 x4 x5 xs xq)]
  unfold kernelRun0_B
  dsimp only
  sl_unfold_words
  rw [View.canon_unit_zero hz2]
  simp only [View.readAt_eq_ld, h1.read_unread, h2.read_unread, h3.read_unread, h4.read_unread, h5.read_unread, h6.read_unread,
    View.ld_unit_zero (S := S16x128x400) hz3, View.ld_unit_zero (S := S16x400x128) hz3, View.ld_unit_zero (S := S128x128) hz2,
    View.ld_unit_zero (S := S1x128) hz2,
    h8.read_unread, h9.read_unread]

/-- A later point: the row of sums of squares, added to the row `xq` left before. -/
theorem piece_B_q (c : Dev nD) (i : grid0.Coords) (a1 : Memref sig .tc .vmem S16x128x400 .f32) (h1 : a1.IsWhole) (a2 : Memref sig .tc .vmem S16x128x400 .f32) (h2 : a2.IsWhole) (a3 : Memref sig .tc .vmem S16x400x128 .f32) (h3 : a3.IsWhole) (a4 : Memref sig .tc .vmem S128x128 .f32) (h4 : a4.IsWhole) (a5 : Memref sig .tc .vmem S128x128 .f32) (h5 : a5.IsWhole) (a6 : Memref sig .tc .vmem S1x128 .f32) (h6 : a6.IsWhole) (a7 : Memref sig .tc .vmem S16x128x128 .f32) (h7 : a7.IsWhole) (a8 : Memref sig .tc .vmem S1x128 .f32) (h8 : a8.IsWhole) (a9 : Memref sig .tc .vmem S1x128 .f32) (h9 : a9.IsWhole) (hc : ¬cond0_0 i) (x0 x1 : Vec F S16x128x400 .f32) (x2 : Vec F S16x400x128 .f32) (x3 x4 : Vec F S128x128 .f32) (x5 : Vec F S1x128 .f32) (xs xq : Vec F S1x128 .f32) :
    out0_B_8 c i a1 h1 a2 h2 a3 h3 a4 h4 a5 h5 a6 h6 a7 h7 a8 h8 a9 h9 hc x0 x1 x2 x3 x4 x5 xs xq = k0_pay2 (k0_pay7 x0 x1 x2 x3 x4 x5) xq := by
  unfold out0_B_8
  rw [View.read_writes_eq_canon _ _ _ (cover0_B_8 c i a1 h1 a2 h2 a3 h3 a4 h4 a5 h5 a6 h6 a7 h7 a8 h8 a9 h9 hc x0 x1 x2 x3 x4 x5 xs xq)]
  unfold kernelRun0_B
  dsimp only
  sl_unfold_words
  rw [View.canon_unit_zero hz2]
  simp only [View.readAt_eq_ld, h1.read_unread, h2.read_unread, h3.read_unread, h4.read_unread, h5.read_unread, h6.read_unread,
    View.ld_unit_zero (S := S16x128x400) hz3, View.ld_unit_zero (S := S16x400x128) hz3, View.ld_unit_zero (S := S128x128) hz2,
    View.ld_unit_zero (S := S1x128) hz2,
    h8.read_unread, h9.read_unread]

end Cert.KernelIdeal.K0

end
-- ==== Proof.K0Pay.lean ====
/-
  Region 0's body arithmetic at an index, over the extended reals: the layer's block entry (b, e, d) is
  (Σ_f (Σₙ ss[b,e,n]·go[b,n,f]) · wa[f,d] + Σ_f (Σₙ es[b,e,n]·go[b,n,f]) · wb[f,d]) + bias[d]
  (two batched products, each followed by a [2048,128]·[128,128] product read through the row-major flattening
  (b, e) ↦ 128·b + e, a change of float format being the identity); the statistics rows add to what they held the
  sum over the block's 16 batch rows and 128 features of the entries, and of their squares.
-/
import proofs.«137522_j79800492360363_1_alg».proof.Proof.Gen.KernelIdeal.Skeleton
import proofs.«137522_j79800492360363_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.ShloMosaic.ValueIdx

namespace Cert.KernelIdeal.K0

open Cert.KernelIdeal Cert.KernelIdeal.Gen

/-! The operand indices of the two products, axis by axis: at an output index i and a contraction index q, a batch or
    free axis carries the coordinate of i and the contracted axis carries the one coordinate of q. -/

private theorem k0pay_lhs_bmm_0 (i : S16x128x128.Idx) (q : dot_S16x128x400_S16x400x128_S16x128x128_2_1_1_2_0_0.contr.Idx) :
    (dot_S16x128x400_S16x400x128_S16x128x128_2_1_1_2_0_0.lhsIdx i q 0).val = (i 0).val := by
  unfold DotDims.lhsIdx
  rw [dif_pos (show (0 : Fin S16x128x400.rank) ∈ dot_S16x128x400_S16x400x128_S16x128x128_2_1_1_2_0_0.lhsBatch by decide)]
  rfl
private theorem k0pay_lhs_bmm_1 (i : S16x128x128.Idx) (q : dot_S16x128x400_S16x400x128_S16x128x128_2_1_1_2_0_0.contr.Idx) :
    (dot_S16x128x400_S16x400x128_S16x128x128_2_1_1_2_0_0.lhsIdx i q 1).val = (i 1).val := by
  unfold DotDims.lhsIdx
  rw [dif_neg (show ¬(1 : Fin S16x128x400.rank) ∈ dot_S16x128x400_S16x400x128_S16x128x128_2_1_1_2_0_0.lhsBatch by decide), dif_pos (show (1 : Fin S16x128x400.rank) ∈ dot_S16x128x400_S16x400x128_S16x128x128_2_1_1_2_0_0.lhsNonContracting by decide)]
  rfl
private theorem k0pay_lhs_bmm_2 (i : S16x128x128.Idx) (q : dot_S16x128x400_S16x400x128_S16x128x128_2_1_1_2_0_0.contr.Idx) :
    (dot_S16x128x400_S16x400x128_S16x128x128_2_1_1_2_0_0.lhsIdx i q 2).val = (q ⟨0, by decide⟩).val :=
  dot_S16x128x400_S16x400x128_S16x128x128_2_1_1_2_0_0.lhsIdx_val_of_single rfl i q
private theorem k0pay_rhs_bmm_0 (i : S16x128x128.Idx) (q : dot_S16x128x400_S16x400x128_S16x128x128_2_1_1_2_0_0.contr.Idx) :
    (dot_S16x128x400_S16x400x128_S16x128x128_2_1_1_2_0_0.rhsIdx i q 0).val = (i 0).val := by
  unfold DotDims.rhsIdx
  rw [dif_pos (show (0 : Fin S16x400x128.rank) ∈ dot_S16x128x400_S16x400x128_S16x128x128_2_1_1_2_0_0.rhsBatch by decide)]
  rfl
private theorem k0pay_rhs_bmm_1 (i : S16x128x128.Idx) (q : dot_S16x128x400_S16x400x128_S16x128x128_2_1_1_2_0_0.contr.Idx) :
    (dot_S16x128x400_S16x400x128_S16x128x128_2_1_1_2_0_0.rhsIdx i q 1).val = (q ⟨0, by decide⟩).val :=
  dot_S16x128x400_S16x400x128_S16x128x128_2_1_1_2_0_0.rhsIdx_val_of_single rfl i q
private theorem k0pay_rhs_bmm_2 (i : S16x128x128.Idx) (q : dot_S16x128x400_S16x400x128_S16x128x128_2_1_1_2_0_0.contr.Idx) :
    (dot_S16x128x400_S16x400x128_S16x128x128_2_1_1_2_0_0.rhsIdx i q 2).val = (i 2).val := by
  unfold DotDims.rhsIdx
  rw [dif_neg (show ¬(2 : Fin S16x400x128.rank) ∈ dot_S16x128x400_S16x400x128_S16x128x128_2_1_1_2_0_0.rhsBatch by decide), dif_pos (show (2 : Fin S16x400x128.rank) ∈ dot_S16x128x400_S16x400x128_S16x128x128_2_1_1_2_0_0.rhsNonContracting by decide)]
  rfl

/-- A batched product into a zero accumulator, read at (b, e, f): Σₙ l[b,e,n] · r[b,n,f]. -/
private theorem k0pay_bmm_apply (l : FVec Ideal S16x128x400 .bf16) (r : FVec Ideal S16x400x128 .bf16) (b : Fin 16) (e f : Fin 128) :
    matmul dot_S16x128x400_S16x400x128_S16x128x128_2_1_1_2_0_0 none l r (constant (F := Ideal) S16x128x128 .f32 0x00000000#32) (ix3 b e f)
      = ∑ n : Fin 400, l (ix3 b e n) * r (ix3 b n f) := by
  refine (Ideal.matmul_constant_zero_apply dot_S16x128x400_S16x400x128_S16x128x128_2_1_1_2_0_0 none l r (ix3 b e f)).trans ?_
  rw [← Equiv.sum_comp (ValueIdx.contrEquiv1 dot_S16x128x400_S16x400x128_S16x128x128_2_1_1_2_0_0 400 rfl rfl).symm]
  refine Finset.sum_congr rfl fun k _ => ?_
  have hk := ValueIdx.contrEquiv1_symm_val dot_S16x128x400_S16x400x128_S16x128x128_2_1_1_2_0_0 400 rfl rfl k
  have el : dot_S16x128x400_S16x400x128_S16x128x128_2_1_1_2_0_0.lhsIdx (ix3 b e f) ((ValueIdx.contrEquiv1 dot_S16x128x400_S16x400x128_S16x128x128_2_1_1_2_0_0 400 rfl rfl).symm k) = ix3 b e k := funext fun a => Fin.ext (by
    match a with
    | ⟨0, _⟩ => exact k0pay_lhs_bmm_0 _ _
    | ⟨1, _⟩ => exact k0pay_lhs_bmm_1 _ _
    | ⟨2, _⟩ => exact (k0pay_lhs_bmm_2 _ _).trans hk)
  have er : dot_S16x128x400_S16x400x128_S16x128x128_2_1_1_2_0_0.rhsIdx (ix3 b e f) ((ValueIdx.contrEquiv1 dot_S16x128x400_S16x400x128_S16x128x128_2_1_1_2_0_0 400 rfl rfl).symm k) = ix3 b k f := funext fun a => Fin.ext (by
    match a with
    | ⟨0, _⟩ => exact k0pay_rhs_bmm_0 _ _
    | ⟨1, _⟩ => exact (k0pay_rhs_bmm_1 _ _).trans hk
    | ⟨2, _⟩ => exact k0pay_rhs_bmm_2 _ _)
  rw [el, er]

private theorem k0pay_lhs_mm_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
private theorem k0pay_lhs_mm_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
private theorem k0pay_rhs_mm_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
private theorem k0pay_rhs_mm_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A [2048,128]·[128,128] product into a zero accumulator, read at (row, d): Σ_f l[row,f] · r[f,d]. -/
private theorem k0pay_mm_apply (l : FVec Ideal S2048x128 .bf16) (r : FVec Ideal S128x128 .bf16) (row : Fin 2048) (d : Fin 128) :
    matmul dot_S2048x128_S128x128_S2048x128_1_0_0_1_n_n none l r (constant (F := Ideal) S2048x128 .f32 0x00000000#32) (ix2 row d)
      = ∑ f : Fin 128, l (ix2 row f) * r (ix2 f d) := by
  refine (Ideal.matmul_constant_zero_apply dot_S2048x128_S128x128_S2048x128_1_0_0_1_n_n none l r (ix2 row d)).trans ?_
  rw [← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 row d) ((ValueIdx.contrEquiv1 dot_S2048x128_S128x128_S2048x128_1_0_0_1_n_n 128 rfl rfl).symm k) = ix2 row k := funext fun a => Fin.ext (by
    match a with
    | ⟨0, _⟩ => exact k0pay_lhs_mm_0 _ _
    | ⟨1, _⟩ => exact (k0pay_lhs_mm_1 _ _).trans hk)
  have er : dot_S2048x128_S128x128_S2048x128_1_0_0_1_n_n.rhsIdx (ix2 row d) ((ValueIdx.contrEquiv1 dot_S2048x128_S128x128_S2048x128_1_0_0_1_n_n 128 rfl rfl).symm k) = ix2 k d := funext fun a => Fin.ext (by
    match a with
    | ⟨0, _⟩ => exact (k0pay_rhs_mm_0 _ _).trans hk
    | ⟨1, _⟩ => exact k0pay_rhs_mm_1 _ _)
  rw [el, er]

/-- The row of the [2048,128] flattening that holds (b, e): 128·b + e. -/
private def k0pay_row (b : Fin 16) (e : Fin 128) : Fin 2048 := ⟨128 * b.val + e.val, by have := b.isLt; have := e.isLt; omega⟩

/-- The flattening [16,128,128] → [2048,128] reads row 128·b + e, column f at (b, e, f). -/
private theorem k0pay_cast_fwd {α : Type} (v : S16x128x128.Idx → α) (h : S16x128x128.ShapeCasts S2048x128) (b : Fin 16) (e f : Fin 128) :
    shapeCast S2048x128 v h (ix2 (k0pay_row b e) f) = v (ix3 b e f) :=
  shapeCast_apply v h _ _ (by
    rw [Shape.rowMajor_val_three, Shape.rowMajor_val_two]
    show (b.val * 128 + e.val) * 128 + f.val = (128 * b.val + e.val) * 128 + f.val
    omega)

/-- The unflattening [2048,128] → [16,128,128] reads (b, e, d) at row 128·b + e, column d. -/
private theorem k0pay_cast_bwd {α : Type} (w : S2048x128.Idx → α) (h : S2048x128.ShapeCasts S16x128x128) (b : Fin 16) (e d : Fin 128) :
    shapeCast S16x128x128 w h (ix3 b e d) = w (ix2 (k0pay_row b e) d) :=
  shapeCast_apply w h _ _ (by
    rw [Shape.rowMajor_val_three, Shape.rowMajor_val_two]
    show (128 * b.val + e.val) * 128 + d.val = (b.val * 128 + e.val) * 128 + d.val
    omega)

/-- One factor of the second product: the flattened batched product at row 128·b + e, column f, a change of format
    being the identity. -/
private theorem k0pay_fac_apply (x : Vec Ideal S16x128x400 .f32) (x2 : Vec Ideal S16x400x128 .f32) (b : Fin 16) (e f : Fin 128) :
    (truncf .bf16 (shapeCast S2048x128
        (matmul dot_S16x128x400_S16x400x128_S16x128x128_2_1_1_2_0_0 none (truncf .bf16 x bitsLt_bf16_f32) (truncf .bf16 x2 bitsLt_bf16_f32)
          (constant (F := Ideal) S16x128x128 .f32 0x00000000#32)) shapeCasts_S16x128x128_S2048x128) bitsLt_bf16_f32 : FVec Ideal S2048x128 .bf16)
        (ix2 (k0pay_row b e) f)
      = ∑ n : Fin 400, x (ix3 b e n) * x2 (ix3 b n f) := by
  refine (truncf_apply (ψ := .bf16) _ bitsLt_bf16_f32 _).trans ?_
  refine (k0pay_cast_fwd _ _ b e f).trans ?_
  exact k0pay_bmm_apply _ _ b e f

/-- A weight matrix through its identity cast and change of format. -/
private theorem k0pay_wt_apply (w : Vec Ideal S128x128 .f32) (f d : Fin 128) :
    (truncf .bf16 (shapeCast S128x128 w shapeCasts_S128x128_S128x128) bitsLt_bf16_f32 : FVec Ideal S128x128 .bf16) (ix2 f d) = w (ix2 f d) := by
  refine (truncf_apply (ψ := .bf16) _ bitsLt_bf16_f32 _).trans ?_
  exact congrFun (shapeCast_self w _) _

/-- The layer's block at (b, e, d). -/
theorem pay5_apply (x0 x1 : Vec Ideal S16x128x400 .f32) (x2 : Vec Ideal S16x400x128 .f32) (x3 x4 : Vec Ideal S128x128 .f32) (x5 : Vec Ideal S1x128 .f32) (b : Fin 16) (e d : Fin 128) :
    k0_pay5 x0 x1 x2 x3 x4 x5 (ix3 b e d)
      = ((∑ f : Fin 128, (∑ n : Fin 400, x0 (ix3 b e n) * x2 (ix3 b n f)) * x3 (ix2 f d))
          + ∑ f : Fin 128, (∑ n : Fin 400, x1 (ix3 b e n) * x2 (ix3 b n f)) * x4 (ix2 f d)) + x5 (ix2 0 d) := by
  unfold k0_pay5
  refine (k0pay_cast_bwd _ _ b e d).trans ?_
  refine (addf_apply _ _ _).trans ?_
  refine congrArg₂ (· + ·) ?_ ?_
  · refine (addf_apply _ _ _).trans ?_
    refine congrArg₂ (· + ·) ?_ ?_
    · refine (k0pay_mm_apply _ _ (k0pay_row b e) d).trans ?_
      refine Finset.sum_congr rfl fun f _ => ?_
      exact congrArg₂ (· * ·) (k0pay_fac_apply x0 x2 b e f) (k0pay_wt_apply x3 f d)
    · refine (k0pay_mm_apply _ _ (k0pay_row b e) d).trans ?_
      refine Finset.sum_congr rfl fun f _ => ?_
      exact congrArg₂ (· * ·) (k0pay_fac_apply x1 x2 b e f) (k0pay_wt_apply x4 f d)
  · refine (broadcastTo_1b_ab_apply _ _ (k0pay_row b e) d).trans ?_
    exact congrFun (shapeCast_self x5 _) _

/-- The index over (b, e) with d inserted on the last axis. -/
private theorem k0pay_lift2_eq (h : S16x128x128.Reduces [2] S16x128) (b : Fin 16) (e d : Fin 128) :
    h.lift (ix2 b e) d = ix3 b e d := by
  funext c
  apply Fin.ext
  match c with
  | ⟨0, _⟩ => rfl
  | ⟨1, _⟩ => rfl
  | ⟨2, _⟩ => rfl

/-- A sum over the last axis of a [16,128,128] array, read at (b, e). -/
private theorem k0pay_red2_apply (y : FVec Ideal S16x128x128 .f32) (b : Fin 16) (e : Fin 128) :
    multiReduction .add [2] S16x128 y 0x00000000#32 reduces_S16x128x128_S16x128 (.inl rfl) rfl (ix2 b e)
      = ∑ d : Fin 128, y (ix3 b e d) := by
  refine (Ideal.multiReduction_add_single y _ reduces_S16x128x128_S16x128 (.inl rfl) rfl (ix2 b e)).trans ?_
  refine Finset.sum_congr rfl fun d _ => ?_
  exact congrArg y (k0pay_lift2_eq _ b e d)

/-- The index over e with r inserted on the first axis. -/
private theorem k0pay_lift0_eq (h : S16x128.Reduces [0] S128) (e : Fin 128) (r : Fin 16) :
    h.lift (ix1 e) r = ix2 r e := by
  funext c
  apply Fin.ext
  match c with
  | ⟨0, _⟩ => rfl
  | ⟨1, _⟩ => rfl

/-- A sum over the first axis of a [16,128] array, read at e. -/
private theorem k0pay_red0_apply (y : FVec Ideal S16x128 .f32) (e : Fin 128) :
    multiReduction .add [0] S128 y 0x00000000#32 reduces_S16x128_S128 (.inl rfl) rfl (ix1 e)
      = ∑ r : Fin 16, y (ix2 r e) := by
  refine (Ideal.multiReduction_add_single y _ reduces_S16x128_S128 (.inl rfl) rfl (ix1 e)).trans ?_
  refine Finset.sum_congr rfl fun r _ => ?_
  exact congrArg y (k0pay_lift0_eq _ e r)

/-- The per-(row, channel) feature sums of the block. -/
theorem pay6_apply (x0 x1 : Vec Ideal S16x128x400 .f32) (x2 : Vec Ideal S16x400x128 .f32) (x3 x4 : Vec Ideal S128x128 .f32) (x5 : Vec Ideal S1x128 .f32) (b : Fin 16) (e : Fin 128) :
    k0_pay6 x0 x1 x2 x3 x4 x5 (ix2 b e) = ∑ d : Fin 128, k0_pay5 x0 x1 x2 x3 x4 x5 (ix3 b e d) := by
  unfold k0_pay6
  generalize k0_pay5 x0 x1 x2 x3 x4 x5 = y
  exact k0pay_red2_apply y b e

/-- The block's squares. -/
theorem pay7_apply (x0 x1 : Vec Ideal S16x128x400 .f32) (x2 : Vec Ideal S16x400x128 .f32) (x3 x4 : Vec Ideal S128x128 .f32) (x5 : Vec Ideal S1x128 .f32) (j : S16x128x128.Idx) :
    k0_pay7 x0 x1 x2 x3 x4 x5 j = k0_pay5 x0 x1 x2 x3 x4 x5 j * k0_pay5 x0 x1 x2 x3 x4 x5 j := by
  unfold k0_pay7
  generalize k0_pay5 x0 x1 x2 x3 x4 x5 = y
  rfl

/-- The sums row: what it held plus the sum over the 16 rows. -/
theorem pay1_apply (v30 : FVec Ideal S16x128 .f32) (v33 : Vec Ideal S1x128 .f32) (e : Fin 128) :
    k0_pay1 v30 v33 (ix2 0 e) = v33 (ix2 0 e) + ∑ r : Fin 16, v30 (ix2 r e) := by
  unfold k0_pay1
  refine (addf_apply _ _ _).trans ?_
  refine congrArg₂ (· + ·) ?_ ?_
  · exact congrFun (shapeCast_self v33 _) _
  · refine (shapeCast_a_1a_apply _ shapeCasts_S128_S1x128 0 e).trans ?_
    exact k0pay_red0_apply v30 e

/-- The squares row: what it held plus the sum over the 16 rows and the 128 features. -/
theorem pay2_apply (v31 : FVec Ideal S16x128x128 .f32) (v39 : Vec Ideal S1x128 .f32) (e : Fin 128) :
    k0_pay2 v31 v39 (ix2 0 e) = v39 (ix2 0 e) + ∑ r : Fin 16, ∑ d : Fin 128, v31 (ix3 r e d) := by
  unfold k0_pay2
  refine (addf_apply _ _ _).trans ?_
  refine congrArg₂ (· + ·) ?_ ?_
  · exact congrFun (shapeCast_self v39 _) _
  · refine (shapeCast_a_1a_apply _ shapeCasts_S128_S1x128 0 e).trans ?_
    refine (k0pay_red0_apply _ e).trans ?_
    refine Finset.sum_congr rfl fun r _ => ?_
    exact k0pay_red2_apply v31 r e

/-- The reset rows are zero. -/
theorem pay3_apply (j : S1x128.Idx) : k0_pay3 (F := Ideal) j = 0 := by
  unfold k0_pay3
  exact Ideal.ofBits_zero_f32
theorem pay4_apply (j : S1x128.Idx) : k0_pay4 (F := Ideal) j = 0 := by
  unfold k0_pay4
  exact Ideal.ofBits_zero_f32

end Cert.KernelIdeal.K0

end
-- ==== Proof.K0.lean ====
/-
  Region 0, the whole run over its 64 grid points of 16 batch rows each: the three arrays it leaves, as functions
  of the arrays it was entered with. The layer's array is written block by block, each block its own rows; each
  statistics row is written back once, after the last point, holding the running sum over all points — which, over the
  extended reals, is the sum over all 1024 batch rows in any order.
-/
import proofs.«137522_j79800492360363_1_alg».proof.Proof.Gen.KernelIdeal.Frame
import proofs.«137522_j79800492360363_1_alg».proof.Proof.Spec
import proofs.«137522_j79800492360363_1_alg».proof.Proof.K0Pieces
import proofs.«137522_j79800492360363_1_alg».proof.Proof.K0Pay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K0

open Cert.KernelIdeal Cert.KernelIdeal.Gen

-- the buffer contents when the region is entered
variable (V : (c : Dev nD) → (b : Ref sig .tc) → Buf (Elt Ideal) ((c : Thread nD τ).loc b))

/-- The first layer's array in the arrangement the region computes it, from the region's entry contents. -/
abbrev h1K (c : Dev nD) : Spec.T3 :=
  Spec.lin1K (V c main_arg2) (V c main_arg3) (V c main_arg0) (V c main_v1) (V c main_v3) (V c main_v5)

/-! ### The arrays the region reads, and the block of each that a grid point sees -/

abbrev r0ssA (c : Dev nD) : Vec Ideal S1024x128x400 .f32 := V c main_arg2
abbrev r0esA (c : Dev nD) : Vec Ideal S1024x128x400 .f32 := V c main_arg3
abbrev r0goA (c : Dev nD) : Vec Ideal S1024x400x128 .f32 := V c main_arg0
abbrev r0waA (c : Dev nD) : Vec Ideal S128x128 .f32 := V c main_v1
abbrev r0wbA (c : Dev nD) : Vec Ideal S128x128 .f32 := V c main_v3
abbrev r0brA (c : Dev nD) : Vec Ideal S1x128 .f32 := V c main_v5

abbrev r0ssB (c : Dev nD) (t : Fin cfg0.N) : Vec Ideal S16x128x400 .f32 := iblk0 V c 0 t
abbrev r0esB (c : Dev nD) (t : Fin cfg0.N) : Vec Ideal S16x128x400 .f32 := iblk0 V c 1 t
abbrev r0goB (c : Dev nD) (t : Fin cfg0.N) : Vec Ideal S16x400x128 .f32 := iblk0 V c 2 t
abbrev r0waB (c : Dev nD) (t : Fin cfg0.N) : Vec Ideal S128x128 .f32 := iblk0 V c 3 t
abbrev r0wbB (c : Dev nD) (t : Fin cfg0.N) : Vec Ideal S128x128 .f32 := iblk0 V c 4 t
abbrev r0brB (c : Dev nD) (t : Fin cfg0.N) : Vec Ideal S1x128 .f32 := iblk0 V c 5 t

theorem r0_lt (t : Fin cfg0.N) (r : Fin 16) : 16 * t.val + r.val < 1024 := by
  have h1 := t.isLt; have h2 : cfg0.N = 64 := N_0; have := r.isLt; omega

/-- Row `r` of the block at point `t` is row `16 t + r` of the whole array. -/
abbrev r0row (t : Fin cfg0.N) (r : Fin 16) : Fin 1024 := ⟨16 * t.val + r.val, r0_lt t r⟩

/-- Where each window's block sits at point `t`: the batch-tiled ones at block `t` of the leading axis, the
    whole-array ones at the origin. -/
theorem r0_idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem r0_idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem r0_idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem r0_idx3 : ∀ t : Fin cfg0.N, win0_3.index t 0 = 0 ∧ win0_3.index t 1 = 0 :=
  (by decide +kernel : ∀ t : Fin grid0.N, win0_3.index t 0 = 0 ∧ win0_3.index t 1 = 0)
theorem r0_idx4 : ∀ t : Fin cfg0.N, win0_4.index t 0 = 0 ∧ win0_4.index t 1 = 0 :=
  (by decide +kernel : ∀ t : Fin grid0.N, win0_4.index t 0 = 0 ∧ win0_4.index t 1 = 0)
theorem r0_idx5 : ∀ t : Fin cfg0.N, win0_5.index t 0 = 0 ∧ win0_5.index t 1 = 0 :=
  (by decide +kernel : ∀ t : Fin grid0.N, win0_5.index t 0 = 0 ∧ win0_5.index t 1 = 0)
theorem r0_idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem r0_idx7 : ∀ t : Fin cfg0.N, win0_7.index t 0 = 0 ∧ win0_7.index t 1 = 0 :=
  (by decide +kernel : ∀ t : Fin grid0.N, win0_7.index t 0 = 0 ∧ win0_7.index t 1 = 0)
theorem r0_idx8 : ∀ t : Fin cfg0.N, win0_8.index t 0 = 0 ∧ win0_8.index t 1 = 0 :=
  (by decide +kernel : ∀ t : Fin grid0.N, win0_8.index t 0 = 0 ∧ win0_8.index t 1 = 0)

theorem r0_ss_read (c : Dev nD) (t : Fin cfg0.N) (r : Fin 16) (e : Fin 128) (n : Fin 400) :
    r0ssB V c t (ix3 r e n) = r0ssA V c (ix3 (r0row t r) e n) := by
  show iblk0 V c 0 t (ix3 r e n) = V c main_arg2 (ix3 (r0row t r) e n)
  unfold iblk0
  rw [View.read_apply]
  show V c main_arg2 _ = V c main_arg2 _
  congr 1
  funext a
  apply Fin.ext
  have hi := r0_idx0 t
  match a with
  | ⟨0, _⟩ => show win0_0.index t 0 * 16 + 1 * r.val = 16 * t.val + r.val; rw [hi.1]; omega
  | ⟨1, _⟩ => show win0_0.index t 1 * 128 + 1 * e.val = e.val; rw [hi.2.1]; omega
  | ⟨2, _⟩ => show win0_0.index t 2 * 400 + 1 * n.val = n.val; rw [hi.2.2]; omega

theorem r0_es_read (c : Dev nD) (t : Fin cfg0.N) (r : Fin 16) (e : Fin 128) (n : Fin 400) :
    r0esB V c t (ix3 r e n) = r0esA V c (ix3 (r0row t r) e n) := by
  show iblk0 V c 1 t (ix3 r e n) = V c main_arg3 (ix3 (r0row t r) e n)
  unfold iblk0
  rw [View.read_apply]
  show V c main_arg3 _ = V c main_arg3 _
  congr 1
  funext a
  apply Fin.ext
  have hi := r0_idx1 t
  match a with
  | ⟨0, _⟩ => show win0_1.index t 0 * 16 + 1 * r.val = 16 * t.val + r.val; rw [hi.1]; omega
  | ⟨1, _⟩ => show win0_1.index t 1 * 128 + 1 * e.val = e.val; rw [hi.2.1]; omega
  | ⟨2, _⟩ => show win0_1.index t 2 * 400 + 1 * n.val = n.val; rw [hi.2.2]; omega

theorem r0_go_read (c : Dev nD) (t : Fin cfg0.N) (r : Fin 16) (n : Fin 400) (f : Fin 128) :
    r0goB V c t (ix3 r n f) = r0goA V c (ix3 (r0row t r) n f) := by
  show iblk0 V c 2 t (ix3 r n f) = V c main_arg0 (ix3 (r0row t r) n f)
  unfold iblk0
  rw [View.read_apply]
  show V c main_arg0 _ = V c main_arg0 _
  congr 1
  funext a
  apply Fin.ext
  have hi := r0_idx2 t
  match a with
  | ⟨0, _⟩ => show win0_2.index t 0 * 16 + 1 * r.val = 16 * t.val + r.val; rw [hi.1]; omega
  | ⟨1, _⟩ => show win0_2.index t 1 * 400 + 1 * n.val = n.val; rw [hi.2.1]; omega
  | ⟨2, _⟩ => show win0_2.index t 2 * 128 + 1 * f.val = f.val; rw [hi.2.2]; omega

theorem r0_wa_read (c : Dev nD) (t : Fin cfg0.N) (p q : Fin 128) :
    r0waB V c t (ix2 p q) = r0waA V c (ix2 p q) := by
  show iblk0 V c 3 t (ix2 p q) = V c main_v1 (ix2 p q)
  unfold iblk0
  rw [View.read_apply]
  show V c main_v1 _ = V c main_v1 _
  congr 1
  funext a
  apply Fin.ext
  have hi := r0_idx3 t
  match a with
  | ⟨0, _⟩ => show win0_3.index t 0 * 128 + 1 * p.val = p.val; rw [hi.1]; omega
  | ⟨1, _⟩ => show win0_3.index t 1 * 128 + 1 * q.val = q.val; rw [hi.2]; omega

theorem r0_wb_read (c : Dev nD) (t : Fin cfg0.N) (p q : Fin 128) :
    r0wbB V c t (ix2 p q) = r0wbA V c (ix2 p q) := by
  show iblk0 V c 4 t (ix2 p q) = V c main_v3 (ix2 p q)
  unfold iblk0
  rw [View.read_apply]
  show V c main_v3 _ = V c main_v3 _
  congr 1
  funext a
  apply Fin.ext
  have hi := r0_idx4 t
  match a with
  | ⟨0, _⟩ => show win0_4.index t 0 * 128 + 1 * p.val = p.val; rw [hi.1]; omega
  | ⟨1, _⟩ => show win0_4.index t 1 * 128 + 1 * q.val = q.val; rw [hi.2]; omega

theorem r0_br_read (c : Dev nD) (t : Fin cfg0.N) (p : Fin 1) (q : Fin 128) :
    r0brB V c t (ix2 p q) = r0brA V c (ix2 p q) := by
  show iblk0 V c 5 t (ix2 p q) = V c main_v5 (ix2 p q)
  unfold iblk0
  rw [View.read_apply]
  show V c main_v5 _ = V c main_v5 _
  congr 1
  funext a
  apply Fin.ext
  have hi := r0_idx5 t
  match a with
  | ⟨0, _⟩ => show win0_5.index t 0 * 1 + 1 * p.val = p.val; rw [hi.1]; omega
  | ⟨1, _⟩ => show win0_5.index t 1 * 128 + 1 * q.val = q.val; rw [hi.2]; omega

/-! ### What each grid point computes -/

/-- The layer's block at point `t`: the body's first payload of the six input blocks. -/
abbrev r0H (c : Dev nD) (t : Fin cfg0.N) : Vec Ideal S16x128x128 .f32 :=
  k0_pay5 (r0ssB V c t) (r0esB V c t) (r0goB V c t) (r0waB V c t) (r0wbB V c t) (r0brB V c t)

/-- It is the block's rows of the whole layer. -/
theorem r0_H_apply (c : Dev nD) (t : Fin cfg0.N) (r : Fin 16) (e d : Fin 128) :
    r0H V c t (ix3 r e d) = h1K V c (ix3 (r0row t r) e d) := by
  refine (pay5_apply (r0ssB V c t) (r0esB V c t) (r0goB V c t) (r0waB V c t) (r0wbB V c t) (r0brB V c t) r e d).trans ?_
  show _ = ((∑ f : Fin 128, (∑ n : Fin 400, r0ssA V c (ix3 (r0row t r) e n) * r0goA V c (ix3 (r0row t r) n f)) * r0waA V c (ix2 f d))
      + ∑ f : Fin 128, (∑ n : Fin 400, r0esA V c (ix3 (r0row t r) e n) * r0goA V c (ix3 (r0row t r) n f)) * r0wbA V c (ix2 f d))
      + r0brA V c (ix2 0 d)
  refine congrArg₂ (· + ·) (congrArg₂ (· + ·) ?_ ?_) (r0_br_read V c t 0 d)
  · refine Finset.sum_congr rfl fun f _ => ?_
    refine congrArg₂ (· * ·) ?_ (r0_wa_read V c t f d)
    refine Finset.sum_congr rfl fun n _ => ?_
    exact congrArg₂ (· * ·) (r0_ss_read V c t r e n) (r0_go_read V c t r n f)
  · refine Finset.sum_congr rfl fun f _ => ?_
    refine congrArg₂ (· * ·) ?_ (r0_wb_read V c t f d)
    refine Finset.sum_congr rfl fun n _ => ?_
    exact congrArg₂ (· * ·) (r0_es_read V c t r e n) (r0_go_read V c t r n f)

/-- After every point the layer's staging block holds that point's block. -/
theorem r0_outs_h (c : Dev nD) (t : Fin cfg0.N) : (outsAt0 V c t.val t.isLt).1 = r0H V c t := by
  by_cases h0 : t.val % 64 = 0
  · rw [outsAt0_A V c t h0]
    dsimp only
    exact piece_A_h (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0 t).mpr h0)
      (r0ssB V c t) (r0esB V c t) (r0goB V c t) (r0waB V c t) (r0wbB V c t) (r0brB V c t)
  · rw [outsAt0_B V c t h0]
    dsimp only
    exact piece_B_h (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun h => h0 ((hcond0_0 t).mp h))
      (r0ssB V c t) (r0esB V c t) (r0goB V c t) (r0waB V c t) (r0wbB V c t) (r0brB V c t)
      (outsAt0 V c (t.val - 1) (Nat.lt_of_le_of_lt (Nat.sub_le _ _) t.isLt)).2.1
      (outsAt0 V c (t.val - 1) (Nat.lt_of_le_of_lt (Nat.sub_le _ _) t.isLt)).2.2

/-! ### The running statistics -/

/-- What the block at point `t` adds to channel `e`'s sum, and to its sum of squares. -/
abbrev r0sB (c : Dev nD) (t : Fin cfg0.N) (e : Fin 128) : EReal := ∑ r : Fin 16, ∑ d : Fin 128, r0H V c t (ix3 r e d)
abbrev r0qB (c : Dev nD) (t : Fin cfg0.N) (e : Fin 128) : EReal :=
  ∑ r : Fin 16, ∑ d : Fin 128, r0H V c t (ix3 r e d) * r0H V c t (ix3 r e d)

/-- The first point leaves its own contribution (it adds to a zero row). -/
theorem r0_s_first (c : Dev nD) (t : Fin cfg0.N) (h0 : t.val % 64 = 0) (e : Fin 128) :
    (outsAt0 V c t.val t.isLt).2.1 (ix2 0 e) = r0sB V c t e := by
  rw [outsAt0_A V c t h0]
  dsimp only
  refine (congrFun (piece_A_s (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0 t).mpr h0)
      (r0ssB V c t) (r0esB V c t) (r0goB V c t) (r0waB V c t) (r0wbB V c t) (r0brB V c t)) (ix2 0 e)).trans ?_
  rw [pay1_apply, pay3_apply, zero_add]
  exact Finset.sum_congr rfl fun r _ => pay6_apply (r0ssB V c t) (r0esB V c t) (r0goB V c t) (r0waB V c t) (r0wbB V c t) (r0brB V c t) r e

theorem r0_q_first (c : Dev nD) (t : Fin cfg0.N) (h0 : t.val % 64 = 0) (e : Fin 128) :
    (outsAt0 V c t.val t.isLt).2.2 (ix2 0 e) = r0qB V c t e := by
  rw [outsAt0_A V c t h0]
  dsimp only
  refine (congrFun (piece_A_q (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0 t).mpr h0)
      (r0ssB V c t) (r0esB V c t) (r0goB V c t) (r0waB V c t) (r0wbB V c t) (r0brB V c t)) (ix2 0 e)).trans ?_
  rw [pay2_apply, pay4_apply, zero_add]
  exact Finset.sum_congr rfl fun r _ => Finset.sum_congr rfl fun d _ => pay7_apply (r0ssB V c t) (r0esB V c t) (r0goB V c t) (r0waB V c t) (r0wbB V c t) (r0brB V c t) (ix3 r e d)

/-- Every later point adds its contribution to what the point before left. -/
theorem r0_s_step (c : Dev nD) (t : Fin cfg0.N) (h0 : ¬t.val % 64 = 0) (e : Fin 128) :
    (outsAt0 V c t.val t.isLt).2.1 (ix2 0 e)
      = (outsAt0 V c (t.val - 1) (Nat.lt_of_le_of_lt (Nat.sub_le _ _) t.isLt)).2.1 (ix2 0 e) + r0sB V c t e := by
  rw [outsAt0_B V c t h0]
  dsimp only
  refine (congrFun (piece_B_s (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun h => h0 ((hcond0_0 t).mp h))
      (r0ssB V c t) (r0esB V c t) (r0goB V c t) (r0waB V c t) (r0wbB V c t) (r0brB V c t)
      (outsAt0 V c (t.val - 1) (Nat.lt_of_le_of_lt (Nat.sub_le _ _) t.isLt)).2.1
      (outsAt0 V c (t.val - 1) (Nat.lt_of_le_of_lt (Nat.sub_le _ _) t.isLt)).2.2) (ix2 0 e)).trans ?_
  rw [pay1_apply]
  refine congrArg₂ (· + ·) rfl ?_
  exact Finset.sum_congr rfl fun r _ => pay6_apply (r0ssB V c t) (r0esB V c t) (r0goB V c t) (r0waB V c t) (r0wbB V c t) (r0brB V c t) r e

theorem r0_q_step (c : Dev nD) (t : Fin cfg0.N) (h0 : ¬t.val % 64 = 0) (e : Fin 128) :
    (outsAt0 V c t.val t.isLt).2.2 (ix2 0 e)
      = (outsAt0 V c (t.val - 1) (Nat.lt_of_le_of_lt (Nat.sub_le _ _) t.isLt)).2.2 (ix2 0 e) + r0qB V c t e := by
  rw [outsAt0_B V c t h0]
  dsimp only
  refine (congrFun (piece_B_q (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun h => h0 ((hcond0_0 t).mp h))
      (r0ssB V c t) (r0esB V c t) (r0goB V c t) (r0waB V c t) (r0wbB V c t) (r0brB V c t)
      (outsAt0 V c (t.val - 1) (Nat.lt_of_le_of_lt (Nat.sub_le _ _) t.isLt)).2.1
      (outsAt0 V c (t.val - 1) (Nat.lt_of_le_of_lt (Nat.sub_le _ _) t.isLt)).2.2) (ix2 0 e)).trans ?_
  rw [pay2_apply]
  refine congrArg₂ (· + ·) rfl ?_
  exact Finset.sum_congr rfl fun r _ => Finset.sum_congr rfl fun d _ => pay7_apply (r0ssB V c t) (r0esB V c t) (r0goB V c t) (r0waB V c t) (r0wbB V c t) (r0brB V c t) (ix3 r e d)

/-- So after point `n` each statistics row holds the contributions of the points up to `n`. -/
theorem r0_outs_s (c : Dev nD) : ∀ (n : ℕ) (h : n < cfg0.N) (e : Fin 128),
    (outsAt0 V c n h).2.1 (ix2 0 e) = ∑ s : Fin (n + 1), r0sB V c ⟨s.val, Nat.lt_of_lt_of_le s.isLt h⟩ e
  | 0, h, e => by
    rw [Fin.sum_univ_one]
    exact r0_s_first V c ⟨0, h⟩ rfl e
  | n + 1, h, e => by
    have hN : cfg0.N = 64 := N_0
    have hB : ¬(⟨n + 1, h⟩ : Fin cfg0.N).val % 64 = 0 := by dsimp only; omega
    rw [Fin.sum_univ_castSucc]
    refine (r0_s_step V c ⟨n + 1, h⟩ hB e).trans ?_
    refine congrArg₂ (· + ·) ?_ rfl
    exact r0_outs_s c n (Nat.lt_of_succ_lt h) e

theorem r0_outs_q (c : Dev nD) : ∀ (n : ℕ) (h : n < cfg0.N) (e : Fin 128),
    (outsAt0 V c n h).2.2 (ix2 0 e) = ∑ s : Fin (n + 1), r0qB V c ⟨s.val, Nat.lt_of_lt_of_le s.isLt h⟩ e
  | 0, h, e => by
    rw [Fin.sum_univ_one]
    exact r0_q_first V c ⟨0, h⟩ rfl e
  | n + 1, h, e => by
    have hN : cfg0.N = 64 := N_0
    have hB : ¬(⟨n + 1, h⟩ : Fin cfg0.N).val % 64 = 0 := by dsimp only; omega
    rw [Fin.sum_univ_castSucc]
    refine (r0_q_step V c ⟨n + 1, h⟩ hB e).trans ?_
    refine congrArg₂ (· + ·) ?_ rfl
    exact r0_outs_q c n (Nat.lt_of_succ_lt h) e

/-! ### Sixty-four blocks of sixteen rows are the 1024 rows -/

theorem r0_sum_blocks {M : Type*} [AddCommMonoid M] (g : Fin 1024 → M) :
    ∑ s : Fin 64, ∑ r : Fin 16, g ⟨16 * s.val + r.val, by have := s.isLt; have := r.isLt; omega⟩ = ∑ b : Fin 1024, g b := by
  rw [← Fintype.sum_prod_type']
  refine Fintype.sum_equiv (finProdFinEquiv : Fin 64 × Fin 16 ≃ Fin 1024) _ _ fun x => ?_
  refine congrArg g (Fin.ext ?_)
  show 16 * x.1.val + x.2.val = x.2.val + 16 * x.1.val
  omega

/-- The contributions of all sixty-four points make the channel sums of the whole layer. -/
theorem r0_all_s (c : Dev nD) (n : ℕ) (hn : n < cfg0.N) (h63 : n = 63) (e : Fin 128) :
    ∑ s : Fin (n + 1), r0sB V c ⟨s.val, Nat.lt_of_lt_of_le s.isLt hn⟩ e = Spec.sumC (h1K V c) e := by
  subst h63
  refine Eq.trans ?_ (r0_sum_blocks fun b => ∑ d : Fin 128, h1K V c (ix3 b e d))
  refine Finset.sum_congr rfl fun s _ => Finset.sum_congr rfl fun r _ => Finset.sum_congr rfl fun d _ => ?_
  exact r0_H_apply V c ⟨s.val, Nat.lt_of_lt_of_le s.isLt hn⟩ r e d

theorem r0_all_q (c : Dev nD) (n : ℕ) (hn : n < cfg0.N) (h63 : n = 63) (e : Fin 128) :
    ∑ s : Fin (n + 1), r0qB V c ⟨s.val, Nat.lt_of_lt_of_le s.isLt hn⟩ e = Spec.sqC (h1K V c) e := by
  subst h63
  refine Eq.trans ?_ (r0_sum_blocks fun b => ∑ d : Fin 128, h1K V c (ix3 b e d) * h1K V c (ix3 b e d))
  refine Finset.sum_congr rfl fun s _ => Finset.sum_congr rfl fun r _ => Finset.sum_congr rfl fun d _ => ?_
  exact congrArg₂ (· * ·) (r0_H_apply V c ⟨s.val, Nat.lt_of_lt_of_le s.isLt hn⟩ r e d)
    (r0_H_apply V c ⟨s.val, Nat.lt_of_lt_of_le s.isLt hn⟩ r e d)

/-- The last point: the statistics rows hold the channel sums of the whole layer. -/
theorem r0_final_s (c : Dev nD) (t : Fin cfg0.N) (h63 : t.val = 63) (e : Fin 128) :
    (outsAt0 V c t.val t.isLt).2.1 (ix2 0 e) = Spec.sumC (h1K V c) e :=
  (r0_outs_s V c t.val t.isLt e).trans (r0_all_s V c t.val t.isLt h63 e)

theorem r0_final_q (c : Dev nD) (t : Fin cfg0.N) (h63 : t.val = 63) (e : Fin 128) :
    (outsAt0 V c t.val t.isLt).2.2 (ix2 0 e) = Spec.sqC (h1K V c) e :=
  (r0_outs_q V c t.val t.isLt e).trans (r0_all_q V c t.val t.isLt h63 e)

/-! ### What is written back, and that the write-backs cover the arrays -/

/-- The extents of the three outputs' blocks (none is cut at the array's end). -/
theorem r0_xs6 : ∀ t : Fin cfg0.N, win0_6.xsize (grid0.coords t) 0 = 16 ∧ win0_6.xsize (grid0.coords t) 1 = 128 ∧ win0_6.xsize (grid0.coords t) 2 = 128 :=
  (by decide +kernel : ∀ t : Fin grid0.N, win0_6.xsize (grid0.coords t) 0 = 16 ∧ win0_6.xsize (grid0.coords t) 1 = 128 ∧ win0_6.xsize (grid0.coords t) 2 = 128)
theorem r0_xs7 : ∀ t : Fin cfg0.N, win0_7.xsize (grid0.coords t) 0 = 1 ∧ win0_7.xsize (grid0.coords t) 1 = 128 :=
  (by decide +kernel : ∀ t : Fin grid0.N, win0_7.xsize (grid0.coords t) 0 = 1 ∧ win0_7.xsize (grid0.coords t) 1 = 128)
theorem r0_xs8 : ∀ t : Fin cfg0.N, win0_8.xsize (grid0.coords t) 0 = 1 ∧ win0_8.xsize (grid0.coords t) 1 = 128 :=
  (by decide +kernel : ∀ t : Fin grid0.N, win0_8.xsize (grid0.coords t) 0 = 1 ∧ win0_8.xsize (grid0.coords t) 1 = 128)

/-- Every point writes back its sixteen rows of the layer. -/
theorem r0_flushed_h (c : Dev nD) (t : Fin cfg0.N) (hf : (cfg0.win 6).flush t = true) :
    (dat0 V c).flushed 6 t = ((cfg0.win 6).blk t).view.read (Elt Ideal) (h1K V c) := by
  funext j
  have hx := r0_xs6 t
  have hj0 : (j 0).val < 16 := lt_of_lt_of_eq (j 0).isLt hx.1
  have hj1 : (j 1).val < 128 := lt_of_lt_of_eq (j 1).isLt hx.2.1
  have hj2 : (j 2).val < 128 := lt_of_lt_of_eq (j 2).isLt hx.2.2
  have hi := r0_idx6 t
  rw [View.read_apply]
  show (dat0 V c).after 6 t ((cfg0.win 6).xinj (cfg0.grid.coords t) j) = h1K V c (((cfg0.win 6).blk t).view.emb j)
  rw [after0_6, r0_outs_h]
  have e1 : ((cfg0.win 6).xinj (cfg0.grid.coords t) j : S16x128x128.Idx)
      = ix3 (⟨(j 0).val, hj0⟩ : Fin 16) (⟨(j 1).val, hj1⟩ : Fin 128) (⟨(j 2).val, hj2⟩ : Fin 128) :=
    funext fun a => Fin.ext (match a with | ⟨0, _⟩ => rfl | ⟨1, _⟩ => rfl | ⟨2, _⟩ => rfl)
  have e2 : (((cfg0.win 6).blk t).view.emb j : Spec.Sh3.Idx)
      = ix3 (r0row t ⟨(j 0).val, hj0⟩) (⟨(j 1).val, hj1⟩ : Fin 128) (⟨(j 2).val, hj2⟩ : Fin 128) :=
    funext fun a => Fin.ext (match a with
      | ⟨0, _⟩ => (by show win0_6.index t 0 * 16 + 1 * (j 0).val = 16 * t.val + (j 0).val; rw [hi.1]; omega)
      | ⟨1, _⟩ => (by show win0_6.index t 1 * 128 + 1 * (j 1).val = (j 1).val; rw [hi.2.1]; omega)
      | ⟨2, _⟩ => (by show win0_6.index t 2 * 128 + 1 * (j 2).val = (j 2).val; rw [hi.2.2]; omega))
  refine (congrArg (r0H V c t) e1).trans ?_
  refine Eq.trans ?_ (congrArg (h1K V c) e2).symm
  exact r0_H_apply V c t _ _ _

/-- Every row of the layer's array lies in the block of the point that owns it. -/
theorem r0_cover_h (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 64 := N_0
  have h0 : (i 0 : Nat) < 1024 := (i 0).isLt
  have h1 : (i 1 : Nat) < 128 := (i 1).isLt
  have h2 : (i 2 : Nat) < 128 := (i 2).isLt
  obtain ⟨t, ht⟩ : ∃ t : Fin cfg0.N, t.val = (i 0 : Nat) / 16 := ⟨⟨(i 0 : Nat) / 16, by omega⟩, rfl⟩
  refine ⟨t, flush0_6 t, ?_⟩
  have hi := r0_idx6 t
  have hx := r0_xs6 t
  show i ∈ ((View.whole main_v7_0).slice (win0_6.rect t)).set
  rw [View.set_slice_whole, Rect.mem_set_unit]
  intro a
  match a with
  | ⟨0, _⟩ =>
    show win0_6.index t 0 * 16 ≤ (i 0 : Nat) ∧ (i 0 : Nat) < win0_6.index t 0 * 16 + win0_6.xsize (grid0.coords t) 0
    rw [hi.1, hx.1]; omega
  | ⟨1, _⟩ =>
    show win0_6.index t 1 * 128 ≤ (i 1 : Nat) ∧ (i 1 : Nat) < win0_6.index t 1 * 128 + win0_6.xsize (grid0.coords t) 1
    rw [hi.2.1, hx.2.1]; omega
  | ⟨2, _⟩ =>
    show win0_6.index t 2 * 128 ≤ (i 2 : Nat) ∧ (i 2 : Nat) < win0_6.index t 2 * 128 + win0_6.xsize (grid0.coords t) 2
    rw [hi.2.2, hx.2.2]; omega

/-- The one write-back of the sums row, after the last point, writes the channel sums. -/
theorem r0_flushed_s (c : Dev nD) (t : Fin cfg0.N) (hf : (cfg0.win 7).flush t = true) :
    (dat0 V c).flushed 7 t
      = ((cfg0.win 7).blk t).view.read (Elt Ideal) (fun j : Spec.ShRow.Idx => Spec.sumC (h1K V c) (j 1)) := by
  have hN : cfg0.N = 64 := N_0
  have h63 : t.val = 63 := by have := (flush0_7 t).mp hf; have := t.isLt; omega
  funext j
  have hx := r0_xs7 t
  have hj0 : (j 0).val < 1 := lt_of_lt_of_eq (j 0).isLt hx.1
  have hj1 : (j 1).val < 128 := lt_of_lt_of_eq (j 1).isLt hx.2
  have hi := r0_idx7 t
  rw [View.read_apply]
  show (dat0 V c).after 7 t ((cfg0.win 7).xinj (cfg0.grid.coords t) j)
    = Spec.sumC (h1K V c) ((((cfg0.win 7).blk t).view.emb j : Spec.ShRow.Idx) 1)
  rw [after0_7]
  have e1 : ((cfg0.win 7).xinj (cfg0.grid.coords t) j : S1x128.Idx) = ix2 (0 : Fin 1) (⟨(j 1).val, hj1⟩ : Fin 128) :=
    funext fun a => Fin.ext (match a with | ⟨0, _⟩ => (by show (j 0).val = 0; omega) | ⟨1, _⟩ => rfl)
  have e2 : (((cfg0.win 7).blk t).view.emb j : Spec.ShRow.Idx) 1 = (⟨(j 1).val, hj1⟩ : Fin 128) :=
    Fin.ext (by show win0_7.index t 1 * 128 + 1 * (j 1).val = (j 1).val; rw [hi.2]; omega)
  refine (congrArg ((outsAt0 V c t.val t.isLt).2.1) e1).trans ?_
  refine Eq.trans ?_ (congrArg (Spec.sumC (h1K V c)) e2).symm
  exact r0_final_s V c t h63 _

theorem r0_flushed_q (c : Dev nD) (t : Fin cfg0.N) (hf : (cfg0.win 8).flush t = true) :
    (dat0 V c).flushed 8 t
      = ((cfg0.win 8).blk t).view.read (Elt Ideal) (fun j : Spec.ShRow.Idx => Spec.sqC (h1K V c) (j 1)) := by
  have hN : cfg0.N = 64 := N_0
  have h63 : t.val = 63 := by have := (flush0_8 t).mp hf; have := t.isLt; omega
  funext j
  have hx := r0_xs8 t
  have hj0 : (j 0).val < 1 := lt_of_lt_of_eq (j 0).isLt hx.1
  have hj1 : (j 1).val < 128 := lt_of_lt_of_eq (j 1).isLt hx.2
  have hi := r0_idx8 t
  rw [View.read_apply]
  show (dat0 V c).after 8 t ((cfg0.win 8).xinj (cfg0.grid.coords t) j)
    = Spec.sqC (h1K V c) ((((cfg0.win 8).blk t).view.emb j : Spec.ShRow.Idx) 1)
  rw [after0_8]
  have e1 : ((cfg0.win 8).xinj (cfg0.grid.coords t) j : S1x128.Idx) = ix2 (0 : Fin 1) (⟨(j 1).val, hj1⟩ : Fin 128) :=
    funext fun a => Fin.ext (match a with | ⟨0, _⟩ => (by show (j 0).val = 0; omega) | ⟨1, _⟩ => rfl)
  have e2 : (((cfg0.win 8).blk t).view.emb j : Spec.ShRow.Idx) 1 = (⟨(j 1).val, hj1⟩ : Fin 128) :=
    Fin.ext (by show win0_8.index t 1 * 128 + 1 * (j 1).val = (j 1).val; rw [hi.2]; omega)
  refine (congrArg ((outsAt0 V c t.val t.isLt).2.2) e1).trans ?_
  refine Eq.trans ?_ (congrArg (Spec.sqC (h1K V c)) e2).symm
  exact r0_final_q V c t h63 _

/-- The last point's block of each statistics row is the whole row. -/
theorem r0_cover_s (c : Dev nD) (i : ((cfg0.win 7).arr.view.loc (c.tc : Thread nD τ)).2.ty.Idx) :
    ∃ t : Fin cfg0.N, (cfg0.win 7).flush t = true ∧ i ∈ ((cfg0.win 7).blk t).view.set := by
  have hN : cfg0.N = 64 := N_0
  have h0 : (i 0 : Nat) < 1 := (i 0).isLt
  have h1 : (i 1 : Nat) < 128 := (i 1).isLt
  obtain ⟨t, ht⟩ : ∃ t : Fin cfg0.N, t.val = 63 := ⟨⟨63, by omega⟩, rfl⟩
  refine ⟨t, (flush0_7 t).mpr (by omega), ?_⟩
  have hi := r0_idx7 t
  have hx := r0_xs7 t
  show i ∈ ((View.whole main_v7_1).slice (win0_7.rect t)).set
  rw [View.set_slice_whole, Rect.mem_set_unit]
  intro a
  match a with
  | ⟨0, _⟩ =>
    show win0_7.index t 0 * 1 ≤ (i 0 : Nat) ∧ (i 0 : Nat) < win0_7.index t 0 * 1 + win0_7.xsize (grid0.coords t) 0
    rw [hi.1, hx.1]; omega
  | ⟨1, _⟩ =>
    show win0_7.index t 1 * 128 ≤ (i 1 : Nat) ∧ (i 1 : Nat) < win0_7.index t 1 * 128 + win0_7.xsize (grid0.coords t) 1
    rw [hi.2, hx.2]; omega

theorem r0_cover_q (c : Dev nD) (i : ((cfg0.win 8).arr.view.loc (c.tc : Thread nD τ)).2.ty.Idx) :
    ∃ t : Fin cfg0.N, (cfg0.win 8).flush t = true ∧ i ∈ ((cfg0.win 8).blk t).view.set := by
  have hN : cfg0.N = 64 := N_0
  have h0 : (i 0 : Nat) < 1 := (i 0).isLt
  have h1 : (i 1 : Nat) < 128 := (i 1).isLt
  obtain ⟨t, ht⟩ : ∃ t : Fin cfg0.N, t.val = 63 := ⟨⟨63, by omega⟩, rfl⟩
  refine ⟨t, (flush0_8 t).mpr (by omega), ?_⟩
  have hi := r0_idx8 t
  have hx := r0_xs8 t
  show i ∈ ((View.whole main_v7_2).slice (win0_8.rect t)).set
  rw [View.set_slice_whole, Rect.mem_set_unit]
  intro a
  match a with
  | ⟨0, _⟩ =>
    show win0_8.index t 0 * 1 ≤ (i 0 : Nat) ∧ (i 0 : Nat) < win0_8.index t 0 * 1 + win0_8.xsize (grid0.coords t) 0
    rw [hi.1, hx.1]; omega
  | ⟨1, _⟩ =>
    show win0_8.index t 1 * 128 ≤ (i 1 : Nat) ∧ (i 1 : Nat) < win0_8.index t 1 * 128 + win0_8.xsize (grid0.coords t) 1
    rw [hi.2, hx.2]; omega

theorem arr_h (c : Dev nD) : (dat0 V c).arrAt 6 cfg0.N = h1K V c :=
  (dat0 V c).arrAt_eq_of_cover 6 (h1K V c) (r0_flushed_h V c) (r0_cover_h c)

theorem arr_s (c : Dev nD) : (dat0 V c).arrAt 7 cfg0.N = fun j : Spec.ShRow.Idx => Spec.sumC (h1K V c) (j 1) :=
  (dat0 V c).arrAt_eq_of_cover 7 (fun j : Spec.ShRow.Idx => Spec.sumC (h1K V c) (j 1)) (r0_flushed_s V c) (r0_cover_s c)

theorem arr_q (c : Dev nD) : (dat0 V c).arrAt 8 cfg0.N = fun j : Spec.ShRow.Idx => Spec.sqC (h1K V c) (j 1) :=
  (dat0 V c).arrAt_eq_of_cover 8 (fun j : Spec.ShRow.Idx => Spec.sqC (h1K V c) (j 1)) (r0_flushed_q V c) (r0_cover_q c)

end Cert.KernelIdeal.K0

end
-- ==== Proof.K1Pieces.lean ====
/-
  Region 1 (normalise, clamp at zero, the second linear layer and its channel statistics), one grid point: what the
  body leaves in each of its three output buffers, as the body's pure terms of the blocks it loaded. At the first point
  the two statistics rows are reset to zero before the point's share is added; at every later point the share is added
  to what the point before left.
-/
import proofs.«137522_j79800492360363_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.K1

open Cert.KernelIdeal Cert.KernelIdeal.Gen

variable {F : FTy → Type} [FloatOps F]

/-- The all-zero offset of a three-axis block, and of a two-axis block, as constant functions. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-- First point: the layer's block. -/
theorem piece_A_h (c : Dev nD) (i : grid1.Coords) (a1 : Memref sig .tc .vmem S64x128x128 .f32) (h1 : a1.IsWhole) (a2 : Memref sig .tc .vmem S1x128x1 .f32) (h2 : a2.IsWhole) (a3 : Memref sig .tc .vmem S1x128x1 .f32) (h3 : a3.IsWhole) (a4 : Memref sig .tc .vmem S128x128 .f32) (h4 : a4.IsWhole) (a5 : Memref sig .tc .vmem S1x128 .f32) (h5 : a5.IsWhole) (a6 : Memref sig .tc .vmem S64x128x128 .f32) (h6 : a6.IsWhole) (a7 : Memref sig .tc .vmem S1x128 .f32) (h7 : a7.IsWhole) (a8 : Memref sig .tc .vmem S1x128 .f32) (h8 : a8.IsWhole) (hc : cond1_0 i) (x0 : Vec F S64x128x128 .f32) (x1 x2 : Vec F S1x128x1 .f32) (x3 : Vec F S128x128 .f32) (x4 : Vec F S1x128 .f32) :
    out1_A_5 c i a1 h1 a2 h2 a3 h3 a4 h4 a5 h5 a6 h6 a7 h7 a8 h8 hc x0 x1 x2 x3 x4 = k1_pay5 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz3]
  simp only [View.readAt_eq_ld, h1.read_unread, h2.read_unread, h3.read_unread, h4.read_unread, h5.read_unread,
    View.ld_unit_zero (S := S64x128x128) hz3, View.ld_unit_zero (S := S1x128x1) hz3, View.ld_unit_zero (S := S128x128) hz2,
    View.ld_unit_zero (S := S1x128) hz2]

/-- First point: the row of sums, the point's share added to the zero row just stored. -/
theorem piece_A_s (c : Dev nD) (i : grid1.Coords) (a1 : Memref sig .tc .vmem S64x128x128 .f32) (h1 : a1.IsWhole) (a2 : Memref sig .tc .vmem S1x128x1 .f32) (h2 : a2.IsWhole) (a3 : Memref sig .tc .vmem S1x128x1 .f32) (h3 : a3.IsWhole) (a4 : Memref sig .tc .vmem S128x128 .f32) (h4 : a4.IsWhole) (a5 : Memref sig .tc .vmem S1x128 .f32) (h5 : a5.IsWhole) (a6 : Memref sig .tc .vmem S64x128x128 .f32) (h6 : a6.IsWhole) (a7 : Memref sig .tc .vmem S1x128 .f32) (h7 : a7.IsWhole) (a8 : Memref sig .tc .vmem S1x128 .f32) (h8 : a8.IsWhole) (hc : cond1_0 i) (x0 : Vec F S64x128x128 .f32) (x1 x2 : Vec F S1x128x1 .f32) (x3 : Vec F S128x128 .f32) (x4 : Vec F S1x128 .f32) :
    out1_A_6 c i a1 h1 a2 h2 a3 h3 a4 h4 a5 h5 a6 h6 a7 h7 a8 h8 hc x0 x1 x2 x3 x4 = k1_pay1 (k1_pay6 x0 x1 x2 x3 x4) (k1_pay8 (k1_pay3 (F := F))) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S64x128x128) hz3, View.ld_unit_zero (S := S1x128x1) hz3, View.ld_unit_zero (S := S128x128) hz2,
    View.ld_unit_zero (S := S1x128) hz2]

/-- First point: the row of sums of squares. -/
theorem piece_A_q (c : Dev nD) (i : grid1.Coords) (a1 : Memref sig .tc .vmem S64x128x128 .f32) (h1 : a1.IsWhole) (a2 : Memref sig .tc .vmem S1x128x1 .f32) (h2 : a2.IsWhole) (a3 : Memref sig .tc .vmem S1x128x1 .f32) (h3 : a3.IsWhole) (a4 : Memref sig .tc .vmem S128x128 .f32) (h4 : a4.IsWhole) (a5 : Memref sig .tc .vmem S1x128 .f32) (h5 : a5.IsWhole) (a6 : Memref sig .tc .vmem S64x128x128 .f32) (h6 : a6.IsWhole) (a7 : Memref sig .tc .vmem S1x128 .f32) (h7 : a7.IsWhole) (a8 : Memref sig .tc .vmem S1x128 .f32) (h8 : a8.IsWhole) (hc : cond1_0 i) (x0 : Vec F S64x128x128 .f32) (x1 x2 : Vec F S1x128x1 .f32) (x3 : Vec F S128x128 .f32) (x4 : Vec F S1x128 .f32) :
    out1_A_7 c i a1 h1 a2 h2 a3 h3 a4 h4 a5 h5 a6 h6 a7 h7 a8 h8 hc x0 x1 x2 x3 x4 = k1_pay2 (k1_pay7 x0 x1 x2 x3 x4) (k1_pay4 (F := F)) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S64x128x128) hz3, View.ld_unit_zero (S := S1x128x1) hz3, View.ld_unit_zero (S := S128x128) hz2,
    View.ld_unit_zero (S := S1x128) hz2]

/-- A later point: the layer's block. -/
theorem piece_B_h (c : Dev nD) (i : grid1.Coords) (a1 : Memref sig .tc .vmem S64x128x128 .f32) (h1 : a1.IsWhole) (a2 : Memref sig .tc .vmem S1x128x1 .f32) (h2 : a2.IsWhole) (a3 : Memref sig .tc .vmem S1x128x1 .f32) (h3 : a3.IsWhole) (a4 : Memref sig .tc .vmem S128x128 .f32) (h4 : a4.IsWhole) (a5 : Memref sig .tc .vmem S1x128 .f32) (h5 : a5.IsWhole) (a6 : Memref sig .tc .vmem S64x128x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S64x128x128 .f32) (x1 x2 : Vec F S1x128x1 .f32) (x3 : Vec F S128x128 .f32) (x4 : Vec F S1x128 .f32) (xs xq : Vec F S1x128 .f32) :
    out1_B_5 c i a1 h1 a2 h2 a3 h3 a4 h4 a5 h5 a6 h6 a7 h7 a8 h8 hc x0 x1 x2 x3 x4 xs xq = k1_pay5 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xs xq)]
  unfold kernelRun1_B
  dsimp only
  sl_unfold_words
  rw [View.canon_unit_zero hz3]
  simp only [View.readAt_eq_ld, h1.read_unread, h2.read_unread, h3.read_unread, h4.read_unread, h5.read_unread,
    View.ld_unit_zero (S := S64x128x128) hz3, View.ld_unit_zero (S := S1x128x1) hz3, View.ld_unit_zero (S := S128x128) hz2,
    View.ld_unit_zero (S := S1x128) hz2]

/-- A later point: the row of sums, the point's share added to the row `xs` left before. -/
theorem piece_B_s (c : Dev nD) (i : grid1.Coords) (a1 : Memref sig .tc .vmem S64x128x128 .f32) (h1 : a1.IsWhole) (a2 : Memref sig .tc .vmem S1x128x1 .f32) (h2 : a2.IsWhole) (a3 : Memref sig .tc .vmem S1x128x1 .f32) (h3 : a3.IsWhole) (a4 : Memref sig .tc .vmem S128x128 .f32) (h4 : a4.IsWhole) (a5 : Memref sig .tc .vmem S1x128 .f32) (h5 : a5.IsWhole) (a6 : Memref sig .tc .vmem S64x128x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S64x128x128 .f32) (x1 x2 : Vec F S1x128x1 .f32) (x3 : Vec F S128x128 .f32) (x4 : Vec F S1x128 .f32) (xs xq : Vec F S1x128 .f32) :
    out1_B_6 c i a1 h1 a2 h2 a3 h3 a4 h4 a5 h5 a6 h6 a7 h7 a8 h8 hc x0 x1 x2 x3 x4 xs xq = k1_pay1 (k1_pay6 x0 x1 x2 x3 x4) (k1_pay8 xs) := by
  unfold out1_B_6
  rw [View.read_writes_eq_canon _ _ _ (cover1_B_6 c i a1 h1 a2 h2 a3 h3 a4 h4 a5 h5 a6 h6 a7 h7 a8 h8 hc x0 x1 x2 x3 x4 xs xq)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S64x128x128) hz3, View.ld_unit_zero (S := S1x128x1) hz3, View.ld_unit_zero (S := S128x128) hz2,
    View.ld_unit_zero (S := S1x128) hz2,
    h7.read_unread, h8.read_unread]

/-- A later point: the row of sums of squares, added to the row `xq` left before. -/
theorem piece_B_q (c : Dev nD) (i : grid1.Coords) (a1 : Memref sig .tc .vmem S64x128x128 .f32) (h1 : a1.IsWhole) (a2 : Memref sig .tc .vmem S1x128x1 .f32) (h2 : a2.IsWhole) (a3 : Memref sig .tc .vmem S1x128x1 .f32) (h3 : a3.IsWhole) (a4 : Memref sig .tc .vmem S128x128 .f32) (h4 : a4.IsWhole) (a5 : Memref sig .tc .vmem S1x128 .f32) (h5 : a5.IsWhole) (a6 : Memref sig .tc .vmem S64x128x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S64x128x128 .f32) (x1 x2 : Vec F S1x128x1 .f32) (x3 : Vec F S128x128 .f32) (x4 : Vec F S1x128 .f32) (xs xq : Vec F S1x128 .f32) :
    out1_B_7 c i a1 h1 a2 h2 a3 h3 a4 h4 a5 h5 a6 h6 a7 h7 a8 h8 hc x0 x1 x2 x3 x4 xs xq = k1_pay2 (k1_pay7 x0 x1 x2 x3 x4) xq := by
  unfold out1_B_7
  rw [View.read_writes_eq_canon _ _ _ (cover1_B_7 c i a1 h1 a2 h2 a3 h3 a4 h4 a5 h5 a6 h6 a7 h7 a8 h8 hc x0 x1 x2 x3 x4 xs xq)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S64x128x128) hz3, View.ld_unit_zero (S := S1x128x1) hz3, View.ld_unit_zero (S := S128x128) hz2,
    View.ld_unit_zero (S := S1x128) hz2,
    h7.read_unread, h8.read_unread]

end Cert.KernelIdeal.K1

end
-- ==== Proof.K1Pay.lean ====
/-
  Region 1's body arithmetic at an index, over the extended reals: with a = max(h·scale[e] + offset[e], 0) the
  block entry (b, e, o) is (Σ_d a[b,e,d] · wt[d,o]) + bias[o] (a [8192,128]·[128,128] product read through the row-major
  flattening (b, e) ↦ 128·b + e); the statistics rows add to what they held the sum over the block's 64 batch rows and
  128 features of the entries, and of their squares.
-/
import proofs.«137522_j79800492360363_1_alg».proof.Proof.Gen.KernelIdeal.Skeleton
import proofs.«137522_j79800492360363_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.ShloMosaic.ValueIdx

namespace Cert.KernelIdeal.K1

open Cert.KernelIdeal Cert.KernelIdeal.Gen

/-- A [1, b, 1] column broadcast to [a, b, c] reads, at (p, q, r), the column at q. -/
private theorem k1pay_bcol_apply {α : Type} {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- The normalised, clamped input of the layer: max(h · scale[e] + offset[e], 0). -/
private def k1pay_act (x0 : Vec Ideal S64x128x128 .f32) (x1 x2 : Vec Ideal S1x128x1 .f32) : FVec Ideal S64x128x128 .f32 :=
  maximumf
    (addf (mulf (shapeCast S64x128x128 x0 shapeCasts_S64x128x128_S64x128x128)
        (broadcastTo S64x128x128 (shapeCast S1x128x1 x1 shapeCasts_S1x128x1_S1x128x1) broadcasts_S1x128x1_S64x128x128))
      (broadcastTo S64x128x128 (shapeCast S1x128x1 x2 shapeCasts_S1x128x1_S1x128x1) broadcasts_S1x128x1_S64x128x128))
    (broadcast S64x128x128 (Scalar.ofBits .f32 0x00000000#32))

private theorem k1pay_act_apply (x0 : Vec Ideal S64x128x128 .f32) (x1 x2 : Vec Ideal S1x128x1 .f32) (b : Fin 64) (e d : Fin 128) :
    k1pay_act x0 x1 x2 (ix3 b e d) = max (x0 (ix3 b e d) * x1 (ix3 0 e 0) + x2 (ix3 0 e 0)) 0 := by
  unfold k1pay_act
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) (congrFun (shapeCast_self x0 _) _) ?_
    refine (k1pay_bcol_apply _ broadcasts_S1x128x1_S64x128x128 b e d).trans ?_
    exact congrFun (shapeCast_self x1 _) _
  · refine (k1pay_bcol_apply _ broadcasts_S1x128x1_S64x128x128 b e d).trans ?_
    exact congrFun (shapeCast_self x2 _) _

/-- Row 128·b + e of the [8192,128] flattening of a [64,128,128] block. -/
private def k1pay_row (b : Fin 64) (e : Fin 128) : Fin 8192 := ⟨128 * b.val + e.val, by have := b.isLt; have := e.isLt; omega⟩

/-- The flattening [64,128,128] → [8192,128] reads, at (128·b + e, d), the block at (b, e, d). -/
private theorem k1pay_flat_apply {α : Type} (y : S64x128x128.Idx → α) (b : Fin 64) (e d : Fin 128) :
    shapeCast S8192x128 y shapeCasts_S64x128x128_S8192x128 (ix2 (k1pay_row b e) d) = y (ix3 b e d) :=
  shapeCast_apply y _ _ _ (by
    rw [Shape.rowMajor_val_three, Shape.rowMajor_val_two]
    show (b.val * 128 + e.val) * 128 + d.val = (128 * b.val + e.val) * 128 + d.val
    omega)

/-- The inverse reshaping [8192,128] → [64,128,128] reads, at (b, e, o), row 128·b + e at o. -/
private theorem k1pay_unflat_apply {α : Type} (z : S8192x128.Idx → α) (b : Fin 64) (e o : Fin 128) :
    shapeCast S64x128x128 z shapeCasts_S8192x128_S64x128x128 (ix3 b e o) = z (ix2 (k1pay_row b e) o) :=
  shapeCast_apply z _ _ _ (by
    rw [Shape.rowMajor_val_three, Shape.rowMajor_val_two]
    show (128 * b.val + e.val) * 128 + o.val = (b.val * 128 + e.val) * 128 + o.val
    omega)

private theorem k1pay_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
private theorem k1pay_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
private theorem k1pay_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
private theorem k1pay_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The block product into a zero accumulator at (r, o): Σ_d L[r,d] · R[d,o]. -/
private theorem k1pay_mm_apply (L : FVec Ideal S8192x128 .bf16) (R : FVec Ideal S128x128 .bf16) (r : Fin 8192) (o : Fin 128) :
    matmul dot_S8192x128_S128x128_S8192x128_1_0_0_1_n_n none L R (constant S8192x128 .f32 0x00000000#32) (ix2 r o)
      = ∑ d : Fin 128, L (ix2 r d) * R (ix2 d o) := by
  refine (Ideal.matmul_constant_zero_apply dot_S8192x128_S128x128_S8192x128_1_0_0_1_n_n none L R (ix2 r o)).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 r o) ((ValueIdx.contrEquiv1 dot_S8192x128_S128x128_S8192x128_1_0_0_1_n_n 128 rfl rfl).symm k) = ix2 r k := funext fun a => Fin.ext (by
    match a with
    | ⟨0, _⟩ => exact k1pay_lhs_0 _ _
    | ⟨1, _⟩ => exact (k1pay_lhs_1 _ _).trans hk)
  have er : dot_S8192x128_S128x128_S8192x128_1_0_0_1_n_n.rhsIdx (ix2 r o) ((ValueIdx.contrEquiv1 dot_S8192x128_S128x128_S8192x128_1_0_0_1_n_n 128 rfl rfl).symm k) = ix2 k o := funext fun a => Fin.ext (by
    match a with
    | ⟨0, _⟩ => exact (k1pay_rhs_0 _ _).trans hk
    | ⟨1, _⟩ => exact k1pay_rhs_1 _ _)
  rw [el, er]

/-- The layer's block at (b, e, o). -/
theorem pay5_apply (x0 : Vec Ideal S64x128x128 .f32) (x1 x2 : Vec Ideal S1x128x1 .f32) (x3 : Vec Ideal S128x128 .f32) (x4 : Vec Ideal S1x128 .f32) (b : Fin 64) (e o : Fin 128) :
    k1_pay5 x0 x1 x2 x3 x4 (ix3 b e o)
      = (∑ d : Fin 128, max (x0 (ix3 b e d) * x1 (ix3 0 e 0) + x2 (ix3 0 e 0)) 0 * x3 (ix2 d o)) + x4 (ix2 0 o) := by
  unfold k1_pay5
  refine (k1pay_unflat_apply _ b e o).trans ?_
  refine (addf_apply _ _ _).trans ?_
  refine congrArg₂ (· + ·) ?_ ?_
  · refine (k1pay_mm_apply _ _ (k1pay_row b e) o).trans ?_
    refine Finset.sum_congr rfl fun d _ => ?_
    refine congrArg₂ (· * ·) ?_ ?_
    · refine (truncf_apply (ψ := .bf16) _ bitsLt_bf16_f32 _).trans ?_
      refine (k1pay_flat_apply _ b e d).trans ?_
      exact k1pay_act_apply x0 x1 x2 b e d
    · refine (truncf_apply (ψ := .bf16) _ bitsLt_bf16_f32 _).trans ?_
      exact congrFun (shapeCast_self x3 _) _
  · refine (broadcastTo_1b_ab_apply _ broadcasts_S1x128_S8192x128 (k1pay_row b e) o).trans ?_
    exact congrFun (shapeCast_self x4 _) _

/-- The per-(row, channel) feature sums of the block, and of its squares. -/
theorem pay6_apply (x0 : Vec Ideal S64x128x128 .f32) (x1 x2 : Vec Ideal S1x128x1 .f32) (x3 : Vec Ideal S128x128 .f32) (x4 : Vec Ideal S1x128 .f32) (b : Fin 64) (e : Fin 128) :
    k1_pay6 x0 x1 x2 x3 x4 (ix2 b e) = ∑ o : Fin 128, k1_pay5 x0 x1 x2 x3 x4 (ix3 b e o) := by
  unfold k1_pay6
  generalize k1_pay5 x0 x1 x2 x3 x4 = y
  refine (Ideal.multiReduction_add_single y _ reduces_S64x128x128_S64x128 _ _ (ix2 b e)).trans ?_
  refine Finset.sum_congr rfl fun o _ => congrArg y (funext fun a => Fin.ext ?_)
  match a with
  | ⟨0, _⟩ => rfl
  | ⟨1, _⟩ => rfl
  | ⟨2, _⟩ => rfl
theorem pay7_apply (x0 : Vec Ideal S64x128x128 .f32) (x1 x2 : Vec Ideal S1x128x1 .f32) (x3 : Vec Ideal S128x128 .f32) (x4 : Vec Ideal S1x128 .f32) (b : Fin 64) (e : Fin 128) :
    k1_pay7 x0 x1 x2 x3 x4 (ix2 b e) = ∑ o : Fin 128, k1_pay5 x0 x1 x2 x3 x4 (ix3 b e o) * k1_pay5 x0 x1 x2 x3 x4 (ix3 b e o) := by
  unfold k1_pay7
  generalize k1_pay5 x0 x1 x2 x3 x4 = y
  refine (Ideal.multiReduction_add_single (mulf y y) _ reduces_S64x128x128_S64x128 _ _ (ix2 b e)).trans ?_
  refine Finset.sum_congr rfl fun o _ => ?_
  refine (mulf_apply y y _).trans ?_
  have hi : reduces_S64x128x128_S64x128.lift (ix2 b e) o = ix3 b e o := funext fun a => Fin.ext (by
    match a with
    | ⟨0, _⟩ => rfl
    | ⟨1, _⟩ => rfl
    | ⟨2, _⟩ => rfl)
  exact congrArg (fun t => y t * y t) hi

/-- The sums row: what it held plus the sum over the 64 rows. -/
theorem pay1_apply (v27 : FVec Ideal S64x128 .f32) (v31 : FVec Ideal S1x128 .f32) (e : Fin 128) :
    k1_pay1 v27 v31 (ix2 0 e) = v31 (ix2 0 e) + ∑ r : Fin 64, v27 (ix2 r e) := by
  unfold k1_pay1
  refine (addf_apply _ _ _).trans ?_
  refine congrArg (v31 (ix2 0 e) + ·) ?_
  refine (shapeCast_a_1a_apply _ shapeCasts_S128_S1x128 0 e).trans ?_
  refine (Ideal.multiReduction_add_single v27 _ reduces_S64x128_S128 _ _ (ix1 e)).trans ?_
  refine Finset.sum_congr rfl fun r _ => congrArg v27 (funext fun a => Fin.ext ?_)
  match a with
  | ⟨0, _⟩ => rfl
  | ⟨1, _⟩ => rfl

theorem pay2_apply (v29 : FVec Ideal S64x128 .f32) (v36 : Vec Ideal S1x128 .f32) (e : Fin 128) :
    k1_pay2 v29 v36 (ix2 0 e) = v36 (ix2 0 e) + ∑ r : Fin 64, v29 (ix2 r e) := by
  unfold k1_pay2
  refine (addf_apply _ _ _).trans ?_
  refine congrArg₂ (· + ·) (congrFun (shapeCast_self v36 _) _) ?_
  refine (shapeCast_a_1a_apply _ shapeCasts_S128_S1x128 0 e).trans ?_
  refine (Ideal.multiReduction_add_single v29 _ reduces_S64x128_S128 _ _ (ix1 e)).trans ?_
  refine Finset.sum_congr rfl fun r _ => congrArg v29 (funext fun a => Fin.ext ?_)
  match a with
  | ⟨0, _⟩ => rfl
  | ⟨1, _⟩ => rfl

/-- A row read back is itself; the reset rows are zero. -/
theorem pay8_eq (v30 : Vec Ideal S1x128 .f32) : k1_pay8 v30 = v30 := by
  unfold k1_pay8
  exact shapeCast_self _ _
theorem pay3_apply (j : S1x128.Idx) : k1_pay3 (F := Ideal) j = 0 := by
  unfold k1_pay3
  exact Ideal.ofBits_zero_f32
theorem pay4_apply (j : S1x128.Idx) : k1_pay4 (F := Ideal) j = 0 := by
  unfold k1_pay4
  exact Ideal.ofBits_zero_f32

end Cert.KernelIdeal.K1

end
-- ==== Proof.K1.lean ====
/-
  Region 1, the whole run over its 16 grid points of 64 batch rows each: the three arrays it leaves, as functions
  of the arrays it was entered with. The second layer's array is written block by block; each statistics row is written
  back once, after the last point, holding the running sum over all points.
-/
import proofs.«137522_j79800492360363_1_alg».proof.Proof.Gen.KernelIdeal.Frame
import proofs.«137522_j79800492360363_1_alg».proof.Proof.Spec
import proofs.«137522_j79800492360363_1_alg».proof.Proof.K1Pieces
import proofs.«137522_j79800492360363_1_alg».proof.Proof.K1Pay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K1

open Cert.KernelIdeal Cert.KernelIdeal.Gen

-- the buffer contents when the region is entered
variable (V : (c : Dev nD) → (b : Ref sig .tc) → Buf (Elt Ideal) ((c : Thread nD τ).loc b))

/-- The second layer's array in the arrangement the region computes it, from the region's entry contents. -/
abbrev h2K (c : Dev nD) : Spec.T3 :=
  Spec.lin2K (Spec.relu (Spec.affK (V c main_v7_0) (V c main_v22) (V c main_v23))) (V c main_v4) (V c main_v6)

namespace Run

/-! ## The arrays and the blocks the points load -/

/-- The five arrays the region reads, at their shapes. -/
abbrev hA (c : Dev nD) : Vec Ideal S1024x128x128 .f32 := V c main_v7_0
abbrev scA (c : Dev nD) : Vec Ideal S1x128x1 .f32 := V c main_v22
abbrev shA (c : Dev nD) : Vec Ideal S1x128x1 .f32 := V c main_v23
abbrev wA (c : Dev nD) : Vec Ideal S128x128 .f32 := V c main_v4
abbrev bA (c : Dev nD) : Vec Ideal S1x128 .f32 := V c main_v6
/-- Their blocks at point `t`. -/
abbrev hB (c : Dev nD) (t : Fin cfg1.N) : Vec Ideal S64x128x128 .f32 := iblk1 V c 0 t
abbrev scB (c : Dev nD) (t : Fin cfg1.N) : Vec Ideal S1x128x1 .f32 := iblk1 V c 1 t
abbrev shB (c : Dev nD) (t : Fin cfg1.N) : Vec Ideal S1x128x1 .f32 := iblk1 V c 2 t
abbrev wB (c : Dev nD) (t : Fin cfg1.N) : Vec Ideal S128x128 .f32 := iblk1 V c 3 t
abbrev bB (c : Dev nD) (t : Fin cfg1.N) : Vec Ideal S1x128 .f32 := iblk1 V c 4 t

/-- The first window's block index at point `t` is `(t, 0, 0)`: -/
theorem idx0 : ∀ t : Fin cfg1.N, win1_0.index t 0 = t.val ∧ win1_0.index t 1 = 0 ∧ win1_0.index t 2 = 0 :=
  (by decide +kernel : ∀ t : Fin grid1.N, win1_0.index t 0 = t.val ∧ win1_0.index t 1 = 0 ∧ win1_0.index t 2 = 0)

/-- so row `r` of its block is batch row `64·t + r` of the array. -/
theorem hB_apply (c : Dev nD) (t : Fin cfg1.N) (r : Fin 64) (e d : Fin 128) (hb : 64 * t.val + r.val < 1024) :
    hB V c t (ix3 r e d) = hA V c (ix3 ⟨64 * t.val + r.val, hb⟩ e d) := by
  unfold hB hA iblk1
  rw [View.read_apply]
  show V c main_v7_0 _ = V c main_v7_0 _
  congr 1
  funext a
  apply Fin.ext
  obtain ⟨h0, h1, h2⟩ := idx0 t
  match a with
  | ⟨0, _⟩ => show win1_0.index t 0 * 64 + 1 * r.val = 64 * t.val + r.val; rw [h0]; omega
  | ⟨1, _⟩ => show win1_0.index t 1 * 128 + 1 * e.val = e.val; rw [h1]; omega
  | ⟨2, _⟩ => show win1_0.index t 2 * 128 + 1 * d.val = d.val; rw [h2]; omega

/-- The other four windows' block indices are zero at every point: -/
theorem idx1 : ∀ (t : Fin cfg1.N) (a : Fin 3), win1_1.index t a = 0 :=
  (by decide +kernel : ∀ (t : Fin grid1.N) (a : Fin 3), win1_1.index t a = 0)
theorem idx2 : ∀ (t : Fin cfg1.N) (a : Fin 3), win1_2.index t a = 0 :=
  (by decide +kernel : ∀ (t : Fin grid1.N) (a : Fin 3), win1_2.index t a = 0)
theorem idx3 : ∀ (t : Fin cfg1.N) (a : Fin 2), win1_3.index t a = 0 :=
  (by decide +kernel : ∀ (t : Fin grid1.N) (a : Fin 2), win1_3.index t a = 0)
theorem idx4 : ∀ (t : Fin cfg1.N) (a : Fin 2), win1_4.index t a = 0 :=
  (by decide +kernel : ∀ (t : Fin grid1.N) (a : Fin 2), win1_4.index t a = 0)

/-- so their blocks are the whole arrays. -/
theorem scB_eq (c : Dev nD) (t : Fin cfg1.N) : scB V c t = scA V c := by
  unfold scB scA iblk1
  have hz' : (fun a => win1_1.index t a * main_v22.ty.shape.size a) = fun _ => 0 :=
    funext fun a => by rw [idx1 t a, Nat.zero_mul]
  exact Memref.read_access_unit_zero (Elt Ideal) main_v22 hz' (fun a => by rw [congrFun hz' a]; simp) (V c main_v22)
theorem shB_eq (c : Dev nD) (t : Fin cfg1.N) : shB V c t = shA V c := by
  unfold shB shA iblk1
  have hz' : (fun a => win1_2.index t a * main_v23.ty.shape.size a) = fun _ => 0 :=
    funext fun a => by rw [idx2 t a, Nat.zero_mul]
  exact Memref.read_access_unit_zero (Elt Ideal) main_v23 hz' (fun a => by rw [congrFun hz' a]; simp) (V c main_v23)
theorem wB_eq (c : Dev nD) (t : Fin cfg1.N) : wB V c t = wA V c := by
  unfold wB wA iblk1
  have hz' : (fun a => win1_3.index t a * main_v4.ty.shape.size a) = fun _ => 0 :=
    funext fun a => by rw [idx3 t a, Nat.zero_mul]
  exact Memref.read_access_unit_zero (Elt Ideal) main_v4 hz' (fun a => by rw [congrFun hz' a]; simp) (V c main_v4)
theorem bB_eq (c : Dev nD) (t : Fin cfg1.N) : bB V c t = bA V c := by
  unfold bB bA iblk1
  have hz' : (fun a => win1_4.index t a * main_v6.ty.shape.size a) = fun _ => 0 :=
    funext fun a => by rw [idx4 t a, Nat.zero_mul]
  exact Memref.read_access_unit_zero (Elt Ideal) main_v6 hz' (fun a => by rw [congrFun hz' a]; simp) (V c main_v6)

/-! ## What each point leaves in the three output buffers -/

/-- The point's block of the second layer, from the blocks the point loads. -/
abbrev blkH (c : Dev nD) (t : Fin cfg1.N) : Vec Ideal S64x128x128 .f32 :=
  k1_pay5 (hB V c t) (scB V c t) (shB V c t) (wB V c t) (bB V c t)

/-- Every point leaves its block of the second layer. -/
theorem outs_h (c : Dev nD) (t : Fin cfg1.N) : (outsAt1 V c t.val t.isLt).1 = blkH V c t := by
  by_cases h0 : t.val % 16 = 0
  · rw [outsAt1_A V c t h0]
    dsimp only
    exact piece_A_h (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)
  · rw [outsAt1_B V c t h0]
    dsimp only
    exact piece_B_h (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

/-- The row of sums: at the first point the point's share added to the zero row, at a later point added to what the
    point before left; likewise the row of sums of squares. -/
theorem outs_s_A (c : Dev nD) (t : Fin cfg1.N) (h0 : t.val % 16 = 0) :
    (outsAt1 V c t.val t.isLt).2.1
      = k1_pay1 (k1_pay6 (hB V c t) (scB V c t) (shB V c t) (wB V c t) (bB V c t)) (k1_pay8 (k1_pay3 (F := Ideal))) := by
  rw [outsAt1_A V c t h0]
  dsimp only
  exact piece_A_s (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)

theorem outs_s_B (c : Dev nD) (t : Fin cfg1.N) (h0 : ¬t.val % 16 = 0) :
    (outsAt1 V c t.val t.isLt).2.1
      = k1_pay1 (k1_pay6 (hB V c t) (scB V c t) (shB V c t) (wB V c t) (bB V c t))
          (k1_pay8 (outsAt1 V c (t.val - 1) (Nat.lt_of_le_of_lt (Nat.sub_le _ _) t.isLt)).2.1) := by
  rw [outsAt1_B V c t h0]
  dsimp only
  exact piece_B_s (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

theorem outs_q_A (c : Dev nD) (t : Fin cfg1.N) (h0 : t.val % 16 = 0) :
    (outsAt1 V c t.val t.isLt).2.2
      = k1_pay2 (k1_pay7 (hB V c t) (scB V c t) (shB V c t) (wB V c t) (bB V c t)) (k1_pay4 (F := Ideal)) := by
  rw [outsAt1_A V c t h0]
  dsimp only
  exact piece_A_q (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)

theorem outs_q_B (c : Dev nD) (t : Fin cfg1.N) (h0 : ¬t.val % 16 = 0) :
    (outsAt1 V c t.val t.isLt).2.2
      = k1_pay2 (k1_pay7 (hB V c t) (scB V c t) (shB V c t) (wB V c t) (bB V c t))
          (outsAt1 V c (t.val - 1) (Nat.lt_of_le_of_lt (Nat.sub_le _ _) t.isLt)).2.2 := by
  rw [outsAt1_B V c t h0]
  dsimp only
  exact piece_B_q (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

/-- Point `s`'s share of channel `e`'s sum: its block summed over the block's rows and features (zero past the grid). -/
def addS (c : Dev nD) (e : Fin 128) (s : ℕ) : EReal :=
  if hs : s < cfg1.N then ∑ r : Fin 64, ∑ o : Fin 128, blkH V c ⟨s, hs⟩ (ix3 r e o) else 0

/-- The same of the squares. -/
def addQ (c : Dev nD) (e : Fin 128) (s : ℕ) : EReal :=
  if hs : s < cfg1.N then ∑ r : Fin 64, ∑ o : Fin 128, blkH V c ⟨s, hs⟩ (ix3 r e o) * blkH V c ⟨s, hs⟩ (ix3 r e o) else 0

/-- After point `n` the row of sums holds the shares of the points up to `n`. -/
theorem outs_s (c : Dev nD) (e : Fin 128) : ∀ (n : ℕ) (h : n < cfg1.N),
    (outsAt1 V c n h).2.1 (ix2 0 e) = ∑ s ∈ Finset.range (n + 1), addS V c e s
  | 0, h => by
    refine (congrFun (outs_s_A V c ⟨0, h⟩ rfl) (ix2 0 e)).trans ?_
    rw [pay1_apply, pay8_eq, pay3_apply, zero_add, Finset.sum_range_one, addS, dif_pos h]
    exact Finset.sum_congr rfl fun r _ => pay6_apply _ _ _ _ _ r e
  | n + 1, h => by
    have hN : cfg1.N = 16 := N_1
    have hB' : ¬(⟨n + 1, h⟩ : Fin cfg1.N).val % 16 = 0 := by dsimp only; omega
    refine (congrFun (outs_s_B V c ⟨n + 1, h⟩ hB') (ix2 0 e)).trans ?_
    rw [pay1_apply, pay8_eq]
    refine (congrArg (· + _) (outs_s c e n (Nat.lt_of_succ_lt h))).trans ?_
    rw [Finset.sum_range_succ _ (n + 1), addS, dif_pos h]
    exact congrArg _ (Finset.sum_congr rfl fun r _ => pay6_apply _ _ _ _ _ r e)

theorem outs_q (c : Dev nD) (e : Fin 128) : ∀ (n : ℕ) (h : n < cfg1.N),
    (outsAt1 V c n h).2.2 (ix2 0 e) = ∑ s ∈ Finset.range (n + 1), addQ V c e s
  | 0, h => by
    refine (congrFun (outs_q_A V c ⟨0, h⟩ rfl) (ix2 0 e)).trans ?_
    rw [pay2_apply, pay4_apply, zero_add, Finset.sum_range_one, addQ, dif_pos h]
    exact Finset.sum_congr rfl fun r _ => pay7_apply _ _ _ _ _ r e
  | n + 1, h => by
    have hN : cfg1.N = 16 := N_1
    have hB' : ¬(⟨n + 1, h⟩ : Fin cfg1.N).val % 16 = 0 := by dsimp only; omega
    refine (congrFun (outs_q_B V c ⟨n + 1, h⟩ hB') (ix2 0 e)).trans ?_
    rw [pay2_apply]
    refine (congrArg (· + _) (outs_q c e n (Nat.lt_of_succ_lt h))).trans ?_
    rw [Finset.sum_range_succ _ (n + 1), addQ, dif_pos h]
    exact congrArg _ (Finset.sum_congr rfl fun r _ => pay7_apply _ _ _ _ _ r e)

/-! ## From blocks to the whole array -/

/-- Row `r` of point `t`'s block is batch row `64·t + r` of the array. -/
def row (t : Fin 16) (r : Fin 64) : Fin 1024 := ⟨64 * t.val + r.val, by have := t.isLt; have := r.isLt; omega⟩

/-- The point's block of the second layer is the array's, at the block's batch rows. -/
theorem blkH_apply (c : Dev nD) (t : Fin cfg1.N) (r : Fin 64) (e o : Fin 128) (hb : 64 * t.val + r.val < 1024) :
    blkH V c t (ix3 r e o) = h2K V c (ix3 ⟨64 * t.val + r.val, hb⟩ e o) := by
  unfold blkH
  rw [pay5_apply, scB_eq, shB_eq, wB_eq, bB_eq]
  simp only [hB_apply V c t r e _ hb]
  rfl

/-- A sum over the 1024 batch rows, taken block by block. -/
theorem sum_rows {M : Type*} [AddCommMonoid M] (g : Fin 1024 → M) :
    ∑ b, g b = ∑ t : Fin 16, ∑ r : Fin 64, g (row t r) := by
  rw [← Fintype.sum_prod_type' (f := fun t r => g (row t r))]
  refine (Fintype.sum_equiv (finProdFinEquiv (m := 16) (n := 64)) (fun p => g (row p.1 p.2)) g fun p => ?_).symm
  refine congrArg g (Fin.ext ?_)
  show 64 * p.1.val + p.2.val = p.2.val + 64 * p.1.val
  omega

/-- Over the sixteen points the shares make up the channel's sum over the whole array, and likewise the squares. -/
theorem sum_addS (c : Dev nD) (e : Fin 128) : ∑ s ∈ Finset.range 16, addS V c e s = Spec.sumC (h2K V c) e := by
  rw [Finset.sum_range, Spec.sumC, sum_rows]
  refine Finset.sum_congr rfl fun t _ => ?_
  have hN : t.val < cfg1.N := lt_of_lt_of_eq t.isLt N_1.symm
  rw [addS, dif_pos hN]
  exact Finset.sum_congr rfl fun r _ => Finset.sum_congr rfl fun o _ => blkH_apply V c ⟨t.val, hN⟩ r e o _

theorem sum_addQ (c : Dev nD) (e : Fin 128) : ∑ s ∈ Finset.range 16, addQ V c e s = Spec.sqC (h2K V c) e := by
  rw [Finset.sum_range, Spec.sqC, sum_rows]
  refine Finset.sum_congr rfl fun t _ => ?_
  have hN : t.val < cfg1.N := lt_of_lt_of_eq t.isLt N_1.symm
  rw [addQ, dif_pos hN]
  refine Finset.sum_congr rfl fun r _ => Finset.sum_congr rfl fun o _ => ?_
  rw [blkH_apply V c ⟨t.val, hN⟩ r e o (row t r).isLt]
  rfl

/-- What the last point leaves in the two statistics rows. -/
theorem last_s (c : Dev nD) :
    (outsAt1 V c t1_15.val t1_15.isLt).2.1 = fun j : Spec.ShRow.Idx => Spec.sumC (h2K V c) (j 1) := by
  funext j
  obtain ⟨p, q, rfl⟩ : ∃ p q, j = ix2 p q := ⟨j 0, j 1, eq_ix2 j⟩
  obtain rfl : p = 0 := Subsingleton.elim _ _
  exact (outs_s V c q 15 t1_15.isLt).trans (sum_addS V c q)

theorem last_q (c : Dev nD) :
    (outsAt1 V c t1_15.val t1_15.isLt).2.2 = fun j : Spec.ShRow.Idx => Spec.sqC (h2K V c) (j 1) := by
  funext j
  obtain ⟨p, q, rfl⟩ : ∃ p q, j = ix2 p q := ⟨j 0, j 1, eq_ix2 j⟩
  obtain rfl : p = 0 := Subsingleton.elim _ _
  exact (outs_q V c q 15 t1_15.isLt).trans (sum_addQ V c q)

/-! ## The arrays the region leaves -/

/-- The second layer's output window: block index `(t, 0, 0)`, blocks of the full size. -/
theorem idx5 : ∀ t : Fin cfg1.N, win1_5.index t 0 = t.val ∧ win1_5.index t 1 = 0 ∧ win1_5.index t 2 = 0 :=
  (by decide +kernel : ∀ t : Fin grid1.N, win1_5.index t 0 = t.val ∧ win1_5.index t 1 = 0 ∧ win1_5.index t 2 = 0)
theorem xs5 : ∀ t : Fin cfg1.N, win1_5.xsize (grid1.coords t) 0 = 64 ∧ win1_5.xsize (grid1.coords t) 1 = 128
    ∧ win1_5.xsize (grid1.coords t) 2 = 128 :=
  (by decide +kernel : ∀ t : Fin grid1.N, win1_5.xsize (grid1.coords t) 0 = 64 ∧ win1_5.xsize (grid1.coords t) 1 = 128
    ∧ win1_5.xsize (grid1.coords t) 2 = 128)

/-- The second layer's output window at point `t` reads batch rows `64·t …` of an array. -/
theorem read5_apply (c : Dev nD) (G : Buf (Elt Ideal) ((cfg1.win 5).arr.view.loc (c.tc : Thread nD τ))) (t : Fin cfg1.N)
    (r : Fin 64) (e o : Fin 128) (hb : 64 * t.val + r.val < 1024) :
    (((cfg1.win 5).blk t).view.read (Elt Ideal) G : Vec Ideal S64x128x128 .f32) (ix3 r e o)
      = (G : Vec Ideal S1024x128x128 .f32) (ix3 ⟨64 * t.val + r.val, hb⟩ e o) := by
  rw [View.read_apply]
  show (G : Vec Ideal S1024x128x128 .f32) _ = (G : Vec Ideal S1024x128x128 .f32) _
  congr 1
  funext a
  apply Fin.ext
  obtain ⟨h0, h1, h2⟩ := idx5 t
  match a with
  | ⟨0, _⟩ => show win1_5.index t 0 * 64 + 1 * r.val = 64 * t.val + r.val; rw [h0]; omega
  | ⟨1, _⟩ => show win1_5.index t 1 * 128 + 1 * e.val = e.val; rw [h1]; omega
  | ⟨2, _⟩ => show win1_5.index t 2 * 128 + 1 * o.val = o.val; rw [h2]; omega

/-- Every point writes back its block of the second layer's array. -/
theorem flushed5 (c : Dev nD) (t : Fin cfg1.N) :
    (dat1 V c).flushed 5 t = ((cfg1.win 5).blk t).view.read (Elt Ideal) (h2K V c) := by
  show ((cfg1.win 5).cut (grid1.coords t) ((dat1 V c).after 5 t) : Vec Ideal S64x128x128 .f32) = _
  rw [after1_5, outs_h]
  funext j
  obtain ⟨r, e, o, rfl⟩ : ∃ r e o, j = ix3 r e o := ⟨j 0, j 1, j 2, eq_ix3 j⟩
  have hN : cfg1.N = 16 := N_1
  have hb : 64 * t.val + r.val < 1024 := by have := t.isLt; have := r.isLt; omega
  rw [read5_apply c _ t r e o hb]
  exact blkH_apply V c t r e o hb

end Run

open Run

/-- The sixteen blocks tile the array: batch row `b` lies in the block of point `b / 64`. -/
theorem arr_h (c : Dev nD) : (dat1 V c).arrAt 5 cfg1.N = h2K V c := by
  have hN : cfg1.N = 16 := N_1
  refine (dat1 V c).arrAt_eq_of_cover 5 (h2K V c) (fun t _ => flushed5 V c t) fun i => ?_
  have hi0 : (i 0 : Nat) < 1024 := (i 0).isLt
  have hi1 : (i 1 : Nat) < 128 := (i 1).isLt
  have hi2 : (i 2 : Nat) < 128 := (i 2).isLt
  refine ⟨⟨(i 0 : Nat) / 64, by omega⟩, flush1_5 _, ?_⟩
  generalize ht : (⟨(i 0 : Nat) / 64, by omega⟩ : Fin cfg1.N) = t
  have htv : t.val = (i 0 : Nat) / 64 := by rw [← ht]
  show i ∈ ((View.whole main_v24_0).slice (win1_5.rect t)).set
  rw [View.set_slice_whole, Rect.mem_set_unit]
  obtain ⟨h0, h1, h2⟩ := idx5 t
  obtain ⟨x0, x1, x2⟩ := xs5 t
  intro a
  match a with
  | ⟨0, _⟩ =>
    show win1_5.index t 0 * 64 ≤ (i 0 : Nat) ∧ (i 0 : Nat) < win1_5.index t 0 * 64 + win1_5.xsize (grid1.coords t) 0
    rw [h0, x0]; omega
  | ⟨1, _⟩ =>
    show win1_5.index t 1 * 128 ≤ (i 1 : Nat) ∧ (i 1 : Nat) < win1_5.index t 1 * 128 + win1_5.xsize (grid1.coords t) 1
    rw [h1, x1]; omega
  | ⟨2, _⟩ =>
    show win1_5.index t 2 * 128 ≤ (i 2 : Nat) ∧ (i 2 : Nat) < win1_5.index t 2 * 128 + win1_5.xsize (grid1.coords t) 2
    rw [h2, x2]; omega

/-- Each statistics row is written back once, after the last point, and its one block is the whole row. -/
theorem arr_s (c : Dev nD) : (dat1 V c).arrAt 6 cfg1.N = fun j : Spec.ShRow.Idx => Spec.sumC (h2K V c) (j 1) := by
  have hN : cfg1.N = 16 := N_1
  refine (dat1 V c).arrAt_eq_of_cover 6 _ (fun t hf => ?_) fun i => ⟨t1_15, (flush1_6 t1_15).mpr rfl, ?_⟩
  · have h15 : t.val = 15 := by have := (flush1_6 t).mp hf; have := t.isLt; omega
    obtain rfl : t = t1_15 := Fin.ext h15
    show (cfg1.win 6).cut (grid1.coords t1_15) ((dat1 V c).after 6 t1_15) = _
    rw [after1_6, last_s]
    have hz' : (fun a => win1_6.index t1_15 a * main_v24_1.ty.shape.size a) = fun _ => 0 :=
      funext fun a => by fin_cases a <;> decide
    exact (Memref.read_access_unit_zero (Elt Ideal) main_v24_1 hz' (fun a => by rw [congrFun hz' a]; simp) _).symm
  · show i ∈ ((View.whole main_v24_1).slice (win1_6.rect t1_15)).set
    rw [View.set_slice_whole, Rect.mem_set_unit]
    intro a
    have h0 : (i 0 : Nat) < 1 := (i 0).isLt
    have h1 : (i 1 : Nat) < 128 := (i 1).isLt
    match a with
    | ⟨0, _⟩ =>
      show win1_6.index t1_15 0 * win1_6.size 0 ≤ (i 0 : Nat)
        ∧ (i 0 : Nat) < win1_6.index t1_15 0 * win1_6.size 0 + win1_6.xsize (grid1.coords t1_15) 0
      rw [show win1_6.index t1_15 0 * win1_6.size 0 = 0 from by decide +kernel,
        show win1_6.xsize (grid1.coords t1_15) 0 = 1 from by decide +kernel]
      omega
    | ⟨1, _⟩ =>
      show win1_6.index t1_15 1 * win1_6.size 1 ≤ (i 1 : Nat)
        ∧ (i 1 : Nat) < win1_6.index t1_15 1 * win1_6.size 1 + win1_6.xsize (grid1.coords t1_15) 1
      rw [show win1_6.index t1_15 1 * win1_6.size 1 = 0 from by decide +kernel,
        show win1_6.xsize (grid1.coords t1_15) 1 = 128 from by decide +kernel]
      omega

theorem arr_q (c : Dev nD) : (dat1 V c).arrAt 7 cfg1.N = fun j : Spec.ShRow.Idx => Spec.sqC (h2K V c) (j 1) := by
  have hN : cfg1.N = 16 := N_1
  refine (dat1 V c).arrAt_eq_of_cover 7 _ (fun t hf => ?_) fun i => ⟨t1_15, (flush1_7 t1_15).mpr rfl, ?_⟩
  · have h15 : t.val = 15 := by have := (flush1_7 t).mp hf; have := t.isLt; omega
    obtain rfl : t = t1_15 := Fin.ext h15
    show (cfg1.win 7).cut (grid1.coords t1_15) ((dat1 V c).after 7 t1_15) = _
    rw [after1_7, last_q]
    have hz' : (fun a => win1_7.index t1_15 a * main_v24_2.ty.shape.size a) = fun _ => 0 :=
      funext fun a => by fin_cases a <;> decide
    exact (Memref.read_access_unit_zero (Elt Ideal) main_v24_2 hz' (fun a => by rw [congrFun hz' a]; simp) _).symm
  · show i ∈ ((View.whole main_v24_2).slice (win1_7.rect t1_15)).set
    rw [View.set_slice_whole, Rect.mem_set_unit]
    intro a
    have h0 : (i 0 : Nat) < 1 := (i 0).isLt
    have h1 : (i 1 : Nat) < 128 := (i 1).isLt
    match a with
    | ⟨0, _⟩ =>
      show win1_7.index t1_15 0 * win1_7.size 0 ≤ (i 0 : Nat)
        ∧ (i 0 : Nat) < win1_7.index t1_15 0 * win1_7.size 0 + win1_7.xsize (grid1.coords t1_15) 0
      rw [show win1_7.index t1_15 0 * win1_7.size 0 = 0 from by decide +kernel,
        show win1_7.xsize (grid1.coords t1_15) 0 = 1 from by decide +kernel]
      omega
    | ⟨1, _⟩ =>
      show win1_7.index t1_15 1 * win1_7.size 1 ≤ (i 1 : Nat)
        ∧ (i 1 : Nat) < win1_7.index t1_15 1 * win1_7.size 1 + win1_7.xsize (grid1.coords t1_15) 1
      rw [show win1_7.index t1_15 1 * win1_7.size 1 = 0 from by decide +kernel,
        show win1_7.xsize (grid1.coords t1_15) 1 = 128 from by decide +kernel]
      omega

end Cert.KernelIdeal.K1

end
-- ==== Proof.K2Pay.lean ====
/-
  Region 2's body arithmetic at an index, over the extended reals: max(eout + (h·scale[e] + offset[e]), 0).
-/
import proofs.«137522_j79800492360363_1_alg».proof.Proof.Gen.KernelIdeal.Skeleton
import proofs.«137522_j79800492360363_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.ShloMosaic.ValueIdx

namespace Cert.KernelIdeal.K2

open Cert.KernelIdeal Cert.KernelIdeal.Gen

/-- A [1, b, 1] column broadcast to [a, b, c] reads, at (p, q, r), the column at q. -/
private theorem k2pay_bcol_apply {α : Type} {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

theorem pay1_apply (v0 : Vec Ideal S64x128x128 .f32) (v2 v4 : Vec Ideal S1x128x1 .f32) (v10 : Vec Ideal S64x128x128 .f32)
    (b : Fin 64) (e d : Fin 128) :
    k2_pay1 v0 v2 v4 v10 (ix3 b e d) = max (v10 (ix3 b e d) + (v0 (ix3 b e d) * v2 (ix3 0 e 0) + v4 (ix3 0 e 0))) 0 := by
  unfold k2_pay1
  refine (maximumf_apply _ _ _).trans ?_
  refine congrArg₂ max ?_ Ideal.ofBits_zero_f32
  refine (addf_apply _ _ _).trans ?_
  refine congrArg (v10 (ix3 b e d) + ·) ?_
  refine (addf_apply _ _ _).trans ?_
  refine congrArg₂ (· + ·) ?_ ?_
  · refine (mulf_apply _ _ _).trans ?_
    refine congrArg₂ (· * ·) (congrFun (shapeCast_self v0 _) _) ?_
    refine (k2pay_bcol_apply _ broadcasts_S1x128x1_S64x128x128 b e d).trans ?_
    exact congrFun (shapeCast_self v2 _) _
  · refine (k2pay_bcol_apply _ broadcasts_S1x128x1_S64x128x128 b e d).trans ?_
    exact congrFun (shapeCast_self v4 _) _

end Cert.KernelIdeal.K2

end
-- ==== Proof.K2.lean ====
/-
  Region 2, the whole run over its 16 grid points of 64 batch rows each: the result array, entry by entry
  max(eout + (h·scale[e] + offset[e]), 0) of the arrays the region was entered with. Every block is its own rows of one
  whole-array function, and the blocks cover the array.
-/
import proofs.«137522_j79800492360363_1_alg».proof.Proof.Gen.KernelIdeal.Frame
import proofs.«137522_j79800492360363_1_alg».proof.Proof.Spec
import proofs.«137522_j79800492360363_1_alg».proof.Proof.K2Pay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K2

open Cert.KernelIdeal Cert.KernelIdeal.Gen

-- the buffer contents when the region is entered
variable (V : (c : Dev nD) → (b : Ref sig .tc) → Buf (Elt Ideal) ((c : Thread nD τ).loc b))

/-- The zero offsets of a whole-block access, spelt as a literal and as a constant function. -/
theorem out_hz : (![0, 0, 0] : Fin 3 → Nat) = fun _ => 0 := funext fun a => by fin_cases a <;> rfl

/-- A block of 64 batch rows, and a column of per-channel coefficients. -/
abbrev OBlk := Vec Ideal S64x128x128 .f32
abbrev OCol := Vec Ideal S1x128x1 .f32

/-- The body's arithmetic as a function of the block index: entry j is
    max(eout[j] + (h[j] · scale[channel of j] + offset[channel of j]), 0). -/
theorem out_pay_fun (v0 : OBlk) (v2 v4 : OCol) (v10 : OBlk) :
    k2_pay1 v0 v2 v4 v10 = fun j => max (v10 j + (v0 j * v2 (ix3 0 (j 1) 0) + v4 (ix3 0 (j 1) 0))) 0 := by
  funext j
  obtain ⟨b, e, d, rfl⟩ : ∃ b e d, j = ix3 b e d := ⟨j 0, j 1, j 2, eq_ix3 j⟩
  exact pay1_apply v0 v2 v4 v10 b e d

/-- The block indices at every grid point: the three [1024,128,128] arrays are cut along the batch axis, point t
    taking block t; the two coefficient columns are taken whole at every point. -/
theorem out_idx_facts : ∀ t : Fin cfg2.N,
    win2_0.index t (0 : Fin 3) = t.val ∧ win2_0.index t (1 : Fin 3) = 0 ∧ win2_0.index t (2 : Fin 3) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

/-- The four arrays the region reads, as it finds them, at their literal types: the edge array, the second linear
    layer's output, and the folded scale and offset columns. -/
abbrev arrE (c : Dev nD) : Spec.T3 := V c main_arg1
abbrev arrH (c : Dev nD) : Spec.T3 := V c main_v24_0
abbrev arrS (c : Dev nD) : Spec.ShCol.Idx → EReal := V c main_v39
abbrev arrT (c : Dev nD) : Spec.ShCol.Idx → EReal := V c main_v40

/-- What point t writes back is block t of the whole-array function: an entry of an input block sits in its array at
    block index × block size + its coordinate inside the block, which for the three big arrays is the same place as
    the output entry's, and for the columns is the entry of the output entry's channel. -/
theorem out_flushed_eq (c : Dev nD) (t : Fin cfg2.N) :
    (dat2 V c).flushed 4 t = ((cfg2.win 4).blk t).view.read (Elt Ideal)
      (Spec.fin (V c main_arg1) (V c main_v24_0) (V c main_v39) (V c main_v40)) := by
  show (cfg2.win 4).cut (grid2.coords t) ((dat2 V c).after 4 t) = _
  rw [after2_4]
  unfold out2_4
  rw [View.canon_unit_zero out_hz]
  simp only [View.ld_unit_zero (S := S64x128x128) out_hz, View.ld_unit_zero (S := S1x128x1) out_hz]
  rw [out_pay_fun]
  funext j
  show max (arrE V c (((cfg2.win 3).blk t).view.emb j) + (arrH V c (((cfg2.win 0).blk t).view.emb j)
        * arrS V c (((cfg2.win 1).blk t).view.emb (ix3 (0 : Fin 1) (j 1) (0 : Fin 1)))
        + arrT V c (((cfg2.win 2).blk t).view.emb (ix3 (0 : Fin 1) (j 1) (0 : Fin 1))))) 0
     = max (arrE V c (((cfg2.win 4).blk t).view.emb j) + (arrH V c (((cfg2.win 4).blk t).view.emb j)
        * arrS V c (ix3 (0 : Fin 1) ((((cfg2.win 4).blk t).view.emb j) 1) (0 : Fin 1))
        + arrT V c (ix3 (0 : Fin 1) ((((cfg2.win 4).blk t).view.emb j) 1) (0 : Fin 1)))) 0
  obtain ⟨e00, e01, e02, e10, e11, e12, e20, e21, e22, e30, e31, e32, e40, e41, e42⟩ := out_idx_facts t
  have h0 : ((cfg2.win 0).blk t).view.emb j = ((cfg2.win 4).blk t).view.emb j := by
    funext a; apply Fin.ext
    match a with
    | ⟨0, _⟩ => show win2_0.index t (0 : Fin 3) * 64 + 1 * (j 0).val = win2_4.index t (0 : Fin 3) * 64 + 1 * (j 0).val; omega
    | ⟨1, _⟩ => show win2_0.index t (1 : Fin 3) * 128 + 1 * (j 1).val = win2_4.index t (1 : Fin 3) * 128 + 1 * (j 1).val; omega
    | ⟨2, _⟩ => show win2_0.index t (2 : Fin 3) * 128 + 1 * (j 2).val = win2_4.index t (2 : Fin 3) * 128 + 1 * (j 2).val; omega
  have h3 : ((cfg2.win 3).blk t).view.emb j = ((cfg2.win 4).blk t).view.emb j := by
    funext a; apply Fin.ext
    match a with
    | ⟨0, _⟩ => show win2_3.index t (0 : Fin 3) * 64 + 1 * (j 0).val = win2_4.index t (0 : Fin 3) * 64 + 1 * (j 0).val; omega
    | ⟨1, _⟩ => show win2_3.index t (1 : Fin 3) * 128 + 1 * (j 1).val = win2_4.index t (1 : Fin 3) * 128 + 1 * (j 1).val; omega
    | ⟨2, _⟩ => show win2_3.index t (2 : Fin 3) * 128 + 1 * (j 2).val = win2_4.index t (2 : Fin 3) * 128 + 1 * (j 2).val; omega
  have h1 : ((cfg2.win 1).blk t).view.emb (ix3 (0 : Fin 1) (j 1) (0 : Fin 1))
      = ix3 (0 : Fin 1) ((((cfg2.win 4).blk t).view.emb j) 1) (0 : Fin 1) := by
    funext a; apply Fin.ext
    match a with
    | ⟨0, _⟩ => show win2_1.index t (0 : Fin 3) * 1 + 1 * 0 = 0; omega
    | ⟨1, _⟩ => show win2_1.index t (1 : Fin 3) * 128 + 1 * (j 1).val = win2_4.index t (1 : Fin 3) * 128 + 1 * (j 1).val; omega
    | ⟨2, _⟩ => show win2_1.index t (2 : Fin 3) * 1 + 1 * 0 = 0; omega
  have h2 : ((cfg2.win 2).blk t).view.emb (ix3 (0 : Fin 1) (j 1) (0 : Fin 1))
      = ix3 (0 : Fin 1) ((((cfg2.win 4).blk t).view.emb j) 1) (0 : Fin 1) := by
    funext a; apply Fin.ext
    match a with
    | ⟨0, _⟩ => show win2_2.index t (0 : Fin 3) * 1 + 1 * 0 = 0; omega
    | ⟨1, _⟩ => show win2_2.index t (1 : Fin 3) * 128 + 1 * (j 1).val = win2_4.index t (1 : Fin 3) * 128 + 1 * (j 1).val; omega
    | ⟨2, _⟩ => show win2_2.index t (2 : Fin 3) * 1 + 1 * 0 = 0; omega
  rw [h0, h3, h1, h2]
  rfl

/-- An index of the result array is in point t's block iff each coordinate is in the block's range on its axis. -/
theorem out_mem_blk (t : Fin cfg2.N) (i : S1024x128x128.Idx) :
    i ∈ ((cfg2.win 4).blk t).view.set ↔ ∀ a : Fin 3, win2_4.index t a * S64x128x128.size a ≤ (i a).val
      ∧ (i a).val < win2_4.index t a * S64x128x128.size a + S64x128x128.size a := by
  show i ∈ ((View.whole main_v41).slice (win2_4.rect t)).set ↔ _
  rw [View.set_slice_whole, Rect.mem_set_unit]
  exact Iff.rfl

/-- The blocks cover the array: the entry of batch row r is in the block of point r / 64, which writes back. -/
theorem out_cover (i : S1024x128x128.Idx) :
    ∃ t : Fin cfg2.N, (cfg2.win 4).flush t = true ∧ i ∈ ((cfg2.win 4).blk t).view.set := by
  have hi0 : (i 0).val < 1024 := (i 0).isLt
  have hi1 : (i 1).val < 128 := (i 1).isLt
  have hi2 : (i 2).val < 128 := (i 2).isLt
  have hN : (i 0).val / 64 < cfg2.N := by
    show (i 0).val / 64 < grid2.N
    rw [N_2]; omega
  refine ⟨⟨(i 0).val / 64, hN⟩, flush2_4 _, ?_⟩
  rw [out_mem_blk]
  obtain ⟨-, -, -, -, -, -, -, -, -, -, -, -, e40, e41, e42⟩ := out_idx_facts ⟨(i 0).val / 64, hN⟩
  have e40' : win2_4.index ⟨(i 0).val / 64, hN⟩ (0 : Fin 3) = (i 0).val / 64 := e40
  intro a
  match a with
  | ⟨0, _⟩ =>
    show win2_4.index ⟨(i 0).val / 64, hN⟩ (0 : Fin 3) * 64 ≤ (i 0).val
      ∧ (i 0).val < win2_4.index ⟨(i 0).val / 64, hN⟩ (0 : Fin 3) * 64 + 64
    omega
  | ⟨1, _⟩ =>
    show win2_4.index ⟨(i 0).val / 64, hN⟩ (1 : Fin 3) * 128 ≤ (i 1).val
      ∧ (i 1).val < win2_4.index ⟨(i 0).val / 64, hN⟩ (1 : Fin 3) * 128 + 128
    omega
  | ⟨2, _⟩ =>
    show win2_4.index ⟨(i 0).val / 64, hN⟩ (2 : Fin 3) * 128 ≤ (i 2).val
      ∧ (i 2).val < win2_4.index ⟨(i 0).val / 64, hN⟩ (2 : Fin 3) * 128 + 128
    omega

theorem arr_out (c : Dev nD) :
    (dat2 V c).arrAt 4 cfg2.N = Spec.fin (V c main_arg1) (V c main_v24_0) (V c main_v39) (V c main_v40) := by
  exact (dat2 V c).arrAt_eq_of_cover 4 _ (fun t _ => out_flushed_eq V c t) out_cover

end Cert.KernelIdeal.K2

end
-- ==== Proof.HostVal.lean ====
/-
  The host stretches of the program between its three regions, read as values over the extended reals, and the buffers
  each stretch and each region leaves as it found them.

  Before region 0 the weights are re-laid: the [128,256] matrix is cut into its left and right halves and each half
  transposed, the second weight matrix is transposed, and the two bias vectors become rows. Everything else a later region reads, apart from the
  normalisation coefficients computed between the regions, is a buffer no operation in between writes.
-/
import proofs.«137522_j79800492360363_1_alg».proof.Proof.Gen.KernelIdeal.Frame
import proofs.«137522_j79800492360363_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostVal

open Cert.KernelIdeal Cert.KernelIdeal.Gen

variable (m : (ℓ : Loc nD τ sig) → Buf (Elt Ideal) ℓ) (ρ : Dev nD → PrngReg)

/-- A host stretch leaves a buffer none of its operations writes as it was. -/
local macro "host_keep " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Reading the re-laid weights at an index -/

/-- The transpose of a square matrix read at (p, q) is the matrix at (q, p). -/
theorem transpose_ix2 {α : Type} (x : S128x128.Idx → α) (p q : Fin 128) :
    transpose S128x128 [1, 0] x transposes_S128x128_S128x128_1_0 (ix2 p q) = x (ix2 q p) :=
  transpose_apply (s := S128x128) (t := S128x128) [1, 0] x transposes_S128x128_S128x128_1_0 (ix2 p q) (ix2 q p) fun b =>
    match b with
    | ⟨0, _⟩ => rfl
    | ⟨1, _⟩ => rfl

/-- The left half of a [128,256] matrix read at (q, p) is the matrix at (q, p). -/
theorem sliceLo_ix2 {α : Type} (x : S128x256.Idx → α) (q p : Fin 128) :
    extractStridedSlice S128x128 ![0, 0] x slices_S128x256_S128x128_0_0 (ix2 q p) = x (ix2 q (Spec.lo p)) :=
  extractStridedSlice_apply (s := S128x256) (t := S128x128) ![0, 0] x slices_S128x256_S128x128_0_0 (ix2 q p) (ix2 q (Spec.lo p)) fun a =>
    match a with
    | ⟨0, _⟩ => (Nat.zero_add q.val).symm
    | ⟨1, _⟩ => (Nat.zero_add p.val).symm

/-- The right half read at (q, p) is the matrix at (q, 128 + p). -/
theorem sliceHi_ix2 {α : Type} (x : S128x256.Idx → α) (q p : Fin 128) :
    extractStridedSlice S128x128 ![0, 128] x slices_S128x256_S128x128_0_128 (ix2 q p) = x (ix2 q (Spec.hi p)) :=
  extractStridedSlice_apply (s := S128x256) (t := S128x128) ![0, 128] x slices_S128x256_S128x128_0_128 (ix2 q p) (ix2 q (Spec.hi p)) fun a =>
    match a with
    | ⟨0, _⟩ => (Nat.zero_add q.val).symm
    | ⟨1, _⟩ => rfl

/-- A vector viewed as a row read at (0, q) is the vector at q. -/
theorem row_ix2 {α : Type} (x : S128.Idx → α) (j : S1x128.Idx) :
    shapeCast S1x128 x shapeCasts_S128_S1x128 j = x (ix1 (j 1)) :=
  (shapeCast_addUnit_apply ![128] x shapeCasts_S128_S1x128 j).trans
    (congrArg x (funext fun a => match a with | ⟨0, _⟩ => rfl))

/-! ## Entering region 0 -/

theorem V1_arg0 (c : Dev nD) : V1 m ρ c main_arg0 = m ((c : Thread nD τ).loc main_arg0) := by
  show StableHlo.after hostOps0 (W0 m ρ c) (Proc.devRef .tc main_arg0) = _
  refine Eq.trans (b := W0 m ρ c (Proc.devRef .tc main_arg0)) ?_ rfl
  host_keep hostOps0
theorem V1_arg2 (c : Dev nD) : V1 m ρ c main_arg2 = m ((c : Thread nD τ).loc main_arg2) := by
  show StableHlo.after hostOps0 (W0 m ρ c) (Proc.devRef .tc main_arg2) = _
  refine Eq.trans (b := W0 m ρ c (Proc.devRef .tc main_arg2)) ?_ rfl
  host_keep hostOps0
theorem V1_arg3 (c : Dev nD) : V1 m ρ c main_arg3 = m ((c : Thread nD τ).loc main_arg3) := by
  show StableHlo.after hostOps0 (W0 m ρ c) (Proc.devRef .tc main_arg3) = _
  refine Eq.trans (b := W0 m ρ c (Proc.devRef .tc main_arg3)) ?_ rfl
  host_keep hostOps0
/-- The left half of the first weight matrix, transposed: entry (f, d) is W₁[d, f]. -/
theorem V1_v1 (c : Dev nD) :
    V1 m ρ c main_v1 = fun j : Spec.ShW.Idx => m ((c : Thread nD τ).loc main_arg4) (ix2 (j 1) (Spec.lo (j 0))) := by
  show StableHlo.after hostOps0 (W0 m ρ c) (Proc.devRef .tc main_v1) = _
  after_results
  funext j
  obtain ⟨p, q, rfl⟩ : ∃ p q, j = ix2 p q := ⟨j 0, j 1, eq_ix2 j⟩
  exact (transpose_ix2 _ p q).trans (sliceLo_ix2 _ q p)
/-- The right half, transposed: entry (f, d) is W₁[d, 128 + f]. -/
theorem V1_v3 (c : Dev nD) :
    V1 m ρ c main_v3 = fun j : Spec.ShW.Idx => m ((c : Thread nD τ).loc main_arg4) (ix2 (j 1) (Spec.hi (j 0))) := by
  show StableHlo.after hostOps0 (W0 m ρ c) (Proc.devRef .tc main_v3) = _
  after_results
  funext j
  obtain ⟨p, q, rfl⟩ : ∃ p q, j = ix2 p q := ⟨j 0, j 1, eq_ix2 j⟩
  exact (transpose_ix2 _ p q).trans (sliceHi_ix2 _ q p)
/-- The second weight matrix, transposed. -/
theorem V1_v4 (c : Dev nD) :
    V1 m ρ c main_v4 = fun j : Spec.ShW.Idx => m ((c : Thread nD τ).loc main_arg6) (ix2 (j 1) (j 0)) := by
  show StableHlo.after hostOps0 (W0 m ρ c) (Proc.devRef .tc main_v4) = _
  after_results
  funext j
  obtain ⟨p, q, rfl⟩ : ∃ p q, j = ix2 p q := ⟨j 0, j 1, eq_ix2 j⟩
  exact transpose_ix2 _ p q
/-- The bias vectors as rows. -/
theorem V1_v5 (c : Dev nD) :
    V1 m ρ c main_v5 = fun j : Spec.ShRow.Idx => m ((c : Thread nD τ).loc main_arg5) (ix1 (j 1)) := by
  show StableHlo.after hostOps0 (W0 m ρ c) (Proc.devRef .tc main_v5) = _
  after_results
  funext j
  exact row_ix2 (W0 m ρ c (Proc.devRef .tc main_arg5)) j
theorem V1_v6 (c : Dev nD) :
    V1 m ρ c main_v6 = fun j : Spec.ShRow.Idx => m ((c : Thread nD τ).loc main_arg7) (ix1 (j 1)) := by
  show StableHlo.after hostOps0 (W0 m ρ c) (Proc.devRef .tc main_v6) = _
  after_results
  funext j
  exact row_ix2 (W0 m ρ c (Proc.devRef .tc main_arg7)) j

/-! ## Entering region 1 -/

/-- The first layer's array is what region 0 left. -/
theorem V3_v7_0 (c : Dev nD) : V3 m ρ c main_v7_0 = (dat0 (V1 m ρ) c).arrAt 6 cfg0.N := by
  show StableHlo.after hostOps1 (W2 m ρ c) (Proc.devRef .tc main_v7_0) = _
  refine Eq.trans (b := W2 m ρ c (Proc.devRef .tc main_v7_0)) ?_ (W2_arr m ρ c 6)
  host_keep hostOps1
/-- The transposed second weight matrix and the second bias row are as region 0 was entered with. -/
theorem V3_v4 (c : Dev nD) : V3 m ρ c main_v4 = V1 m ρ c main_v4 := by
  show StableHlo.after hostOps1 (W2 m ρ c) (Proc.devRef .tc main_v4) = _
  refine Eq.trans (b := W2 m ρ c (Proc.devRef .tc main_v4)) ?_ (W2_of_ne m ρ c main_v4 (by decide))
  host_keep hostOps1
theorem V3_v6 (c : Dev nD) : V3 m ρ c main_v6 = V1 m ρ c main_v6 := by
  show StableHlo.after hostOps1 (W2 m ρ c) (Proc.devRef .tc main_v6) = _
  refine Eq.trans (b := W2 m ρ c (Proc.devRef .tc main_v6)) ?_ (W2_of_ne m ρ c main_v6 (by decide))
  host_keep hostOps1

/-! ## Entering region 2 -/

/-- The second layer's array is what region 1 left; the edge array is as launched. -/
theorem V5_v24_0 (c : Dev nD) : V5 m ρ c main_v24_0 = (dat1 (V3 m ρ) c).arrAt 5 cfg1.N := by
  show StableHlo.after hostOps2 (W4 m ρ c) (Proc.devRef .tc main_v24_0) = _
  refine Eq.trans (b := W4 m ρ c (Proc.devRef .tc main_v24_0)) ?_ (W4_arr m ρ c 5)
  host_keep hostOps2
theorem V5_arg1 (c : Dev nD) : V5 m ρ c main_arg1 = m ((c : Thread nD τ).loc main_arg1) := by
  have h5 : StableHlo.after hostOps2 (W4 m ρ c) (Proc.devRef .tc main_arg1) = W4 m ρ c (Proc.devRef .tc main_arg1) := by
    host_keep hostOps2
  have h3 : StableHlo.after hostOps1 (W2 m ρ c) (Proc.devRef .tc main_arg1) = W2 m ρ c (Proc.devRef .tc main_arg1) := by
    host_keep hostOps1
  have h1 : StableHlo.after hostOps0 (W0 m ρ c) (Proc.devRef .tc main_arg1) = W0 m ρ c (Proc.devRef .tc main_arg1) := by
    host_keep hostOps0
  calc V5 m ρ c main_arg1
    _ = W4 m ρ c (Proc.devRef .tc main_arg1) := h5
    _ = W3 m ρ c (Proc.devRef .tc main_arg1) := W4_of_ne m ρ c main_arg1 (by decide)
    _ = W2 m ρ c (Proc.devRef .tc main_arg1) := h3
    _ = W1 m ρ c (Proc.devRef .tc main_arg1) := W2_of_ne m ρ c main_arg1 (by decide)
    _ = W0 m ρ c (Proc.devRef .tc main_arg1) := h1
    _ = m ((c : Thread nD τ).loc main_arg1) := rfl

/-! ## After region 2 -/

/-- The result buffer is what region 2 left. -/
theorem W6_v41 (c : Dev nD) : W6 m ρ c (Proc.devRef .tc main_v41) = (dat2 (V5 m ρ) c).arrAt 4 cfg2.N := by
  exact W6_arr m ρ c 4

end Cert.KernelIdeal.HostVal

end
-- ==== Proof.HostCoef.lean ====
/-
  The host stretches between the regions: the two statistics rows the region just left become the folded scale and
  offset of the normalisation, scale = g · (q/n − (s/n)² + ε)^(−1/2) and offset = β − (s/n) · scale with n = 2¹⁷ and ε the
  float nearest 10⁻⁵, channel by channel, reshaped from rows to columns.
-/
import proofs.«137522_j79800492360363_1_alg».proof.Proof.Gen.KernelIdeal.Frame
import proofs.«137522_j79800492360363_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostCoef

open Cert.KernelIdeal Cert.KernelIdeal.Gen

variable (m : (ℓ : Loc nD τ sig) → Buf (Elt Ideal) ℓ) (ρ : Dev nD → PrngReg)

/-! ## The two rows and their columns, read at an index -/

/-- A `[1, a]` row cast to a `[1, a, 1]` column reads, at `(u, i, u')`, the row at `(0, i)`: both have row-major
    position `i`. -/
theorem shapeCast_row_col_apply {α : Type} {a : ℕ} (x : (⟨2, ![1, a]⟩ : Shape).Idx → α)
    (h : (⟨2, ![1, a]⟩ : Shape).ShapeCasts ⟨3, ![1, a, 1]⟩) (u : Fin 1) (i : Fin a) (u' : Fin 1) :
    shapeCast ⟨3, ![1, a, 1]⟩ x h (ix3 u i u') = x (ix2 (0 : Fin 1) i) := by
  refine shapeCast_apply x h _ _ ?_
  rw [Shape.rowMajor_val_three, Shape.rowMajor_val_two]
  show (0 : ℕ) * a + i.val = (u.val * a + i.val) * 1 + u'.val
  have hu : u.val = 0 := by omega
  have hu' : u'.val = 0 := by omega
  rw [hu, hu']; omega

/-- The entry count 2¹⁷ and the variance offset ε, each a scalar constant broadcast to a row. -/
def cntRow : FVec Ideal S1x128 .f32 := broadcastInDim S1x128 ![] bcast_S_S1x128 (constant (F := Ideal) S_ .f32 0x48000000#32)
def epsRow : FVec Ideal S1x128 .f32 := broadcastInDim S1x128 ![] bcast_S_S1x128 (constant (F := Ideal) S_ .f32 0x3727C5AC#32)

/-- A broadcast scalar reads the scalar at every index. -/
theorem cntRow_apply (j : S1x128.Idx) : cntRow j = Spec.cnt := rfl
theorem epsRow_apply (j : S1x128.Idx) : epsRow j = Spec.eps := rfl

/-- The scale row the host computes from the sums row `s`, the sums-of-squares row `q` and the vector `g`:
    g · (q/n − (s/n)·(s/n) + ε)^(−1/2), every operation entry by entry. -/
def scaleRow (s q : FVec Ideal S1x128 .f32) (g : FVec Ideal S128 .f32) : FVec Ideal S1x128 .f32 :=
  mulf (shapeCast S1x128 g shapeCasts_S128_S1x128)
    (Host.rsqrt (addf (subf (Host.divf q cntRow) (mulf (Host.divf s cntRow) (Host.divf s cntRow))) epsRow))

/-- The offset row: β − (s/n) · scale. -/
def shiftRow (s q : FVec Ideal S1x128 .f32) (g β : FVec Ideal S128 .f32) : FVec Ideal S1x128 .f32 :=
  subf (shapeCast S1x128 β shapeCasts_S128_S1x128) (mulf (Host.divf s cntRow) (scaleRow s q g))

/-- Channel `e` of the scale row is the folded scale of that channel. -/
theorem scaleRow_apply (s q : FVec Ideal S1x128 .f32) (g : FVec Ideal S128 .f32) (e : Fin 128) :
    scaleRow s q g (ix2 (0 : Fin 1) e)
      = Spec.kScale (fun e => s (ix2 0 e)) (fun e => q (ix2 0 e)) (fun e => g (ix1 e)) e := by
  unfold scaleRow Spec.kScale
  simp only [mulf_apply, addf_apply, subf_apply, Host.divf, Host.rsqrt, Ideal.hostDivf_def, Ideal.hostUnary_rsqrt_def,
    shapeCast_a_1a_apply, cntRow_apply, epsRow_apply]

/-- Channel `e` of the offset row is the folded offset of that channel. -/
theorem shiftRow_apply (s q : FVec Ideal S1x128 .f32) (g β : FVec Ideal S128 .f32) (e : Fin 128) :
    shiftRow s q g β (ix2 (0 : Fin 1) e)
      = Spec.kShift (fun e => s (ix2 0 e)) (fun e => q (ix2 0 e)) (fun e => g (ix1 e)) (fun e => β (ix1 e)) e := by
  unfold shiftRow Spec.kShift
  rw [subf_apply, mulf_apply, scaleRow_apply]
  simp only [Host.divf, Ideal.hostDivf_def, shapeCast_a_1a_apply, cntRow_apply]

/-! ## The host stretches, from any contents -/

/-- After the first host stretch, from contents `V`: the scale column is the folded scale of the two statistics rows
    and of g, channel by channel. -/
theorem after1_v22 (V : Valuation τ sig (Elt Ideal)) :
    StableHlo.after (hostOps1 (F := Ideal)) V (Proc.devRef .tc main_v22) = fun j : Spec.ShCol.Idx =>
      Spec.kScale (fun e => V (Proc.devRef .tc main_v7_1) (ix2 0 e)) (fun e => V (Proc.devRef .tc main_v7_2) (ix2 0 e))
        (fun e => V (Proc.devRef .tc main_arg8) (ix1 e)) (j 1) := by
  after_results
  funext j
  obtain ⟨u, e, u', rfl⟩ : ∃ (u : Fin 1) (e : Fin 128) (u' : Fin 1), j = ix3 u e u' := ⟨j 0, j 1, j 2, eq_ix3 j⟩
  exact (shapeCast_row_col_apply (scaleRow _ _ _) _ u e u').trans (scaleRow_apply _ _ _ e)

/-- And the offset column is the folded offset. -/
theorem after1_v23 (V : Valuation τ sig (Elt Ideal)) :
    StableHlo.after (hostOps1 (F := Ideal)) V (Proc.devRef .tc main_v23) = fun j : Spec.ShCol.Idx =>
      Spec.kShift (fun e => V (Proc.devRef .tc main_v7_1) (ix2 0 e)) (fun e => V (Proc.devRef .tc main_v7_2) (ix2 0 e))
        (fun e => V (Proc.devRef .tc main_arg8) (ix1 e)) (fun e => V (Proc.devRef .tc main_arg9) (ix1 e)) (j 1) := by
  after_results_simp
  funext j
  obtain ⟨u, e, u', rfl⟩ : ∃ (u : Fin 1) (e : Fin 128) (u' : Fin 1), j = ix3 u e u' := ⟨j 0, j 1, j 2, eq_ix3 j⟩
  exact (shapeCast_row_col_apply (shiftRow _ _ _ _) _ u e u').trans (shiftRow_apply _ _ _ _ e)

/-- The second host stretch is the same computation over the rows region 1 left and the second pair g, β. -/
theorem after2_v39 (V : Valuation τ sig (Elt Ideal)) :
    StableHlo.after (hostOps2 (F := Ideal)) V (Proc.devRef .tc main_v39) = fun j : Spec.ShCol.Idx =>
      Spec.kScale (fun e => V (Proc.devRef .tc main_v24_1) (ix2 0 e)) (fun e => V (Proc.devRef .tc main_v24_2) (ix2 0 e))
        (fun e => V (Proc.devRef .tc main_arg10) (ix1 e)) (j 1) := by
  after_results
  funext j
  obtain ⟨u, e, u', rfl⟩ : ∃ (u : Fin 1) (e : Fin 128) (u' : Fin 1), j = ix3 u e u' := ⟨j 0, j 1, j 2, eq_ix3 j⟩
  exact (shapeCast_row_col_apply (scaleRow _ _ _) _ u e u').trans (scaleRow_apply _ _ _ e)

theorem after2_v40 (V : Valuation τ sig (Elt Ideal)) :
    StableHlo.after (hostOps2 (F := Ideal)) V (Proc.devRef .tc main_v40) = fun j : Spec.ShCol.Idx =>
      Spec.kShift (fun e => V (Proc.devRef .tc main_v24_1) (ix2 0 e)) (fun e => V (Proc.devRef .tc main_v24_2) (ix2 0 e))
        (fun e => V (Proc.devRef .tc main_arg10) (ix1 e)) (fun e => V (Proc.devRef .tc main_arg11) (ix1 e)) (j 1) := by
  after_results_simp
  funext j
  obtain ⟨u, e, u', rfl⟩ : ∃ (u : Fin 1) (e : Fin 128) (u' : Fin 1), j = ix3 u e u' := ⟨j 0, j 1, j 2, eq_ix3 j⟩
  exact (shapeCast_row_col_apply (shiftRow _ _ _ _) _ u e u').trans (shiftRow_apply _ _ _ _ e)

/-! ## What the stretches start from: the rows a region left, and g, β as launched -/

/-- Region 0's two statistics rows are its arrays 7 and 8. -/
theorem W2_v7_1 (c : Dev nD) : W2 m ρ c (Proc.devRef .tc main_v7_1) = (dat0 (V1 m ρ) c).arrAt 7 cfg0.N := W2_arr m ρ c 7
theorem W2_v7_2 (c : Dev nD) : W2 m ρ c (Proc.devRef .tc main_v7_2) = (dat0 (V1 m ρ) c).arrAt 8 cfg0.N := W2_arr m ρ c 8

/-- Region 1's two statistics rows are its arrays 6 and 7. -/
theorem W4_v24_1 (c : Dev nD) : W4 m ρ c (Proc.devRef .tc main_v24_1) = (dat1 (V3 m ρ) c).arrAt 6 cfg1.N := W4_arr m ρ c 6
theorem W4_v24_2 (c : Dev nD) : W4 m ρ c (Proc.devRef .tc main_v24_2) = (dat1 (V3 m ρ) c).arrAt 7 cfg1.N := W4_arr m ρ c 7

/-- No operation of the first host stretch of all writes an argument's buffer. -/
theorem W1_of_arg (c : Dev nD) (b : Ref sig .tc)
    (hb : ∀ r ∈ [main_v0, main_v1, main_v2, main_v3, main_v4, main_v5, main_v6], b ≠ r) :
    W1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.unary_writes, StableHlo.reshape_writes, Finset.mem_singleton]
  simp only [List.mem_cons, List.not_mem_nil, or_false, forall_eq_or_imp, forall_eq] at hb
  obtain ⟨h0, h1, h2, h3, h4, h5, h6⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6⟩

/-- g and β of the first normalisation reach the first stretch between regions as launched: region 0 does not have them
    among its arrays. -/
theorem W2_main_arg8 (c : Dev nD) : W2 m ρ c (Proc.devRef .tc main_arg8) = m ((c : Thread nD τ).loc main_arg8) :=
  (W2_of_ne m ρ c main_arg8 (by decide)).trans (W1_of_arg m ρ c main_arg8 (by decide))
theorem W2_main_arg9 (c : Dev nD) : W2 m ρ c (Proc.devRef .tc main_arg9) = m ((c : Thread nD τ).loc main_arg9) :=
  (W2_of_ne m ρ c main_arg9 (by decide)).trans (W1_of_arg m ρ c main_arg9 (by decide))

/-! ## Entering region 1: from the rows region 0 left -/

theorem V3_v22 (c : Dev nD) :
    V3 m ρ c main_v22 = fun j : Spec.ShCol.Idx =>
      Spec.kScale (fun e => (dat0 (V1 m ρ) c).arrAt 7 cfg0.N (ix2 0 e)) (fun e => (dat0 (V1 m ρ) c).arrAt 8 cfg0.N (ix2 0 e))
        (fun e => m ((c : Thread nD τ).loc main_arg8) (ix1 e)) (j 1) := by
  refine (after1_v22 (W2 m ρ c)).trans ?_
  rw [W2_v7_1, W2_v7_2, W2_main_arg8]

theorem V3_v23 (c : Dev nD) :
    V3 m ρ c main_v23 = fun j : Spec.ShCol.Idx =>
      Spec.kShift (fun e => (dat0 (V1 m ρ) c).arrAt 7 cfg0.N (ix2 0 e)) (fun e => (dat0 (V1 m ρ) c).arrAt 8 cfg0.N (ix2 0 e))
        (fun e => m ((c : Thread nD τ).loc main_arg8) (ix1 e)) (fun e => m ((c : Thread nD τ).loc main_arg9) (ix1 e)) (j 1) := by
  refine (after1_v23 (W2 m ρ c)).trans ?_
  rw [W2_v7_1, W2_v7_2, W2_main_arg8, W2_main_arg9]

/-- No operation of the stretch between regions 0 and 1 writes an argument's buffer. -/
theorem W3_of_arg (c : Dev nD) (b : Ref sig .tc)
    (hb : ∀ r ∈ [main_cst, main_v8, main_v9, main_cst_0, main_v10, main_v11, main_v12, main_v13, main_cst_1, main_v14,
      main_v15, main_v16, main_v17, main_v18, main_v19, main_v20, main_v21, main_v22, main_v23], b ≠ r) :
    W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.reshape_writes, Finset.mem_singleton]
  simp only [List.mem_cons, List.not_mem_nil, or_false, forall_eq_or_imp, forall_eq] at hb
  obtain ⟨h0, h1, h2, h3, h4, h5, h6, h7, h8, h9, h10, h11, h12, h13, h14, h15, h16, h17, h18⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15,
    StableHlo.devRef_ne_of_ne h16, StableHlo.devRef_ne_of_ne h17, StableHlo.devRef_ne_of_ne h18⟩

/-- g and β of the second normalisation reach the second stretch between regions as launched: neither region 0 nor
    region 1 has them among its arrays, and no host operation before writes them. -/
theorem W4_main_arg10 (c : Dev nD) : W4 m ρ c (Proc.devRef .tc main_arg10) = m ((c : Thread nD τ).loc main_arg10) :=
  (W4_of_ne m ρ c main_arg10 (by decide)).trans <| (W3_of_arg m ρ c main_arg10 (by decide)).trans <|
    (W2_of_ne m ρ c main_arg10 (by decide)).trans (W1_of_arg m ρ c main_arg10 (by decide))
theorem W4_main_arg11 (c : Dev nD) : W4 m ρ c (Proc.devRef .tc main_arg11) = m ((c : Thread nD τ).loc main_arg11) :=
  (W4_of_ne m ρ c main_arg11 (by decide)).trans <| (W3_of_arg m ρ c main_arg11 (by decide)).trans <|
    (W2_of_ne m ρ c main_arg11 (by decide)).trans (W1_of_arg m ρ c main_arg11 (by decide))

/-! ## Entering region 2: from the rows region 1 left -/

theorem V5_v39 (c : Dev nD) :
    V5 m ρ c main_v39 = fun j : Spec.ShCol.Idx =>
      Spec.kScale (fun e => (dat1 (V3 m ρ) c).arrAt 6 cfg1.N (ix2 0 e)) (fun e => (dat1 (V3 m ρ) c).arrAt 7 cfg1.N (ix2 0 e))
        (fun e => m ((c : Thread nD τ).loc main_arg10) (ix1 e)) (j 1) := by
  refine (after2_v39 (W4 m ρ c)).trans ?_
  rw [W4_v24_1, W4_v24_2, W4_main_arg10]

theorem V5_v40 (c : Dev nD) :
    V5 m ρ c main_v40 = fun j : Spec.ShCol.Idx =>
      Spec.kShift (fun e => (dat1 (V3 m ρ) c).arrAt 6 cfg1.N (ix2 0 e)) (fun e => (dat1 (V3 m ρ) c).arrAt 7 cfg1.N (ix2 0 e))
        (fun e => m ((c : Thread nD τ).loc main_arg10) (ix1 e)) (fun e => m ((c : Thread nD τ).loc main_arg11) (ix1 e)) (j 1) := by
  refine (after2_v40 (W4 m ρ c)).trans ?_
  rw [W4_v24_1, W4_v24_2, W4_main_arg10, W4_main_arg11]

end Cert.KernelIdeal.HostCoef

end
-- ==== Proof.Chain.lean ====
/-
  The three regions and the host stretches between them, composed: the result buffer at the last boundary is the
  network with its normalisations folded, as a function of the launch contents of the twelve arguments.

  Region 0 leaves the first layer's array and its channel sums; the stretch after it turns the sums into the folded
  scale and offset, which region 1 applies before the second layer, leaving that layer's array and its channel sums;
  the next stretch folds those, and region 2 applies them, adds the edge array and clamps. The weights reach the regions
  re-laid (halves cut and transposed), which is the same entries under another indexing.
-/
import proofs.«137522_j79800492360363_1_alg».proof.Proof.Spec
import proofs.«137522_j79800492360363_1_alg».proof.Proof.K0
import proofs.«137522_j79800492360363_1_alg».proof.Proof.K1
import proofs.«137522_j79800492360363_1_alg».proof.Proof.K2
import proofs.«137522_j79800492360363_1_alg».proof.Proof.HostVal
import proofs.«137522_j79800492360363_1_alg».proof.Proof.HostCoef

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen

variable (m : (ℓ : Loc nD τ sig) → Buf (Elt Ideal) ℓ) (ρ : Dev nD → PrngReg)

/-- The first layer's array from the launch contents. -/
abbrev h1 (c : Dev nD) : Spec.T3 := Spec.lin1 (m ((c : Thread nD τ).loc main_arg2)) (m ((c : Thread nD τ).loc main_arg3)) (m ((c : Thread nD τ).loc main_arg0)) (m ((c : Thread nD τ).loc main_arg4)) (m ((c : Thread nD τ).loc main_arg5))
/-- The normalised, clamped first layer, and the second layer's array. -/
abbrev a1 (c : Dev nD) : Spec.T3 := Spec.relu (Spec.bnK (h1 m c) (m ((c : Thread nD τ).loc main_arg8)) (m ((c : Thread nD τ).loc main_arg9)))
abbrev h2 (c : Dev nD) : Spec.T3 := Spec.lin2 (a1 m c) (m ((c : Thread nD τ).loc main_arg6)) (m ((c : Thread nD τ).loc main_arg7))

/-- Region 0 computes the first layer: the re-laid weight halves are the matrix's columns, the bias row the bias. -/
theorem h1K_eq (c : Dev nD) : K0.h1K (V1 m ρ) c = h1 m c := by
  funext i
  show Spec.lin1K (V1 m ρ c main_arg2) (V1 m ρ c main_arg3) (V1 m ρ c main_arg0) (V1 m ρ c main_v1) (V1 m ρ c main_v3)
    (V1 m ρ c main_v5) i = _
  rw [HostVal.V1_arg2, HostVal.V1_arg3, HostVal.V1_arg0, HostVal.V1_v1, HostVal.V1_v3, HostVal.V1_v5]
  rfl

/-- What region 1 multiplies and adds is the folded first normalisation. -/
theorem aff1_eq (c : Dev nD) :
    Spec.affK (V3 m ρ c main_v7_0) (V3 m ρ c main_v22) (V3 m ρ c main_v23) = Spec.bnK (h1 m c) (m ((c : Thread nD τ).loc main_arg8)) (m ((c : Thread nD τ).loc main_arg9)) := by
  rw [HostVal.V3_v7_0, HostCoef.V3_v22, HostCoef.V3_v23, K0.arr_h, K0.arr_s, K0.arr_q, h1K_eq]
  rfl

/-- Region 1 computes the second layer of the normalised, clamped first. -/
theorem h2K_eq (c : Dev nD) : K1.h2K (V3 m ρ) c = h2 m c := by
  show Spec.lin2K (Spec.relu (Spec.affK (V3 m ρ c main_v7_0) (V3 m ρ c main_v22) (V3 m ρ c main_v23))) (V3 m ρ c main_v4)
    (V3 m ρ c main_v6) = _
  rw [aff1_eq, HostVal.V3_v4, HostVal.V3_v6, HostVal.V1_v4, HostVal.V1_v6]
  rfl

/-- The result buffer after the run. -/
theorem result_eq (c : Dev nD) :
    W6 m ρ c (Proc.devRef .tc main_v41)
      = Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) := by
  rw [HostVal.W6_v41, K2.arr_out, HostVal.V5_arg1, HostVal.V5_v24_0, HostCoef.V5_v39, HostCoef.V5_v40, K1.arr_h, K1.arr_s,
    K1.arr_q, h2K_eq]
  rfl

end Cert.KernelIdeal.Chain

end
-- ==== Proof.RefRed.lean ====
/-
  The reference's sum over the batch and feature axes of a [1024,128,128] array, from an initial value: channel by
  channel it is the initial value plus the double sum over the 1024 batch rows and the 128 features (the indices that
  reduce to channel e are exactly the triples (b, e, d)).
-/
import proofs.«137522_j79800492360363_1_alg».proof.Proof.Gen.ReferenceIdeal.Read
import proofs.«137522_j79800492360363_1_alg».proof.Proof.Spec

import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Read

/-- Dropping the batch and feature coordinates of (b, e, d) leaves the channel e. -/
private theorem drop_ix3 (b : Fin 1024) (e : Fin 128) (d : Fin 128) :
    reducesTo_S1024x128x128_S128_d0_2.drop (ix3 b e d) = ix1 e := by
  funext a
  match a with
  | ⟨0, _⟩ => rfl

/-- An index that reduces to channel e is (its batch coordinate, e, its feature coordinate). -/
private theorem eq_ix3_of_drop (i : S1024x128x128.Idx) (e : Fin 128)
    (h : reducesTo_S1024x128x128_S128_d0_2.drop i = ix1 e) : i = ix3 (i 0) e (i 2) := by
  have h1 : i 1 = e := congrFun h 0
  subst h1
  exact eq_ix3 i

/-- The triples (b, e, d) of one channel, as an embedding of the pairs (b, d). -/
private def chanEmb (e : Fin 128) : Fin 1024 × Fin 128 ↪ S1024x128x128.Idx :=
  ⟨fun p => ix3 p.1 e p.2, fun p q h => Prod.ext (congrFun h 0) (congrFun h 2)⟩

/-- The indices that reduce to channel e are exactly those triples. -/
private theorem filter_drop (e : Fin 128) :
    Finset.univ.filter (fun i : S1024x128x128.Idx => reducesTo_S1024x128x128_S128_d0_2.drop i = ix1 e)
      = Finset.univ.map (chanEmb e) := by
  ext i
  simp only [Finset.mem_filter, Finset.mem_univ, true_and, Finset.mem_map, chanEmb, Function.Embedding.coeFn_mk]
  constructor
  · intro h
    exact ⟨(i 0, i 2), (eq_ix3_of_drop i e h).symm⟩
  · rintro ⟨p, rfl⟩
    exact drop_ix3 p.1 e p.2

theorem reduce_apply (x : FVec Ideal S1024x128x128 .f32) (v : FVec Ideal S_ .f32) (j : S128.Idx) :
    Host.reduceAdd (F := Ideal) x v reducesTo_S1024x128x128_S128_d0_2 h_S_ j = v ix0 + Spec.sumC x (j 0) := by
  obtain ⟨e, rfl⟩ : ∃ e : Fin 128, j = ix1 e := ⟨j 0, eq_ix1 j⟩
  rw [hostReduceAdd_apply]
  unfold Ideal.hostReduceAdd
  rw [filter_drop, Finset.sum_map, Fintype.sum_prod_type]
  have hv : v (Shape.Idx.first h_S_) = v ix0 := congrArg v (eq_ix0 _)
  rw [hv]
  rfl

end Cert.ReferenceIdeal.RefVal

end
-- ==== Proof.RefLin.lean ====
/-
  The reference's two linear layers. The first joins two batched products along the feature axis and contracts the
  joined 256 features against the [128,256] weight matrix: the sum over the joined axis is the sum over its left half,
  which reads the first product, plus the sum over its right half, which reads the second. The second contracts the
  128 features against the [128,128] weight matrix. Each adds its bias, broadcast over batch and channel.
-/
import proofs.«137522_j79800492360363_1_alg».proof.Proof.Gen.ReferenceIdeal.Read
import proofs.«137522_j79800492360363_1_alg».proof.Proof.Spec

import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Read

variable (x0 : (⟨S1024x400x128, .f32⟩ : BufTy).Contents (Elt Ideal)) (x1 : (⟨S1024x128x128, .f32⟩ : BufTy).Contents (Elt Ideal)) (x2 x3 : (⟨S1024x128x400, .f32⟩ : BufTy).Contents (Elt Ideal))
  (x4 : (⟨S128x256, .f32⟩ : BufTy).Contents (Elt Ideal)) (x5 : (⟨S128, .f32⟩ : BufTy).Contents (Elt Ideal)) (x6 : (⟨S128x128, .f32⟩ : BufTy).Contents (Elt Ideal)) (x7 x8 x9 x10 x11 : (⟨S128, .f32⟩ : BufTy).Contents (Elt Ideal))

/-- A sum over the 256 joined features is the sum over the left half plus the sum over the right half. -/
private theorem sum_halves (f : Fin 256 → EReal) :
    ∑ k : Fin 256, f k = (∑ k : Fin 128, f (Spec.lo k)) + ∑ k : Fin 128, f (Spec.hi k) := by
  refine (Fin.sum_univ_add (a := 128) (b := 128) f).trans ?_
  rfl

/-- The joined array's left half reads the first product. -/
private theorem v2_lo (b : Fin 1024) (e f : Fin 128) :
    val_main_v2 (F := Ideal) x0 x2 x3 (ix3 b e (Spec.lo f)) = val_main_v0 (F := Ideal) x0 x2 (ix3 b e f) := by
  unfold val_main_v2
  exact concatenate_pair_apply_left 2 _ _ concatenates_S1024x128x128_S1024x128x128_S1024x128x256_d2
    (ix3 b e (Spec.lo f)) rfl (ix3 b e f)
    (fun c => match c with | ⟨0, _⟩ => rfl | ⟨1, _⟩ => rfl | ⟨2, _⟩ => rfl)

/-- The joined array's right half reads the second product, 128 places down. -/
private theorem v2_hi (b : Fin 1024) (e f : Fin 128) :
    val_main_v2 (F := Ideal) x0 x2 x3 (ix3 b e (Spec.hi f)) = val_main_v1 (F := Ideal) x0 x3 (ix3 b e f) := by
  unfold val_main_v2
  exact concatenate_pair_apply_right 2 _ _ concatenates_S1024x128x128_S1024x128x128_S1024x128x256_d2
    (ix3 b e (Spec.hi f)) rfl rfl (ix3 b e f)
    (fun c hc => match c, hc with
      | ⟨0, _⟩, _ => rfl
      | ⟨1, _⟩, _ => rfl
      | ⟨2, _⟩, hc => absurd rfl hc)
    (Nat.add_comm _ _)

/-- Each batched product is the spec's: entry (b, e, f) sums s[b,e,n] · go[b,n,f] over n. -/
private theorem v0_gath (b : Fin 1024) (e f : Fin 128) :
    val_main_v0 (F := Ideal) x0 x2 (ix3 b e f) = Spec.gath x2 x0 (ix3 b e f) := by
  rw [val_main_v0_apply]
  unfold Spec.gath
  refine Finset.sum_congr rfl fun n _ => ?_
  have hl : lidx_main_v0 (ix3 b e f) n = ix3 b e n :=
    funext fun a => Fin.ext (by match a with | ⟨0, _⟩ => rfl | ⟨1, _⟩ => rfl | ⟨2, _⟩ => rfl)
  have hr : ridx_main_v0 (ix3 b e f) n = ix3 b n f :=
    funext fun a => Fin.ext (by match a with | ⟨0, _⟩ => rfl | ⟨1, _⟩ => rfl | ⟨2, _⟩ => rfl)
  rw [hl, hr]

private theorem v1_gath (b : Fin 1024) (e f : Fin 128) :
    val_main_v1 (F := Ideal) x0 x3 (ix3 b e f) = Spec.gath x3 x0 (ix3 b e f) := by
  rw [val_main_v1_apply]
  unfold Spec.gath
  refine Finset.sum_congr rfl fun n _ => ?_
  have hl : lidx_main_v1 (ix3 b e f) n = ix3 b e n :=
    funext fun a => Fin.ext (by match a with | ⟨0, _⟩ => rfl | ⟨1, _⟩ => rfl | ⟨2, _⟩ => rfl)
  have hr : ridx_main_v1 (ix3 b e f) n = ix3 b n f :=
    funext fun a => Fin.ext (by match a with | ⟨0, _⟩ => rfl | ⟨1, _⟩ => rfl | ⟨2, _⟩ => rfl)
  rw [hl, hr]

/-- The first linear layer. -/
theorem h1_eq : val_main_v6 (F := Ideal) x0 x2 x3 x4 x5 = Spec.lin1 x2 x3 x0 x4 x5 := by
  funext i
  obtain ⟨b, e, d, rfl⟩ : ∃ (b : Fin 1024) (e d : Fin 128), i = ix3 b e d := ⟨i 0, i 1, i 2, eq_ix3 i⟩
  rw [val_main_v6_apply, val_main_v3_apply, val_main_v5_apply, val_main_v4_apply, sum_halves]
  have hll : ∀ k : Fin 256, lidx_main_v3 (ix3 b e d) k = ix3 b e k := fun k =>
    funext fun a => Fin.ext (by match a with | ⟨0, _⟩ => rfl | ⟨1, _⟩ => rfl | ⟨2, _⟩ => rfl)
  have hrr : ∀ k : Fin 256, ridx_main_v3 (ix3 b e d) k = ix2 d k := fun k =>
    funext fun a => Fin.ext (by match a with | ⟨0, _⟩ => rfl | ⟨1, _⟩ => rfl)
  have hb : idx_main_v4 (idx_main_v5 (ix3 b e d)) = ix1 d :=
    funext fun a => Fin.ext (by match a with | ⟨0, _⟩ => rfl)
  simp only [hll, hrr, hb, v2_lo, v2_hi, v0_gath, v1_gath, Ideal.addf_def]
  rfl

/-- The second linear layer, of whatever array `val_main_v31` is. -/
theorem h2_eq : val_main_v35 (F := Ideal) x0 x2 x3 x4 x5 x6 x7 x8 x9
    = Spec.lin2 (val_main_v31 (F := Ideal) x0 x2 x3 x4 x5 x8 x9) x6 x7 := by
  funext i
  obtain ⟨b, e, d, rfl⟩ : ∃ (b : Fin 1024) (e d : Fin 128), i = ix3 b e d := ⟨i 0, i 1, i 2, eq_ix3 i⟩
  rw [val_main_v35_apply, val_main_v32_apply, val_main_v34_apply, val_main_v33_apply]
  generalize val_main_v31 (F := Ideal) x0 x2 x3 x4 x5 x8 x9 = a
  have hll : ∀ k : Fin 128, lidx_main_v32 (ix3 b e d) k = ix3 b e k := fun k =>
    funext fun c => Fin.ext (by match c with | ⟨0, _⟩ => rfl | ⟨1, _⟩ => rfl | ⟨2, _⟩ => rfl)
  have hrr : ∀ k : Fin 128, ridx_main_v32 (ix3 b e d) k = ix2 d k := fun k =>
    funext fun c => Fin.ext (by match c with | ⟨0, _⟩ => rfl | ⟨1, _⟩ => rfl)
  have hb : idx_main_v33 (idx_main_v34 (ix3 b e d)) = ix1 d :=
    funext fun c => Fin.ext (by match c with | ⟨0, _⟩ => rfl)
  simp only [hll, hrr, hb, Ideal.addf_def]
  rfl

end Cert.ReferenceIdeal.RefVal

end
-- ==== Proof.RefBn.lean ====
/-
  The reference's two normalisations and its clamps, stage by stage: the channel mean is the sum over batch and
  features divided by n = 2¹⁷, the array is centred by it, the variance is the mean of the squared centred entries, and
  each centred entry is multiplied by (var + ε)^(−1/2), then by the channel's scale, and the channel's offset is added.
  A clamp is the maximum with a zero array.
-/
import proofs.«137522_j79800492360363_1_alg».proof.Proof.Gen.ReferenceIdeal.Read
import proofs.«137522_j79800492360363_1_alg».proof.Proof.Spec
import proofs.«137522_j79800492360363_1_alg».proof.Proof.RefRed
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Read

variable (x0 : (⟨S1024x400x128, .f32⟩ : BufTy).Contents (Elt Ideal)) (x1 : (⟨S1024x128x128, .f32⟩ : BufTy).Contents (Elt Ideal)) (x2 x3 : (⟨S1024x128x400, .f32⟩ : BufTy).Contents (Elt Ideal))
  (x4 : (⟨S128x256, .f32⟩ : BufTy).Contents (Elt Ideal)) (x5 : (⟨S128, .f32⟩ : BufTy).Contents (Elt Ideal)) (x6 : (⟨S128x128, .f32⟩ : BufTy).Contents (Elt Ideal)) (x7 x8 x9 x10 x11 : (⟨S128, .f32⟩ : BufTy).Contents (Elt Ideal))

/-- The channel mean of the first array, read at channel e: the channel's sum (from the zero initial value) divided by n. -/
theorem bn_v10_at (e : Fin 128) :
    val_main_v10 (F := Ideal) x0 x2 x3 x4 x5 (ix3 0 e 0) = Spec.meanC (val_main_v6 (F := Ideal) x0 x2 x3 x4 x5) e := by
  rw [val_main_v10_apply, val_main_v8_apply, val_main_v9_apply, val_main_cst_0_apply]
  unfold val_main_v7
  rw [reduce_apply, val_main_cst_apply]
  simp only [Ideal.hostDivf_def, Ideal.ofBits_def, Ideal.ofBits_zero_f32, zero_add]
  rfl

/-- The first array minus its channel means is the centred array. -/
theorem bn_v12_eq : val_main_v12 (F := Ideal) x0 x2 x3 x4 x5 = Spec.centred (val_main_v6 (F := Ideal) x0 x2 x3 x4 x5) := by
  funext i
  obtain ⟨b, e, d, rfl⟩ : ∃ b e d, i = ix3 b e d := ⟨i 0, i 1, i 2, eq_ix3 i⟩
  rw [val_main_v12_apply, val_main_v11_apply,
    show idx_main_v11 (ix3 b e d) = ix3 0 e 0 from
      funext fun a => Fin.ext (by match a with | ⟨0,_⟩ => rfl | ⟨1,_⟩ => rfl | ⟨2,_⟩ => rfl),
    bn_v10_at]
  rfl

/-- The same subtraction, as the program repeats it. -/
theorem bn_v19_eq : val_main_v19 (F := Ideal) x0 x2 x3 x4 x5 = Spec.centred (val_main_v6 (F := Ideal) x0 x2 x3 x4 x5) := by
  funext i
  obtain ⟨b, e, d, rfl⟩ : ∃ b e d, i = ix3 b e d := ⟨i 0, i 1, i 2, eq_ix3 i⟩
  rw [val_main_v19_apply, val_main_v18_apply,
    show idx_main_v18 (ix3 b e d) = ix3 0 e 0 from
      funext fun a => Fin.ext (by match a with | ⟨0,_⟩ => rfl | ⟨1,_⟩ => rfl | ⟨2,_⟩ => rfl),
    bn_v10_at]
  rfl

/-- The variance of the first array, read at channel e: the mean of the squared centred entries. -/
theorem bn_v17_at (e : Fin 128) :
    val_main_v17 (F := Ideal) x0 x2 x3 x4 x5 (ix3 0 e 0)
      = Ideal.div (Spec.sqC (Spec.centred (val_main_v6 (F := Ideal) x0 x2 x3 x4 x5)) e) Spec.cnt := by
  rw [val_main_v17_apply, val_main_v15_apply, val_main_v16_apply, val_main_cst_2_apply]
  unfold val_main_v14
  rw [reduce_apply, val_main_cst_1_apply]
  unfold val_main_v13
  rw [bn_v12_eq]
  simp only [Ideal.hostDivf_def, Ideal.ofBits_def, Ideal.ofBits_zero_f32, zero_add]
  rfl

/-- The first normalisation, of whatever array `val_main_v6` is. -/
theorem bn1_eq : val_main_v30 (F := Ideal) x0 x2 x3 x4 x5 x8 x9 = Spec.bnR (val_main_v6 (F := Ideal) x0 x2 x3 x4 x5) x8 x9 := by
  funext i
  obtain ⟨b, e, d, rfl⟩ : ∃ b e d, i = ix3 b e d := ⟨i 0, i 1, i 2, eq_ix3 i⟩
  rw [val_main_v30_apply, val_main_v27_apply, val_main_v24_apply, bn_v19_eq, val_main_v23_apply,
    val_main_v26_apply, val_main_v29_apply,
    show idx_main_v23 (ix3 b e d) = ix3 0 e 0 from
      funext fun a => Fin.ext (by match a with | ⟨0,_⟩ => rfl | ⟨1,_⟩ => rfl | ⟨2,_⟩ => rfl),
    show idx_main_v26 (ix3 b e d) = ix3 0 e 0 from
      funext fun a => Fin.ext (by match a with | ⟨0,_⟩ => rfl | ⟨1,_⟩ => rfl | ⟨2,_⟩ => rfl),
    show idx_main_v29 (ix3 b e d) = ix3 0 e 0 from
      funext fun a => Fin.ext (by match a with | ⟨0,_⟩ => rfl | ⟨1,_⟩ => rfl | ⟨2,_⟩ => rfl),
    val_main_v22_apply, val_main_v21_apply, bn_v17_at, val_main_v20_apply, val_main_cst_3_apply,
    val_main_v25_apply, val_main_v28_apply,
    show idx_main_v25 (ix3 0 e 0) = ix1 e from funext fun a => Fin.ext (by match a with | ⟨0,_⟩ => rfl),
    show idx_main_v28 (ix3 0 e 0) = ix1 e from funext fun a => Fin.ext (by match a with | ⟨0,_⟩ => rfl)]
  simp only [Ideal.hostUnary_rsqrt_def, Ideal.addf_def, Ideal.mulf_def, Ideal.ofBits_def]
  rfl

/-- The first clamp. -/
theorem relu1_eq : val_main_v31 (F := Ideal) x0 x2 x3 x4 x5 x8 x9 = Spec.relu (val_main_v30 (F := Ideal) x0 x2 x3 x4 x5 x8 x9) := by
  funext i
  rw [val_main_v31_apply, val_main_call0_v0_apply, val_main_call0_cst_apply]
  simp only [Ideal.maximumf_def, Ideal.ofBits_def, Ideal.ofBits_zero_f32]
  rfl

/-- The channel mean of the second array, read at channel e: the channel's sum (from the zero initial value) divided by n. -/
theorem bn_v39_at (e : Fin 128) :
    val_main_v39 (F := Ideal) x0 x2 x3 x4 x5 x6 x7 x8 x9 (ix3 0 e 0) = Spec.meanC (val_main_v35 (F := Ideal) x0 x2 x3 x4 x5 x6 x7 x8 x9) e := by
  rw [val_main_v39_apply, val_main_v37_apply, val_main_v38_apply, val_main_cst_5_apply]
  unfold val_main_v36
  rw [reduce_apply, val_main_cst_4_apply]
  simp only [Ideal.hostDivf_def, Ideal.ofBits_def, Ideal.ofBits_zero_f32, zero_add]
  rfl

/-- The second array minus its channel means is the centred array. -/
theorem bn_v41_eq : val_main_v41 (F := Ideal) x0 x2 x3 x4 x5 x6 x7 x8 x9 = Spec.centred (val_main_v35 (F := Ideal) x0 x2 x3 x4 x5 x6 x7 x8 x9) := by
  funext i
  obtain ⟨b, e, d, rfl⟩ : ∃ b e d, i = ix3 b e d := ⟨i 0, i 1, i 2, eq_ix3 i⟩
  rw [val_main_v41_apply, val_main_v40_apply,
    show idx_main_v40 (ix3 b e d) = ix3 0 e 0 from
      funext fun a => Fin.ext (by match a with | ⟨0,_⟩ => rfl | ⟨1,_⟩ => rfl | ⟨2,_⟩ => rfl),
    bn_v39_at]
  rfl

/-- The same subtraction, as the program repeats it. -/
theorem bn_v48_eq : val_main_v48 (F := Ideal) x0 x2 x3 x4 x5 x6 x7 x8 x9 = Spec.centred (val_main_v35 (F := Ideal) x0 x2 x3 x4 x5 x6 x7 x8 x9) := by
  funext i
  obtain ⟨b, e, d, rfl⟩ : ∃ b e d, i = ix3 b e d := ⟨i 0, i 1, i 2, eq_ix3 i⟩
  rw [val_main_v48_apply, val_main_v47_apply,
    show idx_main_v47 (ix3 b e d) = ix3 0 e 0 from
      funext fun a => Fin.ext (by match a with | ⟨0,_⟩ => rfl | ⟨1,_⟩ => rfl | ⟨2,_⟩ => rfl),
    bn_v39_at]
  rfl

/-- The variance of the second array, read at channel e: the mean of the squared centred entries. -/
theorem bn_v46_at (e : Fin 128) :
    val_main_v46 (F := Ideal) x0 x2 x3 x4 x5 x6 x7 x8 x9 (ix3 0 e 0)
      = Ideal.div (Spec.sqC (Spec.centred (val_main_v35 (F := Ideal) x0 x2 x3 x4 x5 x6 x7 x8 x9)) e) Spec.cnt := by
  rw [val_main_v46_apply, val_main_v44_apply, val_main_v45_apply, val_main_cst_7_apply]
  unfold val_main_v43
  rw [reduce_apply, val_main_cst_6_apply]
  unfold val_main_v42
  rw [bn_v41_eq]
  simp only [Ideal.hostDivf_def, Ideal.ofBits_def, Ideal.ofBits_zero_f32, zero_add]
  rfl

/-- The second normalisation, of whatever array `val_main_v35` is. -/
theorem bn2_eq : val_main_v59 (F := Ideal) x0 x2 x3 x4 x5 x6 x7 x8 x9 x10 x11
    = Spec.bnR (val_main_v35 (F := Ideal) x0 x2 x3 x4 x5 x6 x7 x8 x9) x10 x11 := by
  funext i
  obtain ⟨b, e, d, rfl⟩ : ∃ b e d, i = ix3 b e d := ⟨i 0, i 1, i 2, eq_ix3 i⟩
  rw [val_main_v59_apply, val_main_v56_apply, val_main_v53_apply, bn_v48_eq, val_main_v52_apply,
    val_main_v55_apply, val_main_v58_apply,
    show idx_main_v52 (ix3 b e d) = ix3 0 e 0 from
      funext fun a => Fin.ext (by match a with | ⟨0,_⟩ => rfl | ⟨1,_⟩ => rfl | ⟨2,_⟩ => rfl),
    show idx_main_v55 (ix3 b e d) = ix3 0 e 0 from
      funext fun a => Fin.ext (by match a with | ⟨0,_⟩ => rfl | ⟨1,_⟩ => rfl | ⟨2,_⟩ => rfl),
    show idx_main_v58 (ix3 b e d) = ix3 0 e 0 from
      funext fun a => Fin.ext (by match a with | ⟨0,_⟩ => rfl | ⟨1,_⟩ => rfl | ⟨2,_⟩ => rfl),
    val_main_v51_apply, val_main_v50_apply, bn_v46_at, val_main_v49_apply, val_main_cst_8_apply,
    val_main_v54_apply, val_main_v57_apply,
    show idx_main_v54 (ix3 0 e 0) = ix1 e from funext fun a => Fin.ext (by match a with | ⟨0,_⟩ => rfl),
    show idx_main_v57 (ix3 0 e 0) = ix1 e from funext fun a => Fin.ext (by match a with | ⟨0,_⟩ => rfl)]
  simp only [Ideal.hostUnary_rsqrt_def, Ideal.addf_def, Ideal.mulf_def, Ideal.ofBits_def]
  rfl

/-- The edge array added and the final clamp. -/
theorem last_eq : val_main_v61 (F := Ideal) x0 x1 x2 x3 x4 x5 x6 x7 x8 x9 x10 x11
    = fun i => max (x1 i + val_main_v59 (F := Ideal) x0 x2 x3 x4 x5 x6 x7 x8 x9 x10 x11 i) 0 := by
  funext i
  rw [val_main_v61_apply, val_main_v60_apply, val_main_call1_v0_apply, val_main_call1_cst_apply]
  simp only [Ideal.maximumf_def, Ideal.addf_def, Ideal.ofBits_def, Ideal.ofBits_zero_f32]

end Cert.ReferenceIdeal.RefVal

end
-- ==== Proof.RefVal.lean ====
/-
  The reference program's result is the network with its normalisations in the centred arrangement: the stages
  composed.
-/
import proofs.«137522_j79800492360363_1_alg».proof.Proof.Gen.ReferenceIdeal.Read
import proofs.«137522_j79800492360363_1_alg».proof.Proof.Spec
import proofs.«137522_j79800492360363_1_alg».proof.Proof.RefRed
import proofs.«137522_j79800492360363_1_alg».proof.Proof.RefLin
import proofs.«137522_j79800492360363_1_alg».proof.Proof.RefBn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Read

variable (x0 : (⟨S1024x400x128, .f32⟩ : BufTy).Contents (Elt Ideal)) (x1 : (⟨S1024x128x128, .f32⟩ : BufTy).Contents (Elt Ideal)) (x2 x3 : (⟨S1024x128x400, .f32⟩ : BufTy).Contents (Elt Ideal))
  (x4 : (⟨S128x256, .f32⟩ : BufTy).Contents (Elt Ideal)) (x5 : (⟨S128, .f32⟩ : BufTy).Contents (Elt Ideal)) (x6 : (⟨S128x128, .f32⟩ : BufTy).Contents (Elt Ideal)) (x7 x8 x9 x10 x11 : (⟨S128, .f32⟩ : BufTy).Contents (Elt Ideal))

theorem out_eq : val_main_v61 (F := Ideal) x0 x1 x2 x3 x4 x5 x6 x7 x8 x9 x10 x11
    = Spec.outR x0 x1 x2 x3 x4 x5 x6 x7 x8 x9 x10 x11 := by
  rw [last_eq, bn2_eq, h2_eq, relu1_eq, bn1_eq, h1_eq]
  rfl

end Cert.ReferenceIdeal.RefVal

end
-- ==== Proof.PreReal.lean ====
/-
  The precondition says every entry of every input array is smaller in absolute value than +∞; over the extended
  reals that makes every entry a real number.
-/
import proofs.«137522_j79800492360363_1_alg».proof.Pre_finite_inputs
import proofs.«137522_j79800492360363_1_alg».proof.Proof.Spec
import Idealize.ShloMosaic.PureOps.Ideal.Laws
import Idealize.ShloMosaic.Lib.ReduceAll
import Idealize.ShloMosaic.Lib.ValueIdx
import Idealize.ShloMosaic.Lib.IdealHost

set_option maxRecDepth 16384

noncomputable section

open Idealize.ShloMosaic Idealize.ShloMosaic.ValueIdx

namespace Cert.PreReal

/-- The rank-0 shape has one index. -/
instance subsingleton_scalar_idx : Subsingleton Cert.Pre_finite_inputs.S_.Idx :=
  ⟨fun a b => funext fun d => d.elim0⟩

/-- The single-precision word 0x7F800000 is +∞. -/
theorem ofBits_inf : Ideal.ofBits .f32 0x7F800000#32 = (⊤ : EReal) := by
  simp [Ideal.ofBits, Ideal.ieee]

/-- An extended real whose absolute value max(x, −x) lies below +∞ is a real number: both infinities have
    absolute value +∞. -/
theorem isR_of_abs_lt_top (x : EReal) (h : max x (-x) < ⊤) : Spec.IsR x := by
  induction x using EReal.rec with
  | bot => simp at h
  | coe r => exact ⟨r, rfl⟩
  | top => simp at h

/-- One array: if "|x| < +∞ at every index", reduced by ∧ from 1 over all axes, is 1, then every entry of x is real. -/
theorem isR_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hu ix0 = 1#1) :
    ∀ i, Spec.IsR (x i) := by
  intro i
  have h1 := Host.reduce_andi_all _ _ hr hu ix0 e i
  rw [cmpf_apply, broadcastInDim_scalar_apply, constant_apply, ofBits_inf] at h1
  have h2 : Host.absf x i = max (x i) (-(x i)) := rfl
  rw [h2, Ideal.cmpf_def] at h1
  refine isR_of_abs_lt_top (x i) ?_
  by_contra hn
  simp [Ideal.cmp, hn] at h1

/-- The entrywise ∧ of two one-bit arrays is 1 at an index exactly when both are. -/
theorem andi_apply_eq_one {s : Shape} (x y : IVec s 1) (i : s.Idx) :
    andi x y i = 1#1 ↔ x i = 1#1 ∧ y i = 1#1 := IntOp.andi_eq_one

theorem real_of_fn [Cert.Pre_finite_inputs.Facts]
    (a0 : FVec Ideal Cert.Pre_finite_inputs.S1024x400x128 .f32) (a1 : FVec Ideal Cert.Pre_finite_inputs.S1024x128x128 .f32) (a2 a3 : FVec Ideal Cert.Pre_finite_inputs.S1024x128x400 .f32)
    (a4 : FVec Ideal Cert.Pre_finite_inputs.S128x256 .f32) (a5 : FVec Ideal Cert.Pre_finite_inputs.S128 .f32) (a6 : FVec Ideal Cert.Pre_finite_inputs.S128x128 .f32) (a7 a8 a9 a10 a11 : FVec Ideal Cert.Pre_finite_inputs.S128 .f32)
    (h : Cert.Pre_finite_inputs.fn (F := Ideal) a0 a1 a2 a3 a4 a5 a6 a7 a8 a9 a10 a11 = fun _ => 1#1) :
    (∀ i, Spec.IsR (a0 i)) ∧ (∀ i, Spec.IsR (a1 i)) ∧ (∀ i, Spec.IsR (a2 i)) ∧ (∀ i, Spec.IsR (a3 i))
      ∧ (∀ i, Spec.IsR (a4 i)) ∧ (∀ i, Spec.IsR (a5 i)) ∧ (∀ i, Spec.IsR (a6 i)) ∧ (∀ i, Spec.IsR (a7 i))
      ∧ (∀ i, Spec.IsR (a8 i)) ∧ (∀ i, Spec.IsR (a9 i)) ∧ (∀ i, Spec.IsR (a10 i)) ∧ (∀ i, Spec.IsR (a11 i)) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e11⟩ := (andi_apply_eq_one _ _ _).1 h0
  obtain ⟨h0, e10⟩ := (andi_apply_eq_one _ _ _).1 h0
  obtain ⟨h0, e9⟩ := (andi_apply_eq_one _ _ _).1 h0
  obtain ⟨h0, e8⟩ := (andi_apply_eq_one _ _ _).1 h0
  obtain ⟨h0, e7⟩ := (andi_apply_eq_one _ _ _).1 h0
  obtain ⟨h0, e6⟩ := (andi_apply_eq_one _ _ _).1 h0
  obtain ⟨h0, e5⟩ := (andi_apply_eq_one _ _ _).1 h0
  obtain ⟨h0, e4⟩ := (andi_apply_eq_one _ _ _).1 h0
  obtain ⟨h0, e3⟩ := (andi_apply_eq_one _ _ _).1 h0
  obtain ⟨h0, e2⟩ := (andi_apply_eq_one _ _ _).1 h0
  obtain ⟨e0, e1⟩ := (andi_apply_eq_one _ _ _).1 h0
  exact ⟨isR_of_all a0 _ _ _ e0, isR_of_all a1 _ _ _ e1, isR_of_all a2 _ _ _ e2, isR_of_all a3 _ _ _ e3,
    isR_of_all a4 _ _ _ e4, isR_of_all a5 _ _ _ e5, isR_of_all a6 _ _ _ e6, isR_of_all a7 _ _ _ e7,
    isR_of_all a8 _ _ _ e8, isR_of_all a9 _ _ _ e9, isR_of_all a10 _ _ _ e10, isR_of_all a11 _ _ _ e11⟩

end Cert.PreReal

end
-- ==== Proof.AlgReal.lean ====
/-
  Real numbers among the extended reals are closed under everything the network does: sums, differences, products,
  finite sums, the maximum with 0, division by the count n = 2¹⁷ (a nonzero real), and the reciprocal root of a positive
  real. So each layer maps arrays of reals to arrays of reals.
-/
import proofs.«137522_j79800492360363_1_alg».proof.Proof.Spec

import Mathlib.Data.EReal.Basic
import Mathlib.Data.EReal.Operations
import Mathlib.Analysis.SpecialFunctions.Pow.Real
import Mathlib.Algebra.BigOperators.Ring.Finset
import Mathlib.Tactic.Ring
import Mathlib.Tactic.Positivity
import Mathlib.Tactic.FieldSimp
import Mathlib.Tactic.Linarith

set_option maxRecDepth 16384

noncomputable section

open Idealize.ShloMosaic Idealize.ShloMosaic.ValueIdx

namespace Cert.Spec

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.sub {x y : EReal} (hx : IsR x) (hy : IsR y) : IsR (x - y) := by
  obtain ⟨a, rfl⟩ := hx
  obtain ⟨b, rfl⟩ := hy
  exact ⟨a - b, (EReal.coe_sub a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.max_zero {x : EReal} (hx : IsR x) : IsR (max x 0) := by
  obtain ⟨a, rfl⟩ := hx
  exact ⟨max a 0, by rw [EReal.coe_strictMono.monotone.map_max, EReal.coe_zero]⟩
theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact IsR.add (h a (Finset.mem_insert_self a s)) (ih fun i hi => h i (Finset.mem_insert_of_mem hi))

/-- The count is the real 131072 and the variance offset a positive real. -/
theorem cnt_eq : cnt = ((131072 : ℝ) : EReal) := by
  unfold cnt
  simp [Ideal.ofBits, Ideal.ieee, -EReal.coe_mul]; norm_num
theorem eps_pos : ∃ r : ℝ, 0 < r ∧ eps = (r : EReal) := by
  unfold eps
  simp [Ideal.ofBits, Ideal.ieee, -EReal.coe_mul]

/-- Division by the count, on a real. -/
theorem div_cnt (r : ℝ) : Ideal.div (r : EReal) cnt = ((r / 131072 : ℝ) : EReal) := by
  rw [cnt_eq, Ideal.div_coe (by norm_num), ← EReal.coe_mul]
  congr 1
  ring
theorem IsR.div_cnt {x : EReal} (hx : IsR x) : IsR (Ideal.div x cnt) := by
  obtain ⟨a, rfl⟩ := hx
  exact ⟨a / 131072, Cert.Spec.div_cnt a⟩

/-- The reciprocal root of a positive real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

theorem gath_real (s : ShS.Idx → EReal) (go : ShG.Idx → EReal) (hs : ∀ i, IsR (s i)) (hgo : ∀ i, IsR (go i)) :
    ∀ i, IsR (gath s go i) := by
  intro i
  unfold gath
  exact IsR.sum _ _ fun n _ => IsR.mul (hs _) (hgo _)

theorem lin1_real (ss es : ShS.Idx → EReal) (go : ShG.Idx → EReal) (W1 : ShW1.Idx → EReal) (b1 : ShV.Idx → EReal)
    (hss : ∀ i, IsR (ss i)) (hes : ∀ i, IsR (es i)) (hgo : ∀ i, IsR (go i)) (hW : ∀ i, IsR (W1 i)) (hb : ∀ i, IsR (b1 i)) :
    ∀ i, IsR (lin1 ss es go W1 b1 i) := by
  intro i
  unfold lin1
  exact IsR.add (IsR.add (IsR.sum _ _ fun f _ => IsR.mul (gath_real ss go hss hgo _) (hW _))
    (IsR.sum _ _ fun f _ => IsR.mul (gath_real es go hes hgo _) (hW _))) (hb _)

theorem lin2_real (a : T3) (W2 : ShW.Idx → EReal) (b2 : ShV.Idx → EReal)
    (ha : ∀ i, IsR (a i)) (hW : ∀ i, IsR (W2 i)) (hb : ∀ i, IsR (b2 i)) : ∀ i, IsR (lin2 a W2 b2 i) := by
  intro i
  unfold lin2
  exact IsR.add (IsR.sum _ _ fun d _ => IsR.mul (ha _) (hW _)) (hb _)

theorem relu_real (x : T3) (hx : ∀ i, IsR (x i)) : ∀ i, IsR (relu x i) := by
  intro i
  unfold relu
  exact IsR.max_zero (hx i)

theorem sumC_real (x : T3) (hx : ∀ i, IsR (x i)) (e : Fin 128) : IsR (sumC x e) := by
  unfold sumC
  exact IsR.sum _ _ fun b _ => IsR.sum _ _ fun d _ => hx _
theorem sqC_real (x : T3) (hx : ∀ i, IsR (x i)) (e : Fin 128) : IsR (sqC x e) := by
  unfold sqC
  exact IsR.sum _ _ fun b _ => IsR.sum _ _ fun d _ => IsR.mul (hx _) (hx _)

end Cert.Spec

end
-- ==== Proof.AlgBn.lean ====
/-
  The two arrangements of the normalisation agree on an array of reals.

  With n = 2¹⁷ entries per channel, s the channel's sum, q its sum of squares and m = s/n,
    q/n − m² = (Σ (x − m)²)/n ≥ 0,
  so both arrangements take the reciprocal root r of the same positive real var + ε, and
    x · (g·r) + (β − m · (g·r)) = ((x − m) · r) · g + β
  by distributivity over the reals.
-/
import proofs.«137522_j79800492360363_1_alg».proof.Proof.Spec
import proofs.«137522_j79800492360363_1_alg».proof.Proof.AlgReal
import Mathlib.Data.EReal.Basic
import Mathlib.Data.EReal.Operations
import Mathlib.Analysis.SpecialFunctions.Pow.Real
import Mathlib.Algebra.BigOperators.Ring.Finset
import Mathlib.Tactic.Ring
import Mathlib.Tactic.Positivity
import Mathlib.Tactic.FieldSimp
import Mathlib.Tactic.Linarith

set_option maxRecDepth 16384

noncomputable section

open Idealize.ShloMosaic Idealize.ShloMosaic.ValueIdx

namespace Cert.Spec

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance identity over the reals: the mean of the squared deviations from the mean m = s/n is q/n − m². -/
theorem var_id (f : Fin 1024 → Fin 128 → ℝ) :
    (∑ b, ∑ d, (f b d - (∑ b, ∑ d, f b d) / 131072) * (f b d - (∑ b, ∑ d, f b d) / 131072)) / 131072
      = (∑ b, ∑ d, f b d * f b d) / 131072 - (∑ b, ∑ d, f b d) / 131072 * ((∑ b, ∑ d, f b d) / 131072) := by
  generalize hS : (∑ b, ∑ d, f b d) = S
  have h1 : ∀ b d, (f b d - S / 131072) * (f b d - S / 131072)
      = f b d * f b d - 2 * (S / 131072) * f b d + S / 131072 * (S / 131072) := fun b d => by ring
  simp only [h1, Finset.sum_add_distrib, Finset.sum_sub_distrib, ← Finset.mul_sum, Finset.sum_const,
    Finset.card_univ, Fintype.card_fin, nsmul_eq_mul, hS]
  push_cast
  ring

/-- A mean of squares plus a positive offset is positive. -/
theorem var_pos (f : Fin 1024 → Fin 128 → ℝ) (m ε : ℝ) (hε : 0 < ε) :
    0 < (∑ b, ∑ d, (f b d - m) * (f b d - m)) / 131072 + ε := by
  have h : 0 ≤ (∑ b, ∑ d, (f b d - m) * (f b d - m)) / 131072 :=
    div_nonneg (Finset.sum_nonneg fun b _ => Finset.sum_nonneg fun d _ => mul_self_nonneg _) (by norm_num)
  linarith

/-- The folded and the centred arrangement of one entry agree over the reals. -/
theorem aff_id (x m r g β : ℝ) : x * (g * r) + (β - m * (g * r)) = ((x - m) * r) * g + β := by ring

/-- Real counterparts of a channel's sum and sum of squares, and the reciprocal root both arrangements share. -/
def sumR (xr : Sh3.Idx → ℝ) (e : Fin 128) : ℝ := ∑ b : Fin 1024, ∑ d : Fin 128, xr (ix3 b e d)
def sqR (xr : Sh3.Idx → ℝ) (e : Fin 128) : ℝ := ∑ b : Fin 1024, ∑ d : Fin 128, xr (ix3 b e d) * xr (ix3 b e d)
def rstdR (xr : Sh3.Idx → ℝ) (ε : ℝ) (e : Fin 128) : ℝ :=
  (Real.sqrt (sqR xr e / 131072 - sumR xr e / 131072 * (sumR xr e / 131072) + ε))⁻¹

/-- A channel's sum and sum of squares, on an array of reals, are the coercions of the real sums. -/
theorem sumC_coe (xr : Sh3.Idx → ℝ) (e : Fin 128) :
    sumC (fun i => (xr i : EReal)) e = (sumR xr e : EReal) := by
  unfold sumC sumR
  rw [coe_sum]
  refine Finset.sum_congr rfl fun b _ => ?_
  rw [coe_sum]

theorem sqC_coe (xr : Sh3.Idx → ℝ) (e : Fin 128) :
    sqC (fun i => (xr i : EReal)) e = (sqR xr e : EReal) := by
  unfold sqC sqR
  rw [coe_sum]
  refine Finset.sum_congr rfl fun b _ => ?_
  rw [coe_sum]
  refine Finset.sum_congr rfl fun d _ => ?_
  rw [EReal.coe_mul]

/-- The variance in the folded arrangement is the mean of the squared centred entries, -/
theorem varR_eq (xr : Sh3.Idx → ℝ) (e : Fin 128) :
    (∑ b : Fin 1024, ∑ d : Fin 128,
        (xr (ix3 b e d) - sumR xr e / 131072) * (xr (ix3 b e d) - sumR xr e / 131072)) / 131072
      = sqR xr e / 131072 - sumR xr e / 131072 * (sumR xr e / 131072) :=
  var_id fun b d => xr (ix3 b e d)

/-- so with a positive offset it is positive. -/
theorem varR_pos (xr : Sh3.Idx → ℝ) (ε : ℝ) (hε : 0 < ε) (e : Fin 128) :
    0 < sqR xr e / 131072 - sumR xr e / 131072 * (sumR xr e / 131072) + ε := by
  rw [← varR_eq]
  exact var_pos (fun b d => xr (ix3 b e d)) _ ε hε

/-- The centred array of an array of reals, entry by entry. -/
theorem centred_coe (xr : Sh3.Idx → ℝ) (b : Fin 1024) (e : Fin 128) (d : Fin 128) :
    centred (fun i => (xr i : EReal)) (ix3 b e d) = ((xr (ix3 b e d) - sumR xr e / 131072 : ℝ) : EReal) := by
  show (xr (ix3 b e d) : EReal) - Ideal.div (sumC (fun i => (xr i : EReal)) e) cnt = _
  rw [sumC_coe, div_cnt, ← EReal.coe_sub]

/-- The reciprocal root in the centred arrangement is the shared real one. -/
theorem rsqrtR_coe (xr : Sh3.Idx → ℝ) (ε : ℝ) (hε : 0 < ε) (hεe : eps = (ε : EReal)) (e : Fin 128) :
    Ideal.rsqrt (Ideal.div (sqC (centred fun i => (xr i : EReal)) e) cnt + eps) = (rstdR xr ε e : EReal) := by
  have hq : sqC (centred fun i => (xr i : EReal)) e
      = ((∑ b : Fin 1024, ∑ d : Fin 128,
          (xr (ix3 b e d) - sumR xr e / 131072) * (xr (ix3 b e d) - sumR xr e / 131072) : ℝ) : EReal) := by
    unfold sqC
    rw [coe_sum]
    refine Finset.sum_congr rfl fun b _ => ?_
    rw [coe_sum]
    refine Finset.sum_congr rfl fun d _ => ?_
    rw [centred_coe, ← EReal.coe_mul]
  rw [hq, div_cnt, hεe, ← EReal.coe_add, varR_eq, rsqrt_pos (varR_pos xr ε hε e)]
  rfl

/-- The reciprocal root in the folded arrangement is the same real. -/
theorem rsqrtK_coe (xr : Sh3.Idx → ℝ) (ε : ℝ) (hε : 0 < ε) (hεe : eps = (ε : EReal)) (e : Fin 128) :
    Ideal.rsqrt ((Ideal.div (sqC (fun i => (xr i : EReal)) e) cnt
        - Ideal.div (sumC (fun i => (xr i : EReal)) e) cnt * Ideal.div (sumC (fun i => (xr i : EReal)) e) cnt) + eps)
      = (rstdR xr ε e : EReal) := by
  rw [sumC_coe, sqC_coe, div_cnt, div_cnt, ← EReal.coe_mul, ← EReal.coe_sub, hεe, ← EReal.coe_add,
    rsqrt_pos (varR_pos xr ε hε e)]
  rfl

/-- Both arrangements, at one entry of an array of reals with real rows, as coercions of reals. -/
theorem bnK_coe (xr : Sh3.Idx → ℝ) (gr βr : ShV.Idx → ℝ) (ε : ℝ) (hε : 0 < ε) (hεe : eps = (ε : EReal))
    (b : Fin 1024) (e : Fin 128) (d : Fin 128) :
    bnK (fun i => (xr i : EReal)) (fun j => (gr j : EReal)) (fun j => (βr j : EReal)) (ix3 b e d)
      = ((xr (ix3 b e d) * (gr (ix1 e) * rstdR xr ε e)
          + (βr (ix1 e) - sumR xr e / 131072 * (gr (ix1 e) * rstdR xr ε e)) : ℝ) : EReal) := by
  show (xr (ix3 b e d) : EReal) * ((gr (ix1 e) : EReal) * Ideal.rsqrt _)
      + ((βr (ix1 e) : EReal) - Ideal.div (sumC (fun i => (xr i : EReal)) e) cnt * ((gr (ix1 e) : EReal) * Ideal.rsqrt _)) = _
  rw [rsqrtK_coe xr ε hε hεe e, sumC_coe, div_cnt, ← EReal.coe_mul, ← EReal.coe_mul, ← EReal.coe_mul,
    ← EReal.coe_sub, ← EReal.coe_add]

theorem bnR_coe (xr : Sh3.Idx → ℝ) (gr βr : ShV.Idx → ℝ) (ε : ℝ) (hε : 0 < ε) (hεe : eps = (ε : EReal))
    (b : Fin 1024) (e : Fin 128) (d : Fin 128) :
    bnR (fun i => (xr i : EReal)) (fun j => (gr j : EReal)) (fun j => (βr j : EReal)) (ix3 b e d)
      = ((((xr (ix3 b e d) - sumR xr e / 131072) * rstdR xr ε e) * gr (ix1 e) + βr (ix1 e) : ℝ) : EReal) := by
  show (centred (fun i => (xr i : EReal)) (ix3 b e d)
      * Ideal.rsqrt (Ideal.div (sqC (centred fun i => (xr i : EReal)) e) cnt + eps)) * (gr (ix1 e) : EReal)
      + (βr (ix1 e) : EReal) = _
  rw [rsqrtR_coe xr ε hε hεe e, centred_coe, ← EReal.coe_mul, ← EReal.coe_mul, ← EReal.coe_add]

/-- The two arrangements agree on an array of reals with real scale and offset rows, -/
theorem bnK_eq_bnR (x : T3) (g β : ShV.Idx → EReal) (hx : ∀ i, IsR (x i)) (hg : ∀ i, IsR (g i)) (hβ : ∀ i, IsR (β i)) :
    bnK x g β = bnR x g β := by
  choose xr hxr using hx
  choose gr hgr using hg
  choose βr hβr using hβ
  obtain rfl : x = fun i => (xr i : EReal) := funext hxr
  obtain rfl : g = fun j => (gr j : EReal) := funext hgr
  obtain rfl : β = fun j => (βr j : EReal) := funext hβr
  obtain ⟨ε, hε, hεe⟩ := eps_pos
  funext i
  obtain ⟨b, e, d, rfl⟩ : ∃ b e d, i = ix3 b e d := ⟨i 0, i 1, i 2, eq_ix3 i⟩
  rw [bnK_coe xr gr βr ε hε hεe, bnR_coe xr gr βr ε hε hεe]
  exact congrArg _ (aff_id _ _ _ _ _)

/-- and the result is an array of reals. -/
theorem bnR_real (x : T3) (g β : ShV.Idx → EReal) (hx : ∀ i, IsR (x i)) (hg : ∀ i, IsR (g i)) (hβ : ∀ i, IsR (β i)) :
    ∀ i, IsR (bnR x g β i) := by
  choose xr hxr using hx
  choose gr hgr using hg
  choose βr hβr using hβ
  obtain rfl : x = fun i => (xr i : EReal) := funext hxr
  obtain rfl : g = fun j => (gr j : EReal) := funext hgr
  obtain rfl : β = fun j => (βr j : EReal) := funext hβr
  obtain ⟨ε, hε, hεe⟩ := eps_pos
  intro i
  obtain ⟨b, e, d, rfl⟩ : ∃ b e d, i = ix3 b e d := ⟨i 0, i 1, i 2, eq_ix3 i⟩
  rw [bnR_coe xr gr βr ε hε hεe]
  exact IsR.coe _

end Cert.Spec

end
-- ==== Proof.Algebra.lean ====
/-
  On real inputs the two arrangements of the whole network agree: the first layer's array is real, so the first
  normalisations agree and give a real array; the clamp and the second layer keep it real, so the second normalisations
  agree as well.
-/
import proofs.«137522_j79800492360363_1_alg».proof.Proof.Spec
import proofs.«137522_j79800492360363_1_alg».proof.Proof.AlgReal
import proofs.«137522_j79800492360363_1_alg».proof.Proof.AlgBn
import Mathlib.Data.EReal.Basic
import Mathlib.Data.EReal.Operations
import Mathlib.Analysis.SpecialFunctions.Pow.Real
import Mathlib.Algebra.BigOperators.Ring.Finset
import Mathlib.Tactic.Ring
import Mathlib.Tactic.Positivity
import Mathlib.Tactic.FieldSimp
import Mathlib.Tactic.Linarith

set_option maxRecDepth 16384

noncomputable section

open Idealize.ShloMosaic Idealize.ShloMosaic.ValueIdx

namespace Cert.Spec

theorem outK_eq_outR (go : ShG.Idx → EReal) (eout : T3) (ss es : ShS.Idx → EReal) (W1 : ShW1.Idx → EReal) (b1 : ShV.Idx → EReal)
    (W2 : ShW.Idx → EReal) (b2 g1 β1 g2 β2 : ShV.Idx → EReal)
    (h0 : ∀ i, IsR (go i)) (h2 : ∀ i, IsR (ss i)) (h3 : ∀ i, IsR (es i)) (h4 : ∀ i, IsR (W1 i)) (h5 : ∀ i, IsR (b1 i))
    (h6 : ∀ i, IsR (W2 i)) (h7 : ∀ i, IsR (b2 i)) (h8 : ∀ i, IsR (g1 i)) (h9 : ∀ i, IsR (β1 i)) (h10 : ∀ i, IsR (g2 i))
    (h11 : ∀ i, IsR (β2 i)) :
    outK go eout ss es W1 b1 W2 b2 g1 β1 g2 β2 = outR go eout ss es W1 b1 W2 b2 g1 β1 g2 β2 := by
  have hh1 := lin1_real ss es go W1 b1 h2 h3 h0 h4 h5
  have e1 := bnK_eq_bnR _ g1 β1 hh1 h8 h9
  have hh2 := lin2_real _ W2 b2 (relu_real _ (bnR_real _ g1 β1 hh1 h8 h9)) h6 h7
  funext i
  unfold outK outR
  rw [e1, bnK_eq_bnR _ g2 β2 hh2 h10 h11]

end Cert.Spec

end
-- ==== Proof.lean ====
/-
  The certificate's five claims.

  Both programs compute one network — a linear layer over two batched products, a per-channel normalisation and a clamp,
  a second linear layer, a second normalisation, a residual sum and a final clamp — and differ in how the normalisation is
  arranged: the kernel accumulates each channel's sum and sum of squares while it writes the layer, takes the variance
  as E[x²] − E[x]², and folds mean, variance, scale and offset into one multiply-add per entry; the reference centres
  the array, averages the squared centred entries, and multiplies by the reciprocal root, the scale and adds the offset
  in turn. Over the extended reals the two are the same function as soon as every input entry is a real number, which
  the precondition says: then every intermediate entry is real, the two variances are the same non-negative real, and the
  two multiply-adds agree by distributivity.

  The frames of the two kernel programs are the generated ones; the reference's frame is its generated run with the
  result dropped. The ideal pass rewrote nothing, so `preserves` is trivial.
-/
import proofs.«137522_j79800492360363_1_alg».proof.Defs
import proofs.«137522_j79800492360363_1_alg».proof.Proof.Gen.Kernel
import proofs.«137522_j79800492360363_1_alg».proof.Proof.Gen.Kernel.Skeleton
import proofs.«137522_j79800492360363_1_alg».proof.Proof.Gen.Kernel.Launch
import proofs.«137522_j79800492360363_1_alg».proof.Proof.Gen.Kernel.Points
import proofs.«137522_j79800492360363_1_alg».proof.Proof.Gen.Kernel.Frame
import proofs.«137522_j79800492360363_1_alg».proof.Proof.Gen.KernelIdeal
import proofs.«137522_j79800492360363_1_alg».proof.Proof.Gen.KernelIdeal.Skeleton
import proofs.«137522_j79800492360363_1_alg».proof.Proof.Gen.KernelIdeal.Launch
import proofs.«137522_j79800492360363_1_alg».proof.Proof.Gen.KernelIdeal.Points
import proofs.«137522_j79800492360363_1_alg».proof.Proof.Gen.KernelIdeal.Frame
import proofs.«137522_j79800492360363_1_alg».proof.Proof.Gen.ReferenceIdeal
import proofs.«137522_j79800492360363_1_alg».proof.Proof.Gen.ReferenceIdeal.Run
import proofs.«137522_j79800492360363_1_alg».proof.Proof.Gen.ReferenceIdeal.Read
import proofs.«137522_j79800492360363_1_alg».proof.Proof.Gen.Pre_finite_inputs
import proofs.«137522_j79800492360363_1_alg».proof.Proof.Spec
import proofs.«137522_j79800492360363_1_alg».proof.Proof.ValRun
import proofs.«137522_j79800492360363_1_alg».proof.Proof.Chain
import proofs.«137522_j79800492360363_1_alg».proof.Proof.RefVal
import proofs.«137522_j79800492360363_1_alg».proof.Proof.PreReal
import proofs.«137522_j79800492360363_1_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network in its centred arrangement, of arguments that agree: the
    kernel's run ends at the folded arrangement of its launch contents, which is the centred one because the
    precondition makes every entry real; the reference's run ends at the centred arrangement by its stages. -/
theorem algebraic : Cert.algebraic_KernelIdeal_ReferenceIdeal := by
  intro m ρ m' ρ' hpre hagree
  refine ⟨fun c => Cert.Spec.outR (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11)), ?_, ?_⟩
  · refine (θ_run Cert.KernelIdeal.defs _ _).mono (fun _ h c => ⟨(h c).1.trans ?_, (h c).2⟩)
      (Cert.KernelIdeal.ValRun.run (F := Ideal) m ρ)
    obtain ⟨r0, r1, r2, r3, r4, r5, r6, r7, r8, r9, r10, r11⟩ := Cert.PreReal.real_of_fn _ _ _ _ _ _ _ _ _ _ _ _ (hpre c)
    rw [Cert.KernelIdeal.Chain.result_eq]
    exact Cert.Spec.outK_eq_outR _ _ _ _ _ _ _ _ _ _ _ _ r0 r2 r3 r4 r5 r6 r7 r8 r9 r10 r11
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v61_eq, Cert.ReferenceIdeal.RefVal.out_eq, e0, e1, e2, e3, e4, e5, e6, e7, e8, e9,
      e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
